-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S128x8192 : Shape := ⟨2, ![128, 8192]⟩
abbrev S128 : Shape := ⟨1, ![128]⟩
abbrev S128x1 : Shape := ⟨2, ![128, 1]⟩
abbrev S8192x128 : Shape := ⟨2, ![8192, 128]⟩
abbrev S1x128 : Shape := ⟨2, ![1, 128]⟩

abbrev nBuf : Space → Nat
  | .hbm => 21
  | .vmem => 80
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S128x8192, .f32⟩
  | .local _ .vmem, ⟨9, _⟩ => ⟨S128x8192, .f32⟩
  | .local _ .vmem, ⟨10, _⟩ => ⟨S128x8192, .f32⟩
  | .local _ .vmem, ⟨11, _⟩ => ⟨S128x8192, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S128x8192, .f32⟩
  | .local _ .vmem, ⟨17, _⟩ => ⟨S128x8192, .f32⟩
  | .local _ .vmem, ⟨18, _⟩ => ⟨S128x8192, .f32⟩
  | .local _ .vmem, ⟨19, _⟩ => ⟨S128x8192, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | .local _ .vmem, ⟨24, _⟩ => ⟨S128x8192, .f32⟩
  | .local _ .vmem, ⟨25, _⟩ => ⟨S128x8192, .f32⟩
  | .local _ .vmem, ⟨26, _⟩ => ⟨S128x8192, .f32⟩
  | .local _ .vmem, ⟨27, _⟩ => ⟨S128x8192, .f32⟩
  | .local _ .vmem, ⟨28, _⟩ => ⟨S8192x128, .f32⟩
  | .local _ .vmem, ⟨29, _⟩ => ⟨S8192x128, .f32⟩
  | .local _ .vmem, ⟨30, _⟩ => ⟨S8192x128, .f32⟩
  | .local _ .vmem, ⟨31, _⟩ => ⟨S8192x128, .f32⟩
  | .local _ .vmem, ⟨32, _⟩ => ⟨S128x8192, .f32⟩
  | .local _ .vmem, ⟨33, _⟩ => ⟨S128x8192, .f32⟩
  | .local _ .vmem, ⟨34, _⟩ => ⟨S128x8192, .f32⟩
  | .local _ .vmem, ⟨35, _⟩ => ⟨S128x8192, .f32⟩
  | .local _ .vmem, ⟨36, _⟩ => ⟨S8192x128, .f32⟩
  | .local _ .vmem, ⟨37, _⟩ => ⟨S8192x128, .f32⟩
  | .local _ .vmem, ⟨38, _⟩ => ⟨S8192x128, .f32⟩
  | .local _ .vmem, ⟨39, _⟩ => ⟨S8192x128, .f32⟩
  | .local _ .vmem, ⟨40, _⟩ => ⟨S128x8192, .f32⟩
  | .local _ .vmem, ⟨41, _⟩ => ⟨S128x8192, .f32⟩
  | .local _ .vmem, ⟨42, _⟩ => ⟨S128x8192, .f32⟩
  | .local _ .vmem, ⟨43, _⟩ => ⟨S128x8192, .f32⟩
  | .local _ .vmem, ⟨44, _⟩ => ⟨S8192x128, .f32⟩
  | .local _ .vmem, ⟨45, _⟩ => ⟨S8192x128, .f32⟩
  | .local _ .vmem, ⟨46, _⟩ => ⟨S8192x128, .f32⟩
  | .local _ .vmem, ⟨47, _⟩ => ⟨S8192x128, .f32⟩
  | .local _ .vmem, ⟨48, _⟩ => ⟨S128x8192, .f32⟩
  | .local _ .vmem, ⟨49, _⟩ => ⟨S128x8192, .f32⟩
  | .local _ .vmem, ⟨50, _⟩ => ⟨S128x8192, .f32⟩
  | .local _ .vmem, ⟨51, _⟩ => ⟨S128x8192, .f32⟩
  | .local _ .vmem, ⟨52, _⟩ => ⟨S8192x128, .f32⟩
  | .local _ .vmem, ⟨53, _⟩ => ⟨S8192x128, .f32⟩
  | .local _ .vmem, ⟨54, _⟩ => ⟨S8192x128, .f32⟩
  | .local _ .vmem, ⟨55, _⟩ => ⟨S8192x128, .f32⟩
  | .local _ .vmem, ⟨56, _⟩ => ⟨S128x8192, .f32⟩
  | .local _ .vmem, ⟨57, _⟩ => ⟨S128x8192, .f32⟩
  | .local _ .vmem, ⟨58, _⟩ => ⟨S128x8192, .f32⟩
  | .local _ .vmem, ⟨59, _⟩ => ⟨S128x8192, .f32⟩
  | .local _ .vmem, ⟨60, _⟩ => ⟨S8192x128, .f32⟩
  | .local _ .vmem, ⟨61, _⟩ => ⟨S8192x128, .f32⟩
  | .local _ .vmem, ⟨62, _⟩ => ⟨S8192x128, .f32⟩
  | .local _ .vmem, ⟨63, _⟩ => ⟨S8192x128, .f32⟩
  | .local _ .vmem, ⟨64, _⟩ => ⟨S128x8192, .f32⟩
  | .local _ .vmem, ⟨65, _⟩ => ⟨S128x8192, .f32⟩
  | .local _ .vmem, ⟨66, _⟩ => ⟨S128x8192, .f32⟩
  | .local _ .vmem, ⟨67, _⟩ => ⟨S128x8192, .f32⟩
  | .local _ .vmem, ⟨68, _⟩ => ⟨S8192x128, .f32⟩
  | .local _ .vmem, ⟨69, _⟩ => ⟨S8192x128, .f32⟩
  | .local _ .vmem, ⟨70, _⟩ => ⟨S8192x128, .f32⟩
  | .local _ .vmem, ⟨71, _⟩ => ⟨S8192x128, .f32⟩
  | .local _ .vmem, ⟨72, _⟩ => ⟨S128x8192, .f32⟩
  | .local _ .vmem, ⟨73, _⟩ => ⟨S128x8192, .f32⟩
  | .local _ .vmem, ⟨74, _⟩ => ⟨S128x8192, .f32⟩
  | .local _ .vmem, ⟨75, _⟩ => ⟨S128x8192, .f32⟩
  | .local _ .vmem, ⟨76, _⟩ => ⟨S8192x128, .f32⟩
  | .local _ .vmem, ⟨77, _⟩ => ⟨S8192x128, .f32⟩
  | .local _ .vmem, ⟨78, _⟩ => ⟨S8192x128, .f32⟩
  | .local _ .vmem, ⟨79, _⟩ => ⟨S8192x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg1_1 : Ref sig .tc := ⟨.vmem, 31, rfl⟩
abbrev cc8_stg0_0 : Ref sig .tc := ⟨.vmem, 32, rfl⟩
abbrev cc8_stg0_1 : Ref sig .tc := ⟨.vmem, 33, rfl⟩
abbrev cc8_stg1_0 : Ref sig .tc := ⟨.vmem, 34, rfl⟩
abbrev cc8_stg1_1 : Ref sig .tc := ⟨.vmem, 35, rfl⟩
abbrev cc9_stg0_0 : Ref sig .tc := ⟨.vmem, 36, rfl⟩
abbrev cc9_stg0_1 : Ref sig .tc := ⟨.vmem, 37, rfl⟩
abbrev cc9_stg1_0 : Ref sig .tc := ⟨.vmem, 38, rfl⟩
abbrev cc9_stg1_1 : Ref sig .tc := ⟨.vmem, 39, rfl⟩
abbrev cc10_stg0_0 : Ref sig .tc := ⟨.vmem, 40, rfl⟩
abbrev cc10_stg0_1 : Ref sig .tc := ⟨.vmem, 41, rfl⟩
abbrev cc10_stg1_0 : Ref sig .tc := ⟨.vmem, 42, rfl⟩
abbrev cc10_stg1_1 : Ref sig .tc := ⟨.vmem, 43, rfl⟩
abbrev cc11_stg0_0 : Ref sig .tc := ⟨.vmem, 44, rfl⟩
abbrev cc11_stg0_1 : Ref sig .tc := ⟨.vmem, 45, rfl⟩
abbrev cc11_stg1_0 : Ref sig .tc := ⟨.vmem, 46, rfl⟩
abbrev cc11_stg1_1 : Ref sig .tc := ⟨.vmem, 47, rfl⟩
abbrev cc12_stg0_0 : Ref sig .tc := ⟨.vmem, 48, rfl⟩
abbrev cc12_stg0_1 : Ref sig .tc := ⟨.vmem, 49, rfl⟩
abbrev cc12_stg1_0 : Ref sig .tc := ⟨.vmem, 50, rfl⟩
abbrev cc12_stg1_1 : Ref sig .tc := ⟨.vmem, 51, rfl⟩
abbrev cc13_stg0_0 : Ref sig .tc := ⟨.vmem, 52, rfl⟩
abbrev cc13_stg0_1 : Ref sig .tc := ⟨.vmem, 53, rfl⟩
abbrev cc13_stg1_0 : Ref sig .tc := ⟨.vmem, 54, rfl⟩
abbrev cc13_stg1_1 : Ref sig .tc := ⟨.vmem, 55, rfl⟩
abbrev cc14_stg0_0 : Ref sig .tc := ⟨.vmem, 56, rfl⟩
abbrev cc14_stg0_1 : Ref sig .tc := ⟨.vmem, 57, rfl⟩
abbrev cc14_stg1_0 : Ref sig .tc := ⟨.vmem, 58, rfl⟩
abbrev cc14_stg1_1 : Ref sig .tc := ⟨.vmem, 59, rfl⟩
abbrev cc15_stg0_0 : Ref sig .tc := ⟨.vmem, 60, rfl⟩
abbrev cc15_stg0_1 : Ref sig .tc := ⟨.vmem, 61, rfl⟩
abbrev cc15_stg1_0 : Ref sig .tc := ⟨.vmem, 62, rfl⟩
abbrev cc15_stg1_1 : Ref sig .tc := ⟨.vmem, 63, rfl⟩
abbrev cc16_stg0_0 : Ref sig .tc := ⟨.vmem, 64, rfl⟩
abbrev cc16_stg0_1 : Ref sig .tc := ⟨.vmem, 65, rfl⟩
abbrev cc16_stg1_0 : Ref sig .tc := ⟨.vmem, 66, rfl⟩
abbrev cc16_stg1_1 : Ref sig .tc := ⟨.vmem, 67, rfl⟩
abbrev cc17_stg0_0 : Ref sig .tc := ⟨.vmem, 68, rfl⟩
abbrev cc17_stg0_1 : Ref sig .tc := ⟨.vmem, 69, rfl⟩
abbrev cc17_stg1_0 : Ref sig .tc := ⟨.vmem, 70, rfl⟩
abbrev cc17_stg1_1 : Ref sig .tc := ⟨.vmem, 71, rfl⟩
abbrev cc18_stg0_0 : Ref sig .tc := ⟨.vmem, 72, rfl⟩
abbrev cc18_stg0_1 : Ref sig .tc := ⟨.vmem, 73, rfl⟩
abbrev cc18_stg1_0 : Ref sig .tc := ⟨.vmem, 74, rfl⟩
abbrev cc18_stg1_1 : Ref sig .tc := ⟨.vmem, 75, rfl⟩
abbrev cc19_stg0_0 : Ref sig .tc := ⟨.vmem, 76, rfl⟩
abbrev cc19_stg0_1 : Ref sig .tc := ⟨.vmem, 77, rfl⟩
abbrev cc19_stg1_0 : Ref sig .tc := ⟨.vmem, 78, rfl⟩
abbrev cc19_stg1_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27
abbrev cc7_sem0_0 : DmaSem sig := 28
abbrev cc7_sem0_1 : DmaSem sig := 29
abbrev cc7_sem1_0 : DmaSem sig := 30
abbrev cc7_sem1_1 : DmaSem sig := 31
abbrev cc8_sem0_0 : DmaSem sig := 32
abbrev cc8_sem0_1 : DmaSem sig := 33
abbrev cc8_sem1_0 : DmaSem sig := 34
abbrev cc8_sem1_1 : DmaSem sig := 35
abbrev cc9_sem0_0 : DmaSem sig := 36
abbrev cc9_sem0_1 : DmaSem sig := 37
abbrev cc9_sem1_0 : DmaSem sig := 38
abbrev cc9_sem1_1 : DmaSem sig := 39
abbrev cc10_sem0_0 : DmaSem sig := 40
abbrev cc10_sem0_1 : DmaSem sig := 41
abbrev cc10_sem1_0 : DmaSem sig := 42
abbrev cc10_sem1_1 : DmaSem sig := 43
abbrev cc11_sem0_0 : DmaSem sig := 44
abbrev cc11_sem0_1 : DmaSem sig := 45
abbrev cc11_sem1_0 : DmaSem sig := 46
abbrev cc11_sem1_1 : DmaSem sig := 47
abbrev cc12_sem0_0 : DmaSem sig := 48
abbrev cc12_sem0_1 : DmaSem sig := 49
abbrev cc12_sem1_0 : DmaSem sig := 50
abbrev cc12_sem1_1 : DmaSem sig := 51
abbrev cc13_sem0_0 : DmaSem sig := 52
abbrev cc13_sem0_1 : DmaSem sig := 53
abbrev cc13_sem1_0 : DmaSem sig := 54
abbrev cc13_sem1_1 : DmaSem sig := 55
abbrev cc14_sem0_0 : DmaSem sig := 56
abbrev cc14_sem0_1 : DmaSem sig := 57
abbrev cc14_sem1_0 : DmaSem sig := 58
abbrev cc14_sem1_1 : DmaSem sig := 59
abbrev cc15_sem0_0 : DmaSem sig := 60
abbrev cc15_sem0_1 : DmaSem sig := 61
abbrev cc15_sem1_0 : DmaSem sig := 62
abbrev cc15_sem1_1 : DmaSem sig := 63
abbrev cc16_sem0_0 : DmaSem sig := 64
abbrev cc16_sem0_1 : DmaSem sig := 65
abbrev cc16_sem1_0 : DmaSem sig := 66
abbrev cc16_sem1_1 : DmaSem sig := 67
abbrev cc17_sem0_0 : DmaSem sig := 68
abbrev cc17_sem0_1 : DmaSem sig := 69
abbrev cc17_sem1_0 : DmaSem sig := 70
abbrev cc17_sem1_1 : DmaSem sig := 71
abbrev cc18_sem0_0 : DmaSem sig := 72
abbrev cc18_sem0_1 : DmaSem sig := 73
abbrev cc18_sem1_0 : DmaSem sig := 74
abbrev cc18_sem1_1 : DmaSem sig := 75
abbrev cc19_sem0_0 : DmaSem sig := 76
abbrev cc19_sem0_1 : DmaSem sig := 77
abbrev cc19_sem1_0 : DmaSem sig := 78
abbrev cc19_sem1_1 : DmaSem sig := 79

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x8192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x8192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x8192 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x8192 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![64], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S8192x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8192x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![64], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S128x8192 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S128x8192 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![64], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage9_0 : Fin 2 → Memref sig .tc .vmem S8192x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8192x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨1, ![64], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S128x8192 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S128x8192 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev grid11 : Pipeline.Grid := ⟨1, ![64], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_1 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage11_0 : Fin 2 → Memref sig .tc .vmem S8192x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8192x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev grid12 : Pipeline.Grid := ⟨1, ![64], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S128x8192 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S128x8192 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev grid13 : Pipeline.Grid := ⟨1, ![64], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_1 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage13_0 : Fin 2 → Memref sig .tc .vmem S8192x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8192x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev grid14 : Pipeline.Grid := ⟨1, ![64], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S128x8192 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S128x8192 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev grid15 : Pipeline.Grid := ⟨1, ![64], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![c0_i32.toNat, arg0.toNat]

def cc15_transform_1 (i : grid15.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage15_0 : Fin 2 → Memref sig .tc .vmem S8192x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S8192x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev grid16 : Pipeline.Grid := ⟨1, ![64], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S128x8192 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S128x8192 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev grid17 : Pipeline.Grid := ⟨1, ![64], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![c0_i32.toNat, arg0.toNat]

def cc17_transform_1 (i : grid17.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage17_0 : Fin 2 → Memref sig .tc .vmem S8192x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S8192x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev grid18 : Pipeline.Grid := ⟨1, ![64], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S128x8192 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S128x8192 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev grid19 : Pipeline.Grid := ⟨1, ![64], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![c0_i32.toNat, arg0.toNat]

def cc19_transform_1 (i : grid19.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage19_0 : Fin 2 → Memref sig .tc .vmem S8192x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S8192x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

class Facts₀ : Prop where
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  broadcasts_S128x1_S128x8192 : S128x1.Broadcasts S128x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  broadcasts_S1x128_S8192x128 : S1x128.Broadcasts S8192x128
  shapeCasts_S128x8192_S128x8192 : S128x8192.ShapeCasts S128x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x8192.size a
  hwx1_0 : ∀ i : grid1.Coords, EltTy.bits .f32 = 32 ∨ (Rect.block (s := S8192x8192) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x8192.size a
  hwx1_1 : ∀ i : grid1.Coords, EltTy.bits .f32 = 32 ∨ (Rect.block (s := S8192x8192) S8192x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x8192.size a ≤ S8192x8192.size a
  hwx2_0 : ∀ i : grid2.Coords, EltTy.bits .f32 = 32 ∨ (Rect.block (s := S8192x8192) S128x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x8192.size a ≤ S8192x8192.size a
  hwx2_1 : ∀ i : grid2.Coords, EltTy.bits .f32 = 32 ∨ (Rect.block (s := S8192x8192) S128x8192.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S8192x8192.size a
  hwx3_0 : ∀ i : grid3.Coords, EltTy.bits .f32 = 32 ∨ (Rect.block (s := S8192x8192) S8192x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x8192.size a
  hwx3_1 : ∀ i : grid3.Coords, EltTy.bits .f32 = 32 ∨ (Rect.block (s := S8192x8192) S8192x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x8192.size a ≤ S8192x8192.size a
  hwx4_0 : ∀ i : grid4.Coords, EltTy.bits .f32 = 32 ∨ (Rect.block (s := S8192x8192) S128x8192.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x8192.size a ≤ S8192x8192.size a
  hwx4_1 : ∀ i : grid4.Coords, EltTy.bits .f32 = 32 ∨ (Rect.block (s := S8192x8192) S128x8192.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x128.size a ≤ S8192x8192.size a
  hwx5_0 : ∀ i : grid5.Coords, EltTy.bits .f32 = 32 ∨ (Rect.block (s := S8192x8192) S8192x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x128.size a ≤ S8192x8192.size a
  hwx5_1 : ∀ i : grid5.Coords, EltTy.bits .f32 = 32 ∨ (Rect.block (s := S8192x8192) S8192x128.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S128x8192.size a ≤ S8192x8192.size a
  hwx6_0 : ∀ i : grid6.Coords, EltTy.bits .f32 = 32 ∨ (Rect.block (s := S8192x8192) S128x8192.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S128x8192.size a ≤ S8192x8192.size a
  hwx6_1 : ∀ i : grid6.Coords, EltTy.bits .f32 = 32 ∨ (Rect.block (s := S8192x8192) S128x8192.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x128.size a ≤ S8192x8192.size a
  hwx7_0 : ∀ i : grid7.Coords, EltTy.bits .f32 = 32 ∨ (Rect.block (s := S8192x8192) S8192x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8192x128.size a ≤ S8192x8192.size a
  hwx7_1 : ∀ i : grid7.Coords, EltTy.bits .f32 = 32 ∨ (Rect.block (s := S8192x8192) S8192x128.size (cc7_transform_1 i) (hinb7_1 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S128x8192.size a ≤ S8192x8192.size a
  hwx8_0 : ∀ i : grid8.Coords, EltTy.bits .f32 = 32 ∨ (Rect.block (s := S8192x8192) S128x8192.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S128x8192.size a ≤ S8192x8192.size a
  hwx8_1 : ∀ i : grid8.Coords, EltTy.bits .f32 = 32 ∨ (Rect.block (s := S8192x8192) S128x8192.size (cc8_transform_1 i) (hinb8_1 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x128.size a ≤ S8192x8192.size a
  hwx9_0 : ∀ i : grid9.Coords, EltTy.bits .f32 = 32 ∨ (Rect.block (s := S8192x8192) S8192x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8192x128.size a ≤ S8192x8192.size a
  hwx9_1 : ∀ i : grid9.Coords, EltTy.bits .f32 = 32 ∨ (Rect.block (s := S8192x8192) S8192x128.size (cc9_transform_1 i) (hinb9_1 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S128x8192.size a ≤ S8192x8192.size a
  hwx10_0 : ∀ i : grid10.Coords, EltTy.bits .f32 = 32 ∨ (Rect.block (s := S8192x8192) S128x8192.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S128x8192.size a ≤ S8192x8192.size a
  hwx10_1 : ∀ i : grid10.Coords, EltTy.bits .f32 = 32 ∨ (Rect.block (s := S8192x8192) S128x8192.size (cc10_transform_1 i) (hinb10_1 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8192x128.size a ≤ S8192x8192.size a
  hwx11_0 : ∀ i : grid11.Coords, EltTy.bits .f32 = 32 ∨ (Rect.block (s := S8192x8192) S8192x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S8192x128.size a ≤ S8192x8192.size a
  hwx11_1 : ∀ i : grid11.Coords, EltTy.bits .f32 = 32 ∨ (Rect.block (s := S8192x8192) S8192x128.size (cc11_transform_1 i) (hinb11_1 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S128x8192.size a ≤ S8192x8192.size a
  hwx12_0 : ∀ i : grid12.Coords, EltTy.bits .f32 = 32 ∨ (Rect.block (s := S8192x8192) S128x8192.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S128x8192.size a ≤ S8192x8192.size a
  hwx12_1 : ∀ i : grid12.Coords, EltTy.bits .f32 = 32 ∨ (Rect.block (s := S8192x8192) S128x8192.size (cc12_transform_1 i) (hinb12_1 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8192x128.size a ≤ S8192x8192.size a
  hwx13_0 : ∀ i : grid13.Coords, EltTy.bits .f32 = 32 ∨ (Rect.block (s := S8192x8192) S8192x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S8192x128.size a ≤ S8192x8192.size a
  hwx13_1 : ∀ i : grid13.Coords, EltTy.bits .f32 = 32 ∨ (Rect.block (s := S8192x8192) S8192x128.size (cc13_transform_1 i) (hinb13_1 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S128x8192.size a ≤ S8192x8192.size a
  hwx14_0 : ∀ i : grid14.Coords, EltTy.bits .f32 = 32 ∨ (Rect.block (s := S8192x8192) S128x8192.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S128x8192.size a ≤ S8192x8192.size a
  hwx14_1 : ∀ i : grid14.Coords, EltTy.bits .f32 = 32 ∨ (Rect.block (s := S8192x8192) S128x8192.size (cc14_transform_1 i) (hinb14_1 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S8192x128.size a ≤ S8192x8192.size a
  hwx15_0 : ∀ i : grid15.Coords, EltTy.bits .f32 = 32 ∨ (Rect.block (s := S8192x8192) S8192x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S8192x128.size a ≤ S8192x8192.size a
  hwx15_1 : ∀ i : grid15.Coords, EltTy.bits .f32 = 32 ∨ (Rect.block (s := S8192x8192) S8192x128.size (cc15_transform_1 i) (hinb15_1 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S128x8192.size a ≤ S8192x8192.size a
  hwx16_0 : ∀ i : grid16.Coords, EltTy.bits .f32 = 32 ∨ (Rect.block (s := S8192x8192) S128x8192.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S128x8192.size a ≤ S8192x8192.size a
  hwx16_1 : ∀ i : grid16.Coords, EltTy.bits .f32 = 32 ∨ (Rect.block (s := S8192x8192) S128x8192.size (cc16_transform_1 i) (hinb16_1 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S8192x128.size a ≤ S8192x8192.size a
  hwx17_0 : ∀ i : grid17.Coords, EltTy.bits .f32 = 32 ∨ (Rect.block (s := S8192x8192) S8192x128.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S8192x128.size a ≤ S8192x8192.size a
  hwx17_1 : ∀ i : grid17.Coords, EltTy.bits .f32 = 32 ∨ (Rect.block (s := S8192x8192) S8192x128.size (cc17_transform_1 i) (hinb17_1 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S128x8192.size a ≤ S8192x8192.size a
  hwx18_0 : ∀ i : grid18.Coords, EltTy.bits .f32 = 32 ∨ (Rect.block (s := S8192x8192) S128x8192.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S128x8192.size a ≤ S8192x8192.size a
  hwx18_1 : ∀ i : grid18.Coords, EltTy.bits .f32 = 32 ∨ (Rect.block (s := S8192x8192) S128x8192.size (cc18_transform_1 i) (hinb18_1 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S8192x128.size a ≤ S8192x8192.size a
  hwx19_0 : ∀ i : grid19.Coords, EltTy.bits .f32 = 32 ∨ (Rect.block (s := S8192x8192) S8192x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S8192x128.size a ≤ S8192x8192.size a
  hwx19_1 : ∀ i : grid19.Coords, EltTy.bits .f32 = 32 ∨ (Rect.block (s := S8192x8192) S8192x128.size (cc19_transform_1 i) (hinb19_1 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S128x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S128x8192.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v2) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S8192x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v3) S128x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S128x8192.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v4) S8192x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S8192x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v5) S128x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S128x8192.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v6) S8192x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v7) S8192x128.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

abbrev win8_0 : Pipeline.Window sig grid8 :=
  Pipeline.Window.ofSpec (Memref.whole main_v7) S128x8192.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v8) S128x8192.size cc8_transform_1 reads8_1 true false 2 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_v8) S8192x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v9) S8192x128.size cc9_transform_1 reads9_1 true false 2 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_v9) S128x8192.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v10) S128x8192.size cc10_transform_1 reads10_1 true false 2 stage10_1 sem10_1
    hrank10 hreads10_1 hinb10_1 nbuf10_1 (Memref.isWhole_whole _) hwx10_1 hstage10_1

abbrev win10 : Fin 2 → Pipeline.Window sig grid10 := fun | 0 => win10_0 | 1 => win10_1 | ⟨_ + 2, h⟩ => absurd h (Nat.not_lt.2 (Nat.le_add_left _ _))
abbrev spec10 : Fin 2 → Pipeline.WinSpec sig grid10.rank := fun w => (win10 w).toWinSpec

abbrev win11_0 : Pipeline.Window sig grid11 :=
  Pipeline.Window.ofSpec (Memref.whole main_v10) S8192x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v11) S8192x128.size cc11_transform_1 reads11_1 true false 2 stage11_1 sem11_1
    hrank11 hreads11_1 hinb11_1 nbuf11_1 (Memref.isWhole_whole _) hwx11_1 hstage11_1

abbrev win11 : Fin 2 → Pipeline.Window sig grid11 := fun | 0 => win11_0 | 1 => win11_1 | ⟨_ + 2, h⟩ => absurd h (Nat.not_lt.2 (Nat.le_add_left _ _))
abbrev spec11 : Fin 2 → Pipeline.WinSpec sig grid11.rank := fun w => (win11 w).toWinSpec

abbrev win12_0 : Pipeline.Window sig grid12 :=
  Pipeline.Window.ofSpec (Memref.whole main_v11) S128x8192.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v12) S128x8192.size cc12_transform_1 reads12_1 true false 2 stage12_1 sem12_1
    hrank12 hreads12_1 hinb12_1 nbuf12_1 (Memref.isWhole_whole _) hwx12_1 hstage12_1

abbrev win12 : Fin 2 → Pipeline.Window sig grid12 := fun | 0 => win12_0 | 1 => win12_1 | ⟨_ + 2, h⟩ => absurd h (Nat.not_lt.2 (Nat.le_add_left _ _))
abbrev spec12 : Fin 2 → Pipeline.WinSpec sig grid12.rank := fun w => (win12 w).toWinSpec

abbrev win13_0 : Pipeline.Window sig grid13 :=
  Pipeline.Window.ofSpec (Memref.whole main_v12) S8192x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v13) S8192x128.size cc13_transform_1 reads13_1 true false 2 stage13_1 sem13_1
    hrank13 hreads13_1 hinb13_1 nbuf13_1 (Memref.isWhole_whole _) hwx13_1 hstage13_1

abbrev win13 : Fin 2 → Pipeline.Window sig grid13 := fun | 0 => win13_0 | 1 => win13_1 | ⟨_ + 2, h⟩ => absurd h (Nat.not_lt.2 (Nat.le_add_left _ _))
abbrev spec13 : Fin 2 → Pipeline.WinSpec sig grid13.rank := fun w => (win13 w).toWinSpec

abbrev win14_0 : Pipeline.Window sig grid14 :=
  Pipeline.Window.ofSpec (Memref.whole main_v13) S128x8192.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v14) S128x8192.size cc14_transform_1 reads14_1 true false 2 stage14_1 sem14_1
    hrank14 hreads14_1 hinb14_1 nbuf14_1 (Memref.isWhole_whole _) hwx14_1 hstage14_1

abbrev win14 : Fin 2 → Pipeline.Window sig grid14 := fun | 0 => win14_0 | 1 => win14_1 | ⟨_ + 2, h⟩ => absurd h (Nat.not_lt.2 (Nat.le_add_left _ _))
abbrev spec14 : Fin 2 → Pipeline.WinSpec sig grid14.rank := fun w => (win14 w).toWinSpec

abbrev win15_0 : Pipeline.Window sig grid15 :=
  Pipeline.Window.ofSpec (Memref.whole main_v14) S8192x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v15) S8192x128.size cc15_transform_1 reads15_1 true false 2 stage15_1 sem15_1
    hrank15 hreads15_1 hinb15_1 nbuf15_1 (Memref.isWhole_whole _) hwx15_1 hstage15_1

abbrev win15 : Fin 2 → Pipeline.Window sig grid15 := fun | 0 => win15_0 | 1 => win15_1 | ⟨_ + 2, h⟩ => absurd h (Nat.not_lt.2 (Nat.le_add_left _ _))
abbrev spec15 : Fin 2 → Pipeline.WinSpec sig grid15.rank := fun w => (win15 w).toWinSpec

abbrev win16_0 : Pipeline.Window sig grid16 :=
  Pipeline.Window.ofSpec (Memref.whole main_v15) S128x8192.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v16) S128x8192.size cc16_transform_1 reads16_1 true false 2 stage16_1 sem16_1
    hrank16 hreads16_1 hinb16_1 nbuf16_1 (Memref.isWhole_whole _) hwx16_1 hstage16_1

abbrev win16 : Fin 2 → Pipeline.Window sig grid16 := fun | 0 => win16_0 | 1 => win16_1 | ⟨_ + 2, h⟩ => absurd h (Nat.not_lt.2 (Nat.le_add_left _ _))
abbrev spec16 : Fin 2 → Pipeline.WinSpec sig grid16.rank := fun w => (win16 w).toWinSpec

abbrev win17_0 : Pipeline.Window sig grid17 :=
  Pipeline.Window.ofSpec (Memref.whole main_v16) S8192x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v17) S8192x128.size cc17_transform_1 reads17_1 true false 2 stage17_1 sem17_1
    hrank17 hreads17_1 hinb17_1 nbuf17_1 (Memref.isWhole_whole _) hwx17_1 hstage17_1

abbrev win17 : Fin 2 → Pipeline.Window sig grid17 := fun | 0 => win17_0 | 1 => win17_1 | ⟨_ + 2, h⟩ => absurd h (Nat.not_lt.2 (Nat.le_add_left _ _))
abbrev spec17 : Fin 2 → Pipeline.WinSpec sig grid17.rank := fun w => (win17 w).toWinSpec

abbrev win18_0 : Pipeline.Window sig grid18 :=
  Pipeline.Window.ofSpec (Memref.whole main_v17) S128x8192.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v18) S128x8192.size cc18_transform_1 reads18_1 true false 2 stage18_1 sem18_1
    hrank18 hreads18_1 hinb18_1 nbuf18_1 (Memref.isWhole_whole _) hwx18_1 hstage18_1

abbrev win18 : Fin 2 → Pipeline.Window sig grid18 := fun | 0 => win18_0 | 1 => win18_1 | ⟨_ + 2, h⟩ => absurd h (Nat.not_lt.2 (Nat.le_add_left _ _))
abbrev spec18 : Fin 2 → Pipeline.WinSpec sig grid18.rank := fun w => (win18 w).toWinSpec

abbrev win19_0 : Pipeline.Window sig grid19 :=
  Pipeline.Window.ofSpec (Memref.whole main_v18) S8192x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v19) S8192x128.size cc19_transform_1 reads19_1 true false 2 stage19_1 sem19_1
    hrank19 hreads19_1 hinb19_1 nbuf19_1 (Memref.isWhole_whole _) hwx19_1 hstage19_1

abbrev win19 : Fin 2 → Pipeline.Window sig grid19 := fun | 0 => win19_0 | 1 => win19_1 | ⟨_ + 2, h⟩ => absurd h (Nat.not_lt.2 (Nat.le_add_left _ _))
abbrev spec19 : Fin 2 → Pipeline.WinSpec sig grid19.rank := fun w => (win19 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 165
  | .vmem => 0
  | .smem => 0
  | _ => 0

abbrev hbmTy0_0 (i : Nat) : BufTy := match i % 128 with
  | 0 => ⟨S8192x8192, .f32⟩
  | 1 => ⟨S_, .f32⟩
  | 2 => ⟨S8192x8192, .f32⟩
  | 3 => ⟨S8192x8192, .f32⟩
  | 4 => ⟨S8192x8192, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S8192x8192, .f32⟩
  | 12 => ⟨S8192x8192, .f32⟩
  | 13 => ⟨S_, .f32⟩
  | 14 => ⟨S8192, .f32⟩
  | 15 => ⟨S1x8192, .f32⟩
  | 16 => ⟨S_, .f32⟩
  | 17 => ⟨S1x8192, .f32⟩
  | 18 => ⟨S1x8192, .f32⟩
  | 19 => ⟨S8192x8192, .f32⟩
  | 20 => ⟨S8192x8192, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S8192x8192, .f32⟩
  | 28 => ⟨S8192x8192, .f32⟩
  | 29 => ⟨S_, .f32⟩
  | 30 => ⟨S8192, .f32⟩
  | 31 => ⟨S1x8192, .f32⟩
  | 32 => ⟨S_, .f32⟩
  | 33 => ⟨S1x8192, .f32⟩
  | 34 => ⟨S1x8192, .f32⟩
  | 35 => ⟨S8192x8192, .f32⟩
  | 36 => ⟨S8192x8192, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S8192x8192, .f32⟩
  | 44 => ⟨S8192x8192, .f32⟩
  | 45 => ⟨S_, .f32⟩
  | 46 => ⟨S8192, .f32⟩
  | 47 => ⟨S1x8192, .f32⟩
  | 48 => ⟨S_, .f32⟩
  | 49 => ⟨S1x8192, .f32⟩
  | 50 => ⟨S1x8192, .f32⟩
  | 51 => ⟨S8192x8192, .f32⟩
  | 52 => ⟨S8192x8192, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S8192x8192, .f32⟩
  | 60 => ⟨S8192x8192, .f32⟩
  | 61 => ⟨S_, .f32⟩
  | 62 => ⟨S8192, .f32⟩
  | 63 => ⟨S1x8192, .f32⟩
  | 64 => ⟨S_, .f32⟩
  | 65 => ⟨S1x8192, .f32⟩
  | 66 => ⟨S1x8192, .f32⟩
  | 67 => ⟨S8192x8192, .f32⟩
  | 68 => ⟨S8192x8192, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S8192x8192, .f32⟩
  | 76 => ⟨S8192x8192, .f32⟩
  | 77 => ⟨S_, .f32⟩
  | 78 => ⟨S8192, .f32⟩
  | 79 => ⟨S1x8192, .f32⟩
  | 80 => ⟨S_, .f32⟩
  | 81 => ⟨S1x8192, .f32⟩
  | 82 => ⟨S1x8192, .f32⟩
  | 83 => ⟨S8192x8192, .f32⟩
  | 84 => ⟨S8192x8192, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S8192x8192, .f32⟩
  | 92 => ⟨S8192x8192, .f32⟩
  | 93 => ⟨S_, .f32⟩
  | 94 => ⟨S8192, .f32⟩
  | 95 => ⟨S1x8192, .f32⟩
  | 96 => ⟨S_, .f32⟩
  | 97 => ⟨S1x8192, .f32⟩
  | 98 => ⟨S1x8192, .f32⟩
  | 99 => ⟨S8192x8192, .f32⟩
  | 100 => ⟨S8192x8192, .f32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S8192x8192, .f32⟩
  | 108 => ⟨S8192x8192, .f32⟩
  | 109 => ⟨S_, .f32⟩
  | 110 => ⟨S8192, .f32⟩
  | 111 => ⟨S1x8192, .f32⟩
  | 112 => ⟨S_, .f32⟩
  | 113 => ⟨S1x8192, .f32⟩
  | 114 => ⟨S1x8192, .f32⟩
  | 115 => ⟨S8192x8192, .f32⟩
  | 116 => ⟨S8192x8192, .f32⟩
  | 117 => ⟨S_, .f32⟩
  | 118 => ⟨S8192, .f32⟩
  | 119 => ⟨S8192x1, .f32⟩
  | 120 => ⟨S_, .f32⟩
  | 121 => ⟨S8192x1, .f32⟩
  | 122 => ⟨S8192x1, .f32⟩
  | 123 => ⟨S8192x8192, .f32⟩
  | 124 => ⟨S8192x8192, .f32⟩
  | 125 => ⟨S_, .f32⟩
  | 126 => ⟨S8192, .f32⟩
  | 127 => ⟨S1x8192, .f32⟩
  | _ => ⟨S8192x8192, .f32⟩

abbrev hbmTy0_1 (i : Nat) : BufTy := match i % 128 with
  | 0 => ⟨S_, .f32⟩
  | 1 => ⟨S1x8192, .f32⟩
  | 2 => ⟨S1x8192, .f32⟩
  | 3 => ⟨S8192x8192, .f32⟩
  | 4 => ⟨S8192x8192, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S8192x8192, .f32⟩
  | 12 => ⟨S8192x8192, .f32⟩
  | 13 => ⟨S_, .f32⟩
  | 14 => ⟨S8192, .f32⟩
  | 15 => ⟨S1x8192, .f32⟩
  | 16 => ⟨S_, .f32⟩
  | 17 => ⟨S1x8192, .f32⟩
  | 18 => ⟨S1x8192, .f32⟩
  | 19 => ⟨S8192x8192, .f32⟩
  | 20 => ⟨S8192x8192, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S8192x8192, .f32⟩
  | 28 => ⟨S8192x8192, .f32⟩
  | 29 => ⟨S_, .f32⟩
  | 30 => ⟨S8192, .f32⟩
  | 31 => ⟨S1x8192, .f32⟩
  | 32 => ⟨S_, .f32⟩
  | 33 => ⟨S1x8192, .f32⟩
  | 34 => ⟨S1x8192, .f32⟩
  | 35 => ⟨S8192x8192, .f32⟩
  | 36 => ⟨S8192x8192, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_v22 : Ref sig .tc := ⟨.hbm, 31, rfl⟩
abbrev main_cst_7 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_8 : Ref sig .tc := ⟨.hbm, 37, rfl⟩
abbrev main_v27 : Ref sig .tc := ⟨.hbm, 38, rfl⟩
abbrev main_v28 : Ref sig .tc := ⟨.hbm, 39, rfl⟩
abbrev main_cst_9 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_10 : Ref sig .tc := ⟨.hbm, 45, rfl⟩
abbrev main_v33 : Ref sig .tc := ⟨.hbm, 46, rfl⟩
abbrev main_v34 : Ref sig .tc := ⟨.hbm, 47, rfl⟩
abbrev main_cst_11 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_12 : Ref sig .tc := ⟨.hbm, 53, rfl⟩
abbrev main_v39 : Ref sig .tc := ⟨.hbm, 54, rfl⟩
abbrev main_v40 : Ref sig .tc := ⟨.hbm, 55, rfl⟩
abbrev main_cst_13 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_14 : Ref sig .tc := ⟨.hbm, 61, rfl⟩
abbrev main_v45 : Ref sig .tc := ⟨.hbm, 62, rfl⟩
abbrev main_v46 : Ref sig .tc := ⟨.hbm, 63, rfl⟩
abbrev main_cst_15 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_16 : Ref sig .tc := ⟨.hbm, 69, rfl⟩
abbrev main_v51 : Ref sig .tc := ⟨.hbm, 70, rfl⟩
abbrev main_v52 : Ref sig .tc := ⟨.hbm, 71, rfl⟩
abbrev main_cst_17 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_18 : Ref sig .tc := ⟨.hbm, 77, rfl⟩
abbrev main_v57 : Ref sig .tc := ⟨.hbm, 78, rfl⟩
abbrev main_v58 : Ref sig .tc := ⟨.hbm, 79, rfl⟩
abbrev main_cst_19 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_20 : Ref sig .tc := ⟨.hbm, 85, rfl⟩
abbrev main_v63 : Ref sig .tc := ⟨.hbm, 86, rfl⟩
abbrev main_v64 : Ref sig .tc := ⟨.hbm, 87, rfl⟩
abbrev main_cst_21 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_22 : Ref sig .tc := ⟨.hbm, 93, rfl⟩
abbrev main_v69 : Ref sig .tc := ⟨.hbm, 94, rfl⟩
abbrev main_v70 : Ref sig .tc := ⟨.hbm, 95, rfl⟩
abbrev main_cst_23 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_24 : Ref sig .tc := ⟨.hbm, 101, rfl⟩
abbrev main_v75 : Ref sig .tc := ⟨.hbm, 102, rfl⟩
abbrev main_v76 : Ref sig .tc := ⟨.hbm, 103, rfl⟩
abbrev main_cst_25 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_26 : Ref sig .tc := ⟨.hbm, 109, rfl⟩
abbrev main_v81 : Ref sig .tc := ⟨.hbm, 110, rfl⟩
abbrev main_v82 : Ref sig .tc := ⟨.hbm, 111, rfl⟩
abbrev main_cst_27 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_28 : Ref sig .tc := ⟨.hbm, 117, rfl⟩
abbrev main_v87 : Ref sig .tc := ⟨.hbm, 118, rfl⟩
abbrev main_v88 : Ref sig .tc := ⟨.hbm, 119, rfl⟩
abbrev main_cst_29 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_30 : Ref sig .tc := ⟨.hbm, 125, rfl⟩
abbrev main_v93 : Ref sig .tc := ⟨.hbm, 126, rfl⟩
abbrev main_v94 : Ref sig .tc := ⟨.hbm, 127, rfl⟩
abbrev main_cst_31 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_32 : Ref sig .tc := ⟨.hbm, 133, rfl⟩
abbrev main_v99 : Ref sig .tc := ⟨.hbm, 134, rfl⟩
abbrev main_v100 : Ref sig .tc := ⟨.hbm, 135, rfl⟩
abbrev main_cst_33 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_34 : Ref sig .tc := ⟨.hbm, 141, rfl⟩
abbrev main_v105 : Ref sig .tc := ⟨.hbm, 142, rfl⟩
abbrev main_v106 : Ref sig .tc := ⟨.hbm, 143, rfl⟩
abbrev main_cst_35 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_36 : Ref sig .tc := ⟨.hbm, 149, rfl⟩
abbrev main_v111 : Ref sig .tc := ⟨.hbm, 150, rfl⟩
abbrev main_v112 : Ref sig .tc := ⟨.hbm, 151, rfl⟩
abbrev main_cst_37 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_38 : Ref sig .tc := ⟨.hbm, 157, rfl⟩
abbrev main_v117 : Ref sig .tc := ⟨.hbm, 158, rfl⟩
abbrev main_v118 : Ref sig .tc := ⟨.hbm, 159, rfl⟩
abbrev main_cst_39 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  reducesTo_S8192x8192_S8192_d0 : S8192x8192.ReducesTo [0] S8192
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.LibLaneSum.lean ====
/-
  A lane sum over one axis, and the small layout changes around it, read at coordinates, at the ideal values.

  At the ideal values a float sum over one axis of an array is, at each index of the result, the plain sum of the
  entries along that axis (no order, no rounding).  Written with the result's index given by its coordinates: summing
  the last axis of `[A, B, C]` at `(a, b)` is `Σ_c v(a, b, c)`; summing the first at `(b, c)` is `Σ_a v(a, b, c)`; summing
  the second axis of `[A, B]` at `a` is `Σ_b v(a, b)`.  An array `[A, 1, B, C]` viewed as `[A, B, C]` has the same entries,
  and extracting position `[0, 0]` of a `[1, 1]` array reads its one entry.  All extents are arbitrary.
-/
import Idealize.ShloMosaic.PureOps.Ideal.Laws
import Idealize.ShloMosaic.Lib.Pipeline.Value
import Idealize.ShloMosaic.Lib.ValueIdx

noncomputable section

open scoped BigOperators

namespace Cert.LibLaneSum

open Idealize.ShloMosaic Idealize.ShloMosaic.ValueIdx

/-- The sum over the last axis of `[A, B, C]`, at `(a, b)`. -/
theorem sum_last3 {A B C : Nat} (v : FVec Ideal ⟨3, ![A, B, C]⟩ .f32) (acc : BitVec 32)
    (h : (⟨3, ![A, B, C]⟩ : Shape).Reduces [2] ⟨2, ![A, B]⟩) (hφ : FKind.Formats .f32)
    (hacc : acc = FKind.add.neutral .f32 hφ) (a : Fin A) (b : Fin B) :
    multiReduction .add [2] ⟨2, ![A, B]⟩ v acc h hφ hacc (ix2 a b) = ∑ c : Fin C, v (ix3 a b c) := by
  refine (Ideal.multiReduction_add_single v acc h hφ hacc (ix2 a b)).trans ?_
  exact Finset.sum_congr rfl fun k _ => congrArg v (funext fun d => Fin.ext (by
    match d with | ⟨0, _⟩ => rfl | ⟨1, _⟩ => rfl | ⟨2, _⟩ => rfl))

/-- The sum over the first axis of `[A, B, C]`, at `(b, c)`. -/
theorem sum_first3 {A B C : Nat} (v : FVec Ideal ⟨3, ![A, B, C]⟩ .f32) (acc : BitVec 32)
    (h : (⟨3, ![A, B, C]⟩ : Shape).Reduces [0] ⟨2, ![B, C]⟩) (hφ : FKind.Formats .f32)
    (hacc : acc = FKind.add.neutral .f32 hφ) (b : Fin B) (c : Fin C) :
    multiReduction .add [0] ⟨2, ![B, C]⟩ v acc h hφ hacc (ix2 b c) = ∑ a : Fin A, v (ix3 a b c) := by
  refine (Ideal.multiReduction_add_single v acc h hφ hacc (ix2 b c)).trans ?_
  exact Finset.sum_congr rfl fun k _ => congrArg v (funext fun d => Fin.ext (by
    match d with | ⟨0, _⟩ => rfl | ⟨1, _⟩ => rfl | ⟨2, _⟩ => rfl))

/-- The sum over the second axis of `[A, B]`, at `a`. -/
theorem sum_last2 {A B : Nat} (v : FVec Ideal ⟨2, ![A, B]⟩ .f32) (acc : BitVec 32)
    (h : (⟨2, ![A, B]⟩ : Shape).Reduces [1] ⟨1, ![A]⟩) (hφ : FKind.Formats .f32)
    (hacc : acc = FKind.add.neutral .f32 hφ) (a : Fin A) :
    multiReduction .add [1] ⟨1, ![A]⟩ v acc h hφ hacc (ix1 a) = ∑ b : Fin B, v (ix2 a b) := by
  refine (Ideal.multiReduction_add_single v acc h hφ hacc (ix1 a)).trans ?_
  exact Finset.sum_congr rfl fun k _ => congrArg v (funext fun d => Fin.ext (by
    match d with | ⟨0, _⟩ => rfl | ⟨1, _⟩ => rfl))

/-- `[A, 1, B, C]` viewed as `[A, B, C]`: entry `(a, b, c)` is entry `(a, 0, b, c)`. -/
theorem squeeze_mid {α : Type} {A B C : Nat} (x : (⟨4, ![A, 1, B, C]⟩ : Shape).Idx → α)
    (h : (⟨4, ![A, 1, B, C]⟩ : Shape).ShapeCasts ⟨3, ![A, B, C]⟩) (a : Fin A) (b : Fin B) (c : Fin C) :
    shapeCast ⟨3, ![A, B, C]⟩ x h (ix3 a b c) = x (ix4 a (0 : Fin 1) b c) :=
  shapeCast_apply x h _ _ (by
    rw [Shape.rowMajor_val_four, Shape.rowMajor_val_three]
    show ((a.val * 1 + 0) * B + b.val) * C + c.val = (a.val * B + b.val) * C + c.val
    rw [Nat.mul_one, Nat.add_zero])

/-- Position `[0, 0]` of a `[1, 1]` array, as a vector extract spells it, is its entry `(0, 0)`. -/
theorem extract_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibLaneSum

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.LibNormalise.lean ====
/-
  Dividing every entry of a matrix by its row's sum plus a constant, or by its column's sum plus a constant, at the
  ideal values.

  For a matrix x with a rows and b columns and an extended real e, the row form sends entry (p, q) to
  x(p, q) / (Σ_k x(p, k) + e) and the column form sends it to x(p, q) / (Σ_k x(k, q) + e).  Two spellings of each
  are read here at one entry: the vector unit's (a lane sum over one axis, the sums reshaped to a column or a row,
  the constant added, the result broadcast back over the matrix, an elementwise quotient) and the host's (a reduce
  from zero over one axis, broadcast_in_dim to a column or a row, the constant added, broadcast_in_dim back, a
  quotient).  Both are the same function because a sum over one axis is the plain finite sum of the entries along it.

  A block of whole rows of a larger matrix row-normalises to the same rows of the larger matrix's row form, since
  a row's sum only involves that row; likewise a block of whole columns for the column form.

  The word 0x3F800000 is the real one, so multiplying by it and dividing by it leave every extended real as it is.
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost
import proofs.«143127_j85392539779780_1_alg».proof.Proof.LibLaneSum
import proofs.«143127_j85392539779780_1_alg».proof.Proof.LibColumn

noncomputable section

open scoped BigOperators

namespace Cert.LibNormalise

open Idealize.ShloMosaic Idealize.ShloMosaic.ValueIdx

variable {a b : Nat}

/-! ## The two functions -/

/-- Every entry over its row's sum plus `e`. -/
def rowNormalise (e : EReal) (x : (⟨2, ![a, b]⟩ : Shape).Idx → EReal) : (⟨2, ![a, b]⟩ : Shape).Idx → EReal :=
  fun i => Ideal.div (x i) ((∑ k : Fin b, x (ix2 (i 0 : Fin a) k)) + e)

/-- Every entry over its column's sum plus `e`. -/
def colNormalise (e : EReal) (x : (⟨2, ![a, b]⟩ : Shape).Idx → EReal) : (⟨2, ![a, b]⟩ : Shape).Idx → EReal :=
  fun i => Ideal.div (x i) ((∑ k : Fin a, x (ix2 k (i 1 : Fin b))) + e)

theorem rowNormalise_apply (e : EReal) (x : (⟨2, ![a, b]⟩ : Shape).Idx → EReal) (p : Fin a) (q : Fin b) :
    rowNormalise e x (ix2 p q) = Ideal.div (x (ix2 p q)) ((∑ k : Fin b, x (ix2 p k)) + e) := rfl

theorem colNormalise_apply (e : EReal) (x : (⟨2, ![a, b]⟩ : Shape).Idx → EReal) (p : Fin a) (q : Fin b) :
    colNormalise e x (ix2 p q) = Ideal.div (x (ix2 p q)) ((∑ k : Fin a, x (ix2 k q)) + e) := rfl

/-! ## Blocks of whole rows, and of whole columns -/

/-- If `x` holds rows `r p` of `X`, whole, then the row form of `x` holds the same rows of the row form of `X`. -/
theorem rowNormalise_of_rows {A : Nat} (e : EReal) (x : (⟨2, ![a, b]⟩ : Shape).Idx → EReal)
    (X : (⟨2, ![A, b]⟩ : Shape).Idx → EReal) (r : Fin a → Fin A)
    (hx : ∀ p k, x (ix2 p k) = X (ix2 (r p) k)) (p : Fin a) (q : Fin b) :
    rowNormalise e x (ix2 p q) = rowNormalise e X (ix2 (r p) q) := by
  rw [rowNormalise_apply, rowNormalise_apply, hx p q, Finset.sum_congr rfl fun k _ => hx p k]

/-- If `x` holds columns `s q` of `X`, whole, then the column form of `x` holds the same columns of the column form of `X`. -/
theorem colNormalise_of_cols {B : Nat} (e : EReal) (x : (⟨2, ![a, b]⟩ : Shape).Idx → EReal)
    (X : (⟨2, ![a, B]⟩ : Shape).Idx → EReal) (s : Fin b → Fin B)
    (hx : ∀ k q, x (ix2 k q) = X (ix2 k (s q))) (p : Fin a) (q : Fin b) :
    colNormalise e x (ix2 p q) = colNormalise e X (ix2 p (s q)) := by
  rw [colNormalise_apply, colNormalise_apply, hx p q, Finset.sum_congr rfl fun k _ => hx k q]

/-! ## A lane sum over the first axis -/

/-- The sum over the first axis of `[A, B]`, at `b`. -/
theorem sum_first2 {A B : Nat} (v : FVec Ideal ⟨2, ![A, B]⟩ .f32) (acc : BitVec 32)
    (h : (⟨2, ![A, B]⟩ : Shape).Reduces [0] ⟨1, ![B]⟩) (hφ : FKind.Formats .f32)
    (hacc : acc = FKind.add.neutral .f32 hφ) (q : Fin B) :
    multiReduction .add [0] ⟨1, ![B]⟩ v acc h hφ hacc (ix1 q) = ∑ k : Fin A, v (ix2 k q) := by
  refine (Ideal.multiReduction_add_single v acc h hφ hacc (ix1 q)).trans ?_
  exact Finset.sum_congr rfl fun k _ => congrArg v (funext fun d => Fin.ext (by
    match d with | ⟨0, _⟩ => rfl | ⟨1, _⟩ => rfl))

/-! ## The vector unit's spelling -/

/-- Lane sums over the columns, as a column, plus the constant, broadcast back, under the quotient: the row form. -/
theorem vec_rowNormalise (w : BitVec 32) (x : FVec Ideal ⟨2, ![a, b]⟩ .f32) (acc : BitVec 32)
    (hr : (⟨2, ![a, b]⟩ : Shape).Reduces [1] ⟨1, ![a]⟩) (hφ : FKind.Formats .f32)
    (hacc : acc = FKind.add.neutral .f32 hφ)
    (hc : (⟨1, ![a]⟩ : Shape).ShapeCasts ⟨2, ![a, 1]⟩) (hb : (⟨2, ![a, 1]⟩ : Shape).Broadcasts ⟨2, ![a, b]⟩) :
    divf x (broadcastTo ⟨2, ![a, b]⟩
        (addf (shapeCast ⟨2, ![a, 1]⟩ (multiReduction .add [1] ⟨1, ![a]⟩ x acc hr hφ hacc) hc)
          (broadcast ⟨2, ![a, 1]⟩ (Scalar.ofBits (F := Ideal) .f32 w))) hb)
      = rowNormalise (Ideal.ofBits .f32 w) x := by
  funext i
  obtain ⟨p, q, rfl⟩ : ∃ (p : Fin a) (q : Fin b), i = ix2 p q := ⟨i 0, i 1, eq_ix2 i⟩
  rw [divf_apply, Cert.Proof.Column.broadcastTo_a1_ab_apply, addf_apply, Cert.Proof.Column.shapeCast_a_a1_apply,
    Cert.LibLaneSum.sum_last2, broadcast_apply, rowNormalise_apply]
  rfl

/-- Lane sums over the rows, as a row, plus the constant, broadcast back, under the quotient: the column form. -/
theorem vec_colNormalise (w : BitVec 32) (x : FVec Ideal ⟨2, ![a, b]⟩ .f32) (acc : BitVec 32)
    (hr : (⟨2, ![a, b]⟩ : Shape).Reduces [0] ⟨1, ![b]⟩) (hφ : FKind.Formats .f32)
    (hacc : acc = FKind.add.neutral .f32 hφ)
    (hc : (⟨1, ![b]⟩ : Shape).ShapeCasts ⟨2, ![1, b]⟩) (hb : (⟨2, ![1, b]⟩ : Shape).Broadcasts ⟨2, ![a, b]⟩) :
    divf x (broadcastTo ⟨2, ![a, b]⟩
        (addf (shapeCast ⟨2, ![1, b]⟩ (multiReduction .add [0] ⟨1, ![b]⟩ x acc hr hφ hacc) hc)
          (broadcast ⟨2, ![1, b]⟩ (Scalar.ofBits (F := Ideal) .f32 w))) hb)
      = colNormalise (Ideal.ofBits .f32 w) x := by
  funext i
  obtain ⟨p, q, rfl⟩ : ∃ (p : Fin a) (q : Fin b), i = ix2 p q := ⟨i 0, i 1, eq_ix2 i⟩
  rw [divf_apply, broadcastTo_1b_ab_apply, addf_apply, shapeCast_a_1a_apply, sum_first2, broadcast_apply,
    colNormalise_apply]
  rfl

/-! ## The host's spelling -/

/-- The host's reduce from zero over the columns, at row `p`. -/
theorem host_sum_last2 (x : FVec Ideal ⟨2, ![a, b]⟩ .f32)
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel) (p : Fin a) :
    Host.reduceAdd x (constant (F := Ideal) ⟨0, ![]⟩ .f32 0x00000000#32) hr' hu (ix1 p) = ∑ k : Fin b, x (ix2 p k) := by
  rw [hostReduceAdd_apply, Ideal.hostReduceAdd_single hr' hr, constant_apply, Ideal.ofBits_zero_f32, zero_add]
  exact Finset.sum_congr rfl fun k _ => congrArg x (funext fun d => Fin.ext (by
    match d with | ⟨0, _⟩ => rfl | ⟨1, _⟩ => rfl))

/-- The host's reduce from zero over the rows, at column `q`. -/
theorem host_sum_first2 (x : FVec Ideal ⟨2, ![a, b]⟩ .f32)
    (hr' : (⟨2, ![a, b]⟩ : Shape).ReducesTo [0] ⟨1, ![b]⟩) (hr : (⟨2, ![a, b]⟩ : Shape).Reduces [0] ⟨1, ![b]⟩)
    (hu : 0 < (⟨0, ![]⟩ : Shape).numel) (q : Fin b) :
    Host.reduceAdd x (constant (F := Ideal) ⟨0, ![]⟩ .f32 0x00000000#32) hr' hu (ix1 q) = ∑ k : Fin a, x (ix2 k q) := by
  rw [hostReduceAdd_apply, Ideal.hostReduceAdd_single hr' hr, constant_apply, Ideal.ofBits_zero_f32, zero_add]
  exact Finset.sum_congr rfl fun k _ => congrArg x (funext fun d => Fin.ext (by
    match d with | ⟨0, _⟩ => rfl | ⟨1, _⟩ => rfl))

/-- The host's reduce over the columns, made a column, plus the constant, broadcast back, under the quotient: the row form. -/
theorem host_rowNormalise (w : BitVec 32) (x : FVec Ideal ⟨2, ![a, b]⟩ .f32)
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel)
    (h1 : (⟨1, ![a]⟩ : Shape).BroadcastsInDim ⟨2, ![a, 1]⟩ ![0])
    (h0 : (⟨0, ![]⟩ : Shape).BroadcastsInDim ⟨2, ![a, 1]⟩ ![])
    (h2 : (⟨2, ![a, 1]⟩ : Shape).BroadcastsInDim ⟨2, ![a, b]⟩ ![0, 1]) :
    Host.divf x (broadcastInDim ⟨2, ![a, b]⟩ ![0, 1] h2
        (addf (broadcastInDim ⟨2, ![a, 1]⟩ ![0] h1 (Host.reduceAdd x (constant (F := Ideal) ⟨0, ![]⟩ .f32 0x00000000#32) hr' hu))
          (broadcastInDim ⟨2, ![a, 1]⟩ ![] h0 (constant (F := Ideal) ⟨0, ![]⟩ .f32 w))))
      = rowNormalise (Ideal.ofBits .f32 w) x := by
  funext i
  obtain ⟨p, q, rfl⟩ : ∃ (p : Fin a) (q : Fin b), i = ix2 p q := ⟨i 0, i 1, eq_ix2 i⟩
  rw [hostDivf_apply,
    broadcastInDim_apply ![0, 1] h2 _ (ix2 p q) (ix2 p (0 : Fin 1)) (fun ax => by
      match ax with
      | ⟨0, _⟩ =>
        show p.val = if a = 1 then 0 else p.val
        split
        · have := p.isLt; omega
        · rfl
      | ⟨1, _⟩ => rfl),
    addf_apply,
    broadcastInDim_apply ![0] h1 _ (ix2 p (0 : Fin 1)) (ix1 p) (fun ax => by
      match ax with
      | ⟨0, _⟩ =>
        show p.val = if a = 1 then 0 else p.val
        split
        · have := p.isLt; omega
        · rfl),
    host_sum_last2 x hr' hr hu p, broadcastInDim_scalar_apply, constant_apply, rowNormalise_apply]

/-- The host's reduce over the rows, made a row, plus the constant, broadcast back, under the quotient: the column form. -/
theorem host_colNormalise (w : BitVec 32) (x : FVec Ideal ⟨2, ![a, b]⟩ .f32)
    (hr' : (⟨2, ![a, b]⟩ : Shape).ReducesTo [0] ⟨1, ![b]⟩) (hr : (⟨2, ![a, b]⟩ : Shape).Reduces [0] ⟨1, ![b]⟩)
    (hu : 0 < (⟨0, ![]⟩ : Shape).numel)
    (h1 : (⟨1, ![b]⟩ : Shape).BroadcastsInDim ⟨2, ![1, b]⟩ ![1])
    (h0 : (⟨0, ![]⟩ : Shape).BroadcastsInDim ⟨2, ![1, b]⟩ ![])
    (h2 : (⟨2, ![1, b]⟩ : Shape).BroadcastsInDim ⟨2, ![a, b]⟩ ![0, 1]) :
    Host.divf x (broadcastInDim ⟨2, ![a, b]⟩ ![0, 1] h2
        (addf (broadcastInDim ⟨2, ![1, b]⟩ ![1] h1 (Host.reduceAdd x (constant (F := Ideal) ⟨0, ![]⟩ .f32 0x00000000#32) hr' hu))
          (broadcastInDim ⟨2, ![1, b]⟩ ![] h0 (constant (F := Ideal) ⟨0, ![]⟩ .f32 w))))
      = colNormalise (Ideal.ofBits .f32 w) x := by
  funext i
  obtain ⟨p, q, rfl⟩ : ∃ (p : Fin a) (q : Fin b), i = ix2 p q := ⟨i 0, i 1, eq_ix2 i⟩
  rw [hostDivf_apply,
    broadcastInDim_apply ![0, 1] h2 _ (ix2 p q) (ix2 (0 : Fin 1) q) (fun ax => by
      match ax with
      | ⟨0, _⟩ => rfl
      | ⟨1, _⟩ =>
        show q.val = if b = 1 then 0 else q.val
        split
        · have := q.isLt; omega
        · rfl),
    addf_apply,
    broadcastInDim_apply ![1] h1 _ (ix2 (0 : Fin 1) q) (ix1 q) (fun ax => by
      match ax with
      | ⟨0, _⟩ =>
        show q.val = if b = 1 then 0 else q.val
        split
        · have := q.isLt; omega
        · rfl),
    host_sum_first2 x hr' hr hu q, broadcastInDim_scalar_apply, constant_apply, colNormalise_apply]

/-! ## The word of one -/

/-- An extended real times the word of `1.0` is itself. -/
theorem mul_one_word (x : EReal) : x * Ideal.ofBits .f32 0x3F800000#32 = x := by
  rw [Ideal.ofBits_one_f32, mul_one]

/-- An extended real over the word of `1.0` is itself. -/
theorem div_one_word (x : EReal) : Ideal.div x (Ideal.ofBits .f32 0x3F800000#32) = x := by
  rw [Ideal.ofBits_one_f32, ← EReal.coe_one, Ideal.div_coe one_ne_zero, div_one, EReal.coe_one, mul_one]

end Cert.LibNormalise

end
-- ==== Proof.Spec.lean ====
/-
  The balancing iteration both programs compute, as one function of the input matrix.

  Start from the entrywise exponential of an 8192 x 8192 matrix.  Ten times over: divide every entry by its row's sum
  plus a small constant, then divide every entry by its column's sum plus the same constant.  The constant is the
  extended real the 32-bit word 0x322BCC77 denotes (the single-precision neighbour of 1e-8); both programs spell that
  word, so its value is never needed.
-/
import proofs.«143127_j85392539779780_1_alg».proof.Proof.LibNormalise

noncomputable section

namespace Cert.Sinkhorn

open Idealize.ShloMosaic Cert.LibNormalise

/-- The square matrix shape. -/
abbrev Sq : Shape := ⟨2, ![8192, 8192]⟩

/-- The constant added to every sum before dividing by it. -/
abbrev eps : EReal := Ideal.ofBits .f32 0x322BCC77#32

/-- Every entry over its row's sum plus the constant. -/
def rowN (X : Sq.Idx → EReal) : Sq.Idx → EReal := rowNormalise eps X

/-- Every entry over its column's sum plus the constant. -/
def colN (X : Sq.Idx → EReal) : Sq.Idx → EReal := colNormalise eps X

/-- The entrywise exponential. -/
def expAll (X : Sq.Idx → EReal) : Sq.Idx → EReal := fun i => Ideal.exp (X i)

/-- One round: rows, then columns. -/
def round (X : Sq.Idx → EReal) : Sq.Idx → EReal := colN (rowN X)

/-- Ten rounds from the exponential, written out innermost first. -/
def balanced (X : Sq.Idx → EReal) : Sq.Idx → EReal :=
  round (round (round (round (round (round (round (round (round (round (expAll X))))))))))

end Cert.Sinkhorn

end
-- ==== Proof.Payloads.lean ====
/-
  What each kind of kernel body stores, as a function of the block it loads, at the ideal values.

  The first body takes the exponential of the block (after a product with the word of 1.0, which changes nothing) and
  divides each entry by its row's sum plus the constant: a block of 128 whole rows, row-normalised.  The bodies on the
  even calls after it do the same without the exponential.  The bodies on the odd calls load a block of 128 whole
  columns and divide each entry by its column's sum plus the constant.  A same-shape reshape in front is the identity.
  Here are calls 0, 1 and 2, one of each kind.
-/
import proofs.«143127_j85392539779780_1_alg».proof.Proof.Gen.KernelIdeal.Skeleton
import proofs.«143127_j85392539779780_1_alg».proof.Proof.Spec

noncomputable section

namespace Cert.Sinkhorn

open Idealize.ShloMosaic Idealize.ShloMosaic.ValueIdx Cert.LibNormalise Cert.KernelIdeal Cert.KernelIdeal.Gen

/-- The exponential of a block times the word of 1.0 is the entrywise exponential of the block. -/
theorem exp_mul_one (x : Vec Ideal S128x8192 .f32) :
    exp (mulf x (broadcast S128x8192 (Scalar.ofBits (F := Ideal) .f32 0x3F800000#32))) = fun i => Ideal.exp (x i) := by
  funext i
  show Ideal.exp (x i * Ideal.ofBits .f32 0x3F800000#32) = Ideal.exp (x i)
  rw [mul_one_word]

/-- Call 0's store: the exponential of the block, row-normalised. -/
theorem pay0 (x : Vec Ideal S128x8192 .f32) : k0_pay1 (F := Ideal) x = rowNormalise eps (fun i => Ideal.exp (x i)) := by
  unfold k0_pay1
  dsimp only
  rw [exp_mul_one]
  exact vec_rowNormalise _ _ _ _ _ _ _ _

/-- Call 1's store: the block of whole columns, column-normalised. -/
theorem pay1 (x : Vec Ideal S8192x128 .f32) : k1_pay1 (F := Ideal) x = colNormalise eps x := by
  unfold k1_pay1
  dsimp only
  rw [shapeCast_self]
  exact vec_colNormalise _ _ _ _ _ _ _ _

/-- Call 2's store: the block of whole rows, row-normalised. -/
theorem pay2 (x : Vec Ideal S128x8192 .f32) : k2_pay1 (F := Ideal) x = rowNormalise eps x := by
  unfold k2_pay1
  dsimp only
  rw [shapeCast_self]
  exact vec_rowNormalise _ _ _ _ _ _ _ _

end Cert.Sinkhorn

end
-- ==== Proof.Call0.lean ====
/-
  Call 0 (the first call) as a whole-array step: whatever matrix the call finds in its input array, it leaves the
  entrywise exponential of that matrix, row-normalised, in its output array.

  Grid point t stages rows 128 t … 128 t + 127 of the input, whole, and writes back the same rows of the output.  The
  exponential is taken entry by entry, and a row's sum involves that row only, so what the block becomes is those rows
  of the row form of the matrix's exponential; the 64 blocks cover every row.
-/
import proofs.«143127_j85392539779780_1_alg».proof.Proof.Gen.KernelIdeal.Frame
import proofs.«143127_j85392539779780_1_alg».proof.Proof.Payloads
import Idealize.ShloMosaic.Lib.Pipeline.Value

set_option maxRecDepth 16384

noncomputable section

namespace Cert.Sinkhorn.Call0

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(t, 0)`: decided over the 64 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The matrix the call finds in its input array. -/
abbrev src (c : Dev nD) : Vec Ideal S8192x8192 .f32 := V c main_arg0

/-- Row `128 t + p` of the matrix. -/
def rowOf (t : Fin cfg0.N) (p : Fin 128) : Fin 8192 :=
  ⟨t.val * 128 + p.val, by have := t.isLt; have h : cfg0.N = 64 := N_0; have := p.isLt; omega⟩

/-- The staged input block at point `t` holds rows `128 t + p` of the matrix, whole. -/
theorem block_rows (c : Dev nD) (t : Fin cfg0.N) (p : Fin 128) (k : Fin 8192) :
    iblk0 V c 0 t (ix2 p k) = src V c (ix2 (rowOf t p) k) := by
  obtain ⟨e0, e1, -, -⟩ := idx_facts t
  show V c main_arg0 (((cfg0.win 0).blk t).view.emb (ix2 p k)) = V c main_arg0 (ix2 (rowOf t p) k)
  refine congrArg (V c main_arg0) (funext fun a => Fin.ext ?_)
  match a with
  | ⟨0, _⟩ => show win0_0.index t (0 : Fin 2) * 128 + 1 * p.val = t.val * 128 + p.val; omega
  | ⟨1, _⟩ => show win0_0.index t (1 : Fin 2) * 8192 + 1 * k.val = k.val; omega

/-- What point `t` writes back is block `t` of the row form of the matrix's exponential. -/
theorem flushed_eq (c : Dev nD) (t : Fin cfg0.N) :
    (dat0 V c).flushed 1 t = ((cfg0.win 1).blk t).view.read (Elt Ideal) (rowN (expAll (src V c))) := by
  show (cfg0.win 1).cut (grid0.coords t) ((dat0 V c).after 1 t) = _
  rw [after0_1]
  unfold out0_1
  rw [View.canon_unit_zero hz]
  simp only [View.ld_unit_zero (S := S128x8192) hz]
  rw [pay0]
  obtain ⟨-, -, e2, e3⟩ := idx_facts t
  funext j
  obtain ⟨p, q, rfl⟩ : ∃ (p : Fin 128) (q : Fin 8192), j = ix2 p q := ⟨j 0, j 1, eq_ix2 j⟩
  show rowNormalise eps (fun i => Ideal.exp (iblk0 V c 0 t i)) (ix2 p q) = rowN (expAll (src V c)) (((cfg0.win 1).blk t).view.emb (ix2 p q))
  refine (rowNormalise_of_rows eps (fun i => Ideal.exp (iblk0 V c 0 t i)) (expAll (src V c)) (rowOf t)
    (fun p k => congrArg Ideal.exp (block_rows V c t p k)) p q).trans ?_
  unfold rowN
  refine congrArg (rowNormalise eps (expAll (src V c))) (funext fun a => Fin.ext ?_)
  match a with
  | ⟨0, _⟩ => show t.val * 128 + p.val = win0_1.index t (0 : Fin 2) * 128 + 1 * p.val; omega
  | ⟨1, _⟩ => show q.val = win0_1.index t (1 : Fin 2) * 8192 + 1 * q.val; omega

/-- An entry of the output array is in point `t`'s block iff each coordinate is in the block's range on its axis. -/
theorem mem_blk (t : Fin cfg0.N) (i : S8192x8192.Idx) :
    i ∈ ((cfg0.win 1).blk t).view.set ↔ ∀ a : Fin 2, win0_1.index t a * S128x8192.size a ≤ (i a).val ∧ (i a).val < win0_1.index t a * S128x8192.size a + S128x8192.size a := by
  show i ∈ ((View.whole main_v0).slice (win0_1.rect t)).set ↔ _
  rw [View.set_slice_whole, Rect.mem_set_unit]
  exact Iff.rfl

/-- Every entry of the output array is in the block of the point its row falls in. -/
theorem cover (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  have ht : (i 0).val / 128 < cfg0.N := lt_of_lt_of_eq (b := 64) (by omega) N_0.symm
  obtain ⟨-, -, e2, e3⟩ := idx_facts ⟨(i 0).val / 128, ht⟩
  refine ⟨⟨(i 0).val / 128, ht⟩, flush0_1 _, ?_⟩
  rw [mem_blk]
  intro a
  match a with
  | ⟨0, _⟩ =>
    show win0_1.index ⟨(i 0).val / 128, ht⟩ (0 : Fin 2) * 128 ≤ (i 0).val ∧ (i 0).val < win0_1.index ⟨(i 0).val / 128, ht⟩ (0 : Fin 2) * 128 + 128
    rw [e2]; show (i 0).val / 128 * 128 ≤ (i 0).val ∧ (i 0).val < (i 0).val / 128 * 128 + 128; omega
  | ⟨1, _⟩ =>
    show win0_1.index ⟨(i 0).val / 128, ht⟩ (1 : Fin 2) * 8192 ≤ (i 1).val ∧ (i 1).val < win0_1.index ⟨(i 0).val / 128, ht⟩ (1 : Fin 2) * 8192 + 8192
    rw [e3]; omega

/-- The call leaves its output array at the row form of the exponential of the matrix it found in its input array. -/
theorem final (c : Dev nD) : (dat0 V c).arrAt 1 cfg0.N = rowN (expAll (src V c)) :=
  (dat0 V c).arrAt_eq_of_cover 1 (rowN (expAll (src V c))) (fun t _ => flushed_eq V c t) cover

end Cert.Sinkhorn.Call0

end
-- ==== Proof.Call1.lean ====
/-
  Call 1 (a column call) as a whole-array step: whatever matrix the call finds in its input array, it leaves that
  matrix column-normalised in its output array.

  Grid point t stages columns 128 t … 128 t + 127 of the input, whole, and writes back the same columns of the output.
  A column's sum involves that column only, so the block's column form is those columns of the matrix's column form;
  the 64 blocks cover every column, so the output array ends as the column form of the input array.
-/
import proofs.«143127_j85392539779780_1_alg».proof.Proof.Gen.KernelIdeal.Frame
import proofs.«143127_j85392539779780_1_alg».proof.Proof.Payloads
import Idealize.ShloMosaic.Lib.Pipeline.Value

set_option maxRecDepth 16384

noncomputable section

namespace Cert.Sinkhorn.Call1

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(0, t)`: decided over the 64 points. -/
theorem idx_facts : ∀ t : Fin cfg1.N, win1_0.index t (0 : Fin 2) = 0 ∧ win1_0.index t (1 : Fin 2) = t.val
    ∧ win1_1.index t (0 : Fin 2) = 0 ∧ win1_1.index t (1 : Fin 2) = t.val :=
  (by decide +kernel : ∀ t : Fin grid1.N, win1_0.index t (0 : Fin 2) = 0 ∧ win1_0.index t (1 : Fin 2) = t.val
    ∧ win1_1.index t (0 : Fin 2) = 0 ∧ win1_1.index t (1 : Fin 2) = t.val)

/-- The matrix the call finds in its input array. -/
abbrev src (c : Dev nD) : Vec Ideal S8192x8192 .f32 := V c main_v0

/-- Column `128 t + q` of the matrix. -/
def colOf (t : Fin cfg1.N) (q : Fin 128) : Fin 8192 :=
  ⟨t.val * 128 + q.val, by have := t.isLt; have h : cfg1.N = 64 := N_1; have := q.isLt; omega⟩

/-- The staged input block at point `t` holds columns `128 t + q` of the matrix, whole. -/
theorem block_cols (c : Dev nD) (t : Fin cfg1.N) (k : Fin 8192) (q : Fin 128) :
    iblk1 V c 0 t (ix2 k q) = src V c (ix2 k (colOf t q)) := by
  obtain ⟨e0, e1, -, -⟩ := idx_facts t
  show V c main_v0 (((cfg1.win 0).blk t).view.emb (ix2 k q)) = V c main_v0 (ix2 k (colOf t q))
  refine congrArg (V c main_v0) (funext fun a => Fin.ext ?_)
  match a with
  | ⟨0, _⟩ => show win1_0.index t (0 : Fin 2) * 8192 + 1 * k.val = k.val; omega
  | ⟨1, _⟩ => show win1_0.index t (1 : Fin 2) * 128 + 1 * q.val = t.val * 128 + q.val; omega

/-- What point `t` writes back is block `t` of the matrix's column form. -/
theorem flushed_eq (c : Dev nD) (t : Fin cfg1.N) :
    (dat1 V c).flushed 1 t = ((cfg1.win 1).blk t).view.read (Elt Ideal) (colN (src V c)) := by
  show (cfg1.win 1).cut (grid1.coords t) ((dat1 V c).after 1 t) = _
  rw [after1_1]
  unfold out1_1
  rw [View.canon_unit_zero hz]
  simp only [View.ld_unit_zero (S := S8192x128) hz]
  rw [pay1]
  obtain ⟨-, -, e2, e3⟩ := idx_facts t
  funext j
  obtain ⟨p, q, rfl⟩ : ∃ (p : Fin 8192) (q : Fin 128), j = ix2 p q := ⟨j 0, j 1, eq_ix2 j⟩
  show colNormalise eps (iblk1 V c 0 t) (ix2 p q) = colN (src V c) (((cfg1.win 1).blk t).view.emb (ix2 p q))
  refine (colNormalise_of_cols eps (iblk1 V c 0 t) (src V c) (colOf t) (block_cols V c t) p q).trans ?_
  unfold colN
  refine congrArg (colNormalise eps (src V c)) (funext fun a => Fin.ext ?_)
  match a with
  | ⟨0, _⟩ => show p.val = win1_1.index t (0 : Fin 2) * 8192 + 1 * p.val; omega
  | ⟨1, _⟩ => show t.val * 128 + q.val = win1_1.index t (1 : Fin 2) * 128 + 1 * q.val; omega

/-- An entry of the output array is in point `t`'s block iff each coordinate is in the block's range on its axis. -/
theorem mem_blk (t : Fin cfg1.N) (i : S8192x8192.Idx) :
    i ∈ ((cfg1.win 1).blk t).view.set ↔ ∀ a : Fin 2, win1_1.index t a * S8192x128.size a ≤ (i a).val ∧ (i a).val < win1_1.index t a * S8192x128.size a + S8192x128.size a := by
  show i ∈ ((View.whole main_v1).slice (win1_1.rect t)).set ↔ _
  rw [View.set_slice_whole, Rect.mem_set_unit]
  exact Iff.rfl

/-- Every entry of the output array is in the block of the point its column falls in. -/
theorem cover (i : S8192x8192.Idx) :
    ∃ t : Fin cfg1.N, (cfg1.win 1).flush t = true ∧ i ∈ ((cfg1.win 1).blk t).view.set := by
  have hi0 : (i 0).val < 8192 := (i 0).isLt
  have hi1 : (i 1).val < 8192 := (i 1).isLt
  have ht : (i 1).val / 128 < cfg1.N := lt_of_lt_of_eq (b := 64) (by omega) N_1.symm
  obtain ⟨-, -, e2, e3⟩ := idx_facts ⟨(i 1).val / 128, ht⟩
  refine ⟨⟨(i 1).val / 128, ht⟩, flush1_1 _, ?_⟩
  rw [mem_blk]
  intro a
  match a with
  | ⟨0, _⟩ =>
    show win1_1.index ⟨(i 1).val / 128, ht⟩ (0 : Fin 2) * 8192 ≤ (i 0).val ∧ (i 0).val < win1_1.index ⟨(i 1).val / 128, ht⟩ (0 : Fin 2) * 8192 + 8192
    rw [e2]; omega
  | ⟨1, _⟩ =>
    show win1_1.index ⟨(i 1).val / 128, ht⟩ (1 : Fin 2) * 128 ≤ (i 1).val ∧ (i 1).val < win1_1.index ⟨(i 1).val / 128, ht⟩ (1 : Fin 2) * 128 + 128
    rw [e3]; show (i 1).val / 128 * 128 ≤ (i 1).val ∧ (i 1).val < (i 1).val / 128 * 128 + 128; omega

/-- The call leaves its output array at the column form of the matrix it found in its input array. -/
theorem final (c : Dev nD) : (dat1 V c).arrAt 1 cfg1.N = colN (src V c) :=
  (dat1 V c).arrAt_eq_of_cover 1 (colN (src V c)) (fun t _ => flushed_eq V c t) cover

end Cert.Sinkhorn.Call1

end
-- ==== Proof.Call2.lean ====
/-
  Call 2 (a row call) as a whole-array step: whatever matrix the call finds in its input array, it leaves that
  matrix row-normalised in its output array.

  Grid point t stages rows 128 t … 128 t + 127 of the input, whole, and writes back the same rows of the output.  A
  row's sum involves that row only, so the block's row form is those rows of the matrix's row form; the 64 blocks
  cover every row, so the output array ends as the row form of the input array.
-/
import proofs.«143127_j85392539779780_1_alg».proof.Proof.Gen.KernelIdeal.Frame
import proofs.«143127_j85392539779780_1_alg».proof.Proof.Payloads
import Idealize.ShloMosaic.Lib.Pipeline.Value

set_option maxRecDepth 16384

noncomputable section

namespace Cert.Sinkhorn.Call2

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(t, 0)`: decided over the 64 points. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, win2_0.index t (0 : Fin 2) = t.val ∧ win2_0.index t (1 : Fin 2) = 0
    ∧ win2_1.index t (0 : Fin 2) = t.val ∧ win2_1.index t (1 : Fin 2) = 0)

/-- The matrix the call finds in its input array. -/
abbrev src (c : Dev nD) : Vec Ideal S8192x8192 .f32 := V c main_v1

/-- Row `128 t + p` of the matrix. -/
def rowOf (t : Fin cfg2.N) (p : Fin 128) : Fin 8192 :=
  ⟨t.val * 128 + p.val, by have := t.isLt; have h : cfg2.N = 64 := N_2; have := p.isLt; omega⟩

/-- The staged input block at point `t` holds rows `128 t + p` of the matrix, whole. -/
theorem block_rows (c : Dev nD) (t : Fin cfg2.N) (p : Fin 128) (k : Fin 8192) :
    iblk2 V c 0 t (ix2 p k) = src V c (ix2 (rowOf t p) k) := by
  obtain ⟨e0, e1, -, -⟩ := idx_facts t
  show V c main_v1 (((cfg2.win 0).blk t).view.emb (ix2 p k)) = V c main_v1 (ix2 (rowOf t p) k)
  refine congrArg (V c main_v1) (funext fun a => Fin.ext ?_)
  match a with
  | ⟨0, _⟩ => show win2_0.index t (0 : Fin 2) * 128 + 1 * p.val = t.val * 128 + p.val; omega
  | ⟨1, _⟩ => show win2_0.index t (1 : Fin 2) * 8192 + 1 * k.val = k.val; omega

/-- What point `t` writes back is block `t` of the matrix's row form. -/
theorem flushed_eq (c : Dev nD) (t : Fin cfg2.N) :
    (dat2 V c).flushed 1 t = ((cfg2.win 1).blk t).view.read (Elt Ideal) (rowN (src V c)) := by
  show (cfg2.win 1).cut (grid2.coords t) ((dat2 V c).after 1 t) = _
  rw [after2_1]
  unfold out2_1
  rw [View.canon_unit_zero hz]
  simp only [View.ld_unit_zero (S := S128x8192) hz]
  rw [pay2]
  obtain ⟨-, -, e2, e3⟩ := idx_facts t
  funext j
  obtain ⟨p, q, rfl⟩ : ∃ (p : Fin 128) (q : Fin 8192), j = ix2 p q := ⟨j 0, j 1, eq_ix2 j⟩
  show rowNormalise eps (iblk2 V c 0 t) (ix2 p q) = rowN (src V c) (((cfg2.win 1).blk t).view.emb (ix2 p q))
  refine (rowNormalise_of_rows eps (iblk2 V c 0 t) (src V c) (rowOf t) (block_rows V c t) p q).trans ?_
  unfold rowN
  refine congrArg (rowNormalise eps (src V c)) (funext fun a => Fin.ext ?_)
  match a with
  | ⟨0, _⟩ => show t.val * 128 + p.val = win2_1.index t (0 : Fin 2) * 128 + 1 * p.val; omega
  | ⟨1, _⟩ => show q.val = win2_1.index t (1 : Fin 2) * 8192 + 1 * q.val; omega

/-- An entry of the output array is in point `t`'s block iff each coordinate is in the block's range on its axis. -/
theorem mem_blk (t : Fin cfg2.N) (i : S8192x8192.Idx) :
    i ∈ ((cfg2.win 1).blk t).view.set ↔ ∀ a : Fin 2, win2_1.index t a * S128x8192.size a ≤ (i a).val ∧ (i a).val < win2_1.index t a * S128x8192.size a + S128x8192.size a := by
  show i ∈ ((View.whole main_v2).slice (win2_1.rect t)).set ↔ _
  rw [View.set_slice_whole, Rect.mem_set_unit]
  exact Iff.rfl

/-- Every entry of the output array is in the block of the point its row falls in. -/
theorem cover (i : S8192x8192.Idx) :
    ∃ t : Fin cfg2.N, (cfg2.win 1).flush t = true ∧ i ∈ ((cfg2.win 1).blk t).view.set := by
  have hi0 : (i 0).val < 8192 := (i 0).isLt
  have hi1 : (i 1).val < 8192 := (i 1).isLt
  have ht : (i 0).val / 128 < cfg2.N := lt_of_lt_of_eq (b := 64) (by omega) N_2.symm
  obtain ⟨-, -, e2, e3⟩ := idx_facts ⟨(i 0).val / 128, ht⟩
  refine ⟨⟨(i 0).val / 128, ht⟩, flush2_1 _, ?_⟩
  rw [mem_blk]
  intro a
  match a with
  | ⟨0, _⟩ =>
    show win2_1.index ⟨(i 0).val / 128, ht⟩ (0 : Fin 2) * 128 ≤ (i 0).val ∧ (i 0).val < win2_1.index ⟨(i 0).val / 128, ht⟩ (0 : Fin 2) * 128 + 128
    rw [e2]; show (i 0).val / 128 * 128 ≤ (i 0).val ∧ (i 0).val < (i 0).val / 128 * 128 + 128; omega
  | ⟨1, _⟩ =>
    show win2_1.index ⟨(i 0).val / 128, ht⟩ (1 : Fin 2) * 8192 ≤ (i 1).val ∧ (i 1).val < win2_1.index ⟨(i 0).val / 128, ht⟩ (1 : Fin 2) * 8192 + 8192
    rw [e3]; omega

/-- The call leaves its output array at the row form of the matrix it found in its input array. -/
theorem final (c : Dev nD) : (dat2 V c).arrAt 1 cfg2.N = rowN (src V c) :=
  (dat2 V c).arrAt_eq_of_cover 1 (rowN (src V c)) (fun t _ => flushed_eq V c t) cover

end Cert.Sinkhorn.Call2

end
-- ==== Proof.PayloadsRest.lean ====
/-
  What the bodies of calls 3 to 19 store: the same text as call 1's (odd calls) and call 2's (even calls).
-/
import proofs.«143127_j85392539779780_1_alg».proof.Proof.Payloads

noncomputable section

namespace Cert.Sinkhorn

open Idealize.ShloMosaic Idealize.ShloMosaic.ValueIdx Cert.LibNormalise Cert.KernelIdeal Cert.KernelIdeal.Gen

/-- Call 3's store: the block of whole columns, column-normalised. -/
theorem pay3 (x : Vec Ideal S8192x128 .f32) : k3_pay1 (F := Ideal) x = colNormalise eps x := by
  unfold k3_pay1
  dsimp only
  rw [shapeCast_self]
  exact vec_colNormalise _ _ _ _ _ _ _ _

/-- Call 4's store: the block of whole rows, row-normalised. -/
theorem pay4 (x : Vec Ideal S128x8192 .f32) : k4_pay1 (F := Ideal) x = rowNormalise eps x := by
  unfold k4_pay1
  dsimp only
  rw [shapeCast_self]
  exact vec_rowNormalise _ _ _ _ _ _ _ _

/-- Call 5's store: the block of whole columns, column-normalised. -/
theorem pay5 (x : Vec Ideal S8192x128 .f32) : k5_pay1 (F := Ideal) x = colNormalise eps x := by
  unfold k5_pay1
  dsimp only
  rw [shapeCast_self]
  exact vec_colNormalise _ _ _ _ _ _ _ _

/-- Call 6's store: the block of whole rows, row-normalised. -/
theorem pay6 (x : Vec Ideal S128x8192 .f32) : k6_pay1 (F := Ideal) x = rowNormalise eps x := by
  unfold k6_pay1
  dsimp only
  rw [shapeCast_self]
  exact vec_rowNormalise _ _ _ _ _ _ _ _

/-- Call 7's store: the block of whole columns, column-normalised. -/
theorem pay7 (x : Vec Ideal S8192x128 .f32) : k7_pay1 (F := Ideal) x = colNormalise eps x := by
  unfold k7_pay1
  dsimp only
  rw [shapeCast_self]
  exact vec_colNormalise _ _ _ _ _ _ _ _

/-- Call 8's store: the block of whole rows, row-normalised. -/
theorem pay8 (x : Vec Ideal S128x8192 .f32) : k8_pay1 (F := Ideal) x = rowNormalise eps x := by
  unfold k8_pay1
  dsimp only
  rw [shapeCast_self]
  exact vec_rowNormalise _ _ _ _ _ _ _ _

/-- Call 9's store: the block of whole columns, column-normalised. -/
theorem pay9 (x : Vec Ideal S8192x128 .f32) : k9_pay1 (F := Ideal) x = colNormalise eps x := by
  unfold k9_pay1
  dsimp only
  rw [shapeCast_self]
  exact vec_colNormalise _ _ _ _ _ _ _ _

/-- Call 10's store: the block of whole rows, row-normalised. -/
theorem pay10 (x : Vec Ideal S128x8192 .f32) : k10_pay1 (F := Ideal) x = rowNormalise eps x := by
  unfold k10_pay1
  dsimp only
  rw [shapeCast_self]
  exact vec_rowNormalise _ _ _ _ _ _ _ _

/-- Call 11's store: the block of whole columns, column-normalised. -/
theorem pay11 (x : Vec Ideal S8192x128 .f32) : k11_pay1 (F := Ideal) x = colNormalise eps x := by
  unfold k11_pay1
  dsimp only
  rw [shapeCast_self]
  exact vec_colNormalise _ _ _ _ _ _ _ _

/-- Call 12's store: the block of whole rows, row-normalised. -/
theorem pay12 (x : Vec Ideal S128x8192 .f32) : k12_pay1 (F := Ideal) x = rowNormalise eps x := by
  unfold k12_pay1
  dsimp only
  rw [shapeCast_self]
  exact vec_rowNormalise _ _ _ _ _ _ _ _

/-- Call 13's store: the block of whole columns, column-normalised. -/
theorem pay13 (x : Vec Ideal S8192x128 .f32) : k13_pay1 (F := Ideal) x = colNormalise eps x := by
  unfold k13_pay1
  dsimp only
  rw [shapeCast_self]
  exact vec_colNormalise _ _ _ _ _ _ _ _

/-- Call 14's store: the block of whole rows, row-normalised. -/
theorem pay14 (x : Vec Ideal S128x8192 .f32) : k14_pay1 (F := Ideal) x = rowNormalise eps x := by
  unfold k14_pay1
  dsimp only
  rw [shapeCast_self]
  exact vec_rowNormalise _ _ _ _ _ _ _ _

/-- Call 15's store: the block of whole columns, column-normalised. -/
theorem pay15 (x : Vec Ideal S8192x128 .f32) : k15_pay1 (F := Ideal) x = colNormalise eps x := by
  unfold k15_pay1
  dsimp only
  rw [shapeCast_self]
  exact vec_colNormalise _ _ _ _ _ _ _ _

/-- Call 16's store: the block of whole rows, row-normalised. -/
theorem pay16 (x : Vec Ideal S128x8192 .f32) : k16_pay1 (F := Ideal) x = rowNormalise eps x := by
  unfold k16_pay1
  dsimp only
  rw [shapeCast_self]
  exact vec_rowNormalise _ _ _ _ _ _ _ _

/-- Call 17's store: the block of whole columns, column-normalised. -/
theorem pay17 (x : Vec Ideal S8192x128 .f32) : k17_pay1 (F := Ideal) x = colNormalise eps x := by
  unfold k17_pay1
  dsimp only
  rw [shapeCast_self]
  exact vec_colNormalise _ _ _ _ _ _ _ _

/-- Call 18's store: the block of whole rows, row-normalised. -/
theorem pay18 (x : Vec Ideal S128x8192 .f32) : k18_pay1 (F := Ideal) x = rowNormalise eps x := by
  unfold k18_pay1
  dsimp only
  rw [shapeCast_self]
  exact vec_rowNormalise _ _ _ _ _ _ _ _

/-- Call 19's store: the block of whole columns, column-normalised. -/
theorem pay19 (x : Vec Ideal S8192x128 .f32) : k19_pay1 (F := Ideal) x = colNormalise eps x := by
  unfold k19_pay1
  dsimp only
  rw [shapeCast_self]
  exact vec_colNormalise _ _ _ _ _ _ _ _

end Cert.Sinkhorn

end
-- ==== Proof.Call3.lean ====
/-
  Call 3 (a column call) as a whole-array step: whatever matrix the call finds in its input array, it leaves that
  matrix column-normalised in its output array.

  Grid point t stages columns 128 t … 128 t + 127 of the input, whole, and writes back the same columns of the output.
  A column's sum involves that column only, so the block's column form is those columns of the matrix's column form;
  the 64 blocks cover every column, so the output array ends as the column form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call3

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(0, t)`: decided over the 64 points. -/
theorem idx_facts : ∀ t : Fin cfg3.N, win3_0.index t (0 : Fin 2) = 0 ∧ win3_0.index t (1 : Fin 2) = t.val
    ∧ win3_1.index t (0 : Fin 2) = 0 ∧ win3_1.index t (1 : Fin 2) = t.val :=
  (by decide +kernel : ∀ t : Fin grid3.N, win3_0.index t (0 : Fin 2) = 0 ∧ win3_0.index t (1 : Fin 2) = t.val
    ∧ win3_1.index t (0 : Fin 2) = 0 ∧ win3_1.index t (1 : Fin 2) = t.val)

/-- The matrix the call finds in its input array. -/
abbrev src (c : Dev nD) : Vec Ideal S8192x8192 .f32 := V c main_v2

/-- Column `128 t + q` of the matrix. -/
def colOf (t : Fin cfg3.N) (q : Fin 128) : Fin 8192 :=
  ⟨t.val * 128 + q.val, by have := t.isLt; have h : cfg3.N = 64 := N_3; have := q.isLt; omega⟩

/-- The staged input block at point `t` holds columns `128 t + q` of the matrix, whole. -/
theorem block_cols (c : Dev nD) (t : Fin cfg3.N) (k : Fin 8192) (q : Fin 128) :
    iblk3 V c 0 t (ix2 k q) = src V c (ix2 k (colOf t q)) := by
  obtain ⟨e0, e1, -, -⟩ := idx_facts t
  show V c main_v2 (((cfg3.win 0).blk t).view.emb (ix2 k q)) = V c main_v2 (ix2 k (colOf t q))
  refine congrArg (V c main_v2) (funext fun a => Fin.ext ?_)
  match a with
  | ⟨0, _⟩ => show win3_0.index t (0 : Fin 2) * 8192 + 1 * k.val = k.val; omega
  | ⟨1, _⟩ => show win3_0.index t (1 : Fin 2) * 128 + 1 * q.val = t.val * 128 + q.val; omega

/-- What point `t` writes back is block `t` of the matrix's column form. -/
theorem flushed_eq (c : Dev nD) (t : Fin cfg3.N) :
    (dat3 V c).flushed 1 t = ((cfg3.win 1).blk t).view.read (Elt Ideal) (colN (src V c)) := by
  show (cfg3.win 1).cut (grid3.coords t) ((dat3 V c).after 1 t) = _
  rw [after3_1]
  unfold out3_1
  rw [View.canon_unit_zero hz]
  simp only [View.ld_unit_zero (S := S8192x128) hz]
  rw [pay3]
  obtain ⟨-, -, e2, e3⟩ := idx_facts t
  funext j
  obtain ⟨p, q, rfl⟩ : ∃ (p : Fin 8192) (q : Fin 128), j = ix2 p q := ⟨j 0, j 1, eq_ix2 j⟩
  show colNormalise eps (iblk3 V c 0 t) (ix2 p q) = colN (src V c) (((cfg3.win 1).blk t).view.emb (ix2 p q))
  refine (colNormalise_of_cols eps (iblk3 V c 0 t) (src V c) (colOf t) (block_cols V c t) p q).trans ?_
  unfold colN
  refine congrArg (colNormalise eps (src V c)) (funext fun a => Fin.ext ?_)
  match a with
  | ⟨0, _⟩ => show p.val = win3_1.index t (0 : Fin 2) * 8192 + 1 * p.val; omega
  | ⟨1, _⟩ => show t.val * 128 + q.val = win3_1.index t (1 : Fin 2) * 128 + 1 * q.val; omega

/-- An entry of the output array is in point `t`'s block iff each coordinate is in the block's range on its axis. -/
theorem mem_blk (t : Fin cfg3.N) (i : S8192x8192.Idx) :
    i ∈ ((cfg3.win 1).blk t).view.set ↔ ∀ a : Fin 2, win3_1.index t a * S8192x128.size a ≤ (i a).val ∧ (i a).val < win3_1.index t a * S8192x128.size a + S8192x128.size a := by
  show i ∈ ((View.whole main_v3).slice (win3_1.rect t)).set ↔ _
  rw [View.set_slice_whole, Rect.mem_set_unit]
  exact Iff.rfl

/-- Every entry of the output array is in the block of the point its column falls in. -/
theorem cover (i : S8192x8192.Idx) :
    ∃ t : Fin cfg3.N, (cfg3.win 1).flush t = true ∧ i ∈ ((cfg3.win 1).blk t).view.set := by
  have hi0 : (i 0).val < 8192 := (i 0).isLt
  have hi1 : (i 1).val < 8192 := (i 1).isLt
  have ht : (i 1).val / 128 < cfg3.N := lt_of_lt_of_eq (b := 64) (by omega) N_3.symm
  obtain ⟨-, -, e2, e3⟩ := idx_facts ⟨(i 1).val / 128, ht⟩
  refine ⟨⟨(i 1).val / 128, ht⟩, flush3_1 _, ?_⟩
  rw [mem_blk]
  intro a
  match a with
  | ⟨0, _⟩ =>
    show win3_1.index ⟨(i 1).val / 128, ht⟩ (0 : Fin 2) * 8192 ≤ (i 0).val ∧ (i 0).val < win3_1.index ⟨(i 1).val / 128, ht⟩ (0 : Fin 2) * 8192 + 8192
    rw [e2]; omega
  | ⟨1, _⟩ =>
    show win3_1.index ⟨(i 1).val / 128, ht⟩ (1 : Fin 2) * 128 ≤ (i 1).val ∧ (i 1).val < win3_1.index ⟨(i 1).val / 128, ht⟩ (1 : Fin 2) * 128 + 128
    rw [e3]; show (i 1).val / 128 * 128 ≤ (i 1).val ∧ (i 1).val < (i 1).val / 128 * 128 + 128; omega

/-- The call leaves its output array at the column form of the matrix it found in its input array. -/
theorem final (c : Dev nD) : (dat3 V c).arrAt 1 cfg3.N = colN (src V c) :=
  (dat3 V c).arrAt_eq_of_cover 1 (colN (src V c)) (fun t _ => flushed_eq V c t) cover

end Cert.Sinkhorn.Call3

end
-- ==== Proof.Call4.lean ====
/-
  Call 4 (a row call) as a whole-array step: whatever matrix the call finds in its input array, it leaves that
  matrix row-normalised in its output array.

  Grid point t stages rows 128 t … 128 t + 127 of the input, whole, and writes back the same rows of the output.  A
  row's sum involves that row only, so the block's row form is those rows of the matrix's row form; the 64 blocks
  cover every row, so the output array ends as the row form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call4

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(t, 0)`: decided over the 64 points. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, win4_0.index t (0 : Fin 2) = t.val ∧ win4_0.index t (1 : Fin 2) = 0
    ∧ win4_1.index t (0 : Fin 2) = t.val ∧ win4_1.index t (1 : Fin 2) = 0)

/-- The matrix the call finds in its input array. -/
abbrev src (c : Dev nD) : Vec Ideal S8192x8192 .f32 := V c main_v3

/-- Row `128 t + p` of the matrix. -/
def rowOf (t : Fin cfg4.N) (p : Fin 128) : Fin 8192 :=
  ⟨t.val * 128 + p.val, by have := t.isLt; have h : cfg4.N = 64 := N_4; have := p.isLt; omega⟩

/-- The staged input block at point `t` holds rows `128 t + p` of the matrix, whole. -/
theorem block_rows (c : Dev nD) (t : Fin cfg4.N) (p : Fin 128) (k : Fin 8192) :
    iblk4 V c 0 t (ix2 p k) = src V c (ix2 (rowOf t p) k) := by
  obtain ⟨e0, e1, -, -⟩ := idx_facts t
  show V c main_v3 (((cfg4.win 0).blk t).view.emb (ix2 p k)) = V c main_v3 (ix2 (rowOf t p) k)
  refine congrArg (V c main_v3) (funext fun a => Fin.ext ?_)
  match a with
  | ⟨0, _⟩ => show win4_0.index t (0 : Fin 2) * 128 + 1 * p.val = t.val * 128 + p.val; omega
  | ⟨1, _⟩ => show win4_0.index t (1 : Fin 2) * 8192 + 1 * k.val = k.val; omega

/-- What point `t` writes back is block `t` of the matrix's row form. -/
theorem flushed_eq (c : Dev nD) (t : Fin cfg4.N) :
    (dat4 V c).flushed 1 t = ((cfg4.win 1).blk t).view.read (Elt Ideal) (rowN (src V c)) := by
  show (cfg4.win 1).cut (grid4.coords t) ((dat4 V c).after 1 t) = _
  rw [after4_1]
  unfold out4_1
  rw [View.canon_unit_zero hz]
  simp only [View.ld_unit_zero (S := S128x8192) hz]
  rw [pay4]
  obtain ⟨-, -, e2, e3⟩ := idx_facts t
  funext j
  obtain ⟨p, q, rfl⟩ : ∃ (p : Fin 128) (q : Fin 8192), j = ix2 p q := ⟨j 0, j 1, eq_ix2 j⟩
  show rowNormalise eps (iblk4 V c 0 t) (ix2 p q) = rowN (src V c) (((cfg4.win 1).blk t).view.emb (ix2 p q))
  refine (rowNormalise_of_rows eps (iblk4 V c 0 t) (src V c) (rowOf t) (block_rows V c t) p q).trans ?_
  unfold rowN
  refine congrArg (rowNormalise eps (src V c)) (funext fun a => Fin.ext ?_)
  match a with
  | ⟨0, _⟩ => show t.val * 128 + p.val = win4_1.index t (0 : Fin 2) * 128 + 1 * p.val; omega
  | ⟨1, _⟩ => show q.val = win4_1.index t (1 : Fin 2) * 8192 + 1 * q.val; omega

/-- An entry of the output array is in point `t`'s block iff each coordinate is in the block's range on its axis. -/
theorem mem_blk (t : Fin cfg4.N) (i : S8192x8192.Idx) :
    i ∈ ((cfg4.win 1).blk t).view.set ↔ ∀ a : Fin 2, win4_1.index t a * S128x8192.size a ≤ (i a).val ∧ (i a).val < win4_1.index t a * S128x8192.size a + S128x8192.size a := by
  show i ∈ ((View.whole main_v4).slice (win4_1.rect t)).set ↔ _
  rw [View.set_slice_whole, Rect.mem_set_unit]
  exact Iff.rfl

/-- Every entry of the output array is in the block of the point its row falls in. -/
theorem cover (i : S8192x8192.Idx) :
    ∃ t : Fin cfg4.N, (cfg4.win 1).flush t = true ∧ i ∈ ((cfg4.win 1).blk t).view.set := by
  have hi0 : (i 0).val < 8192 := (i 0).isLt
  have hi1 : (i 1).val < 8192 := (i 1).isLt
  have ht : (i 0).val / 128 < cfg4.N := lt_of_lt_of_eq (b := 64) (by omega) N_4.symm
  obtain ⟨-, -, e2, e3⟩ := idx_facts ⟨(i 0).val / 128, ht⟩
  refine ⟨⟨(i 0).val / 128, ht⟩, flush4_1 _, ?_⟩
  rw [mem_blk]
  intro a
  match a with
  | ⟨0, _⟩ =>
    show win4_1.index ⟨(i 0).val / 128, ht⟩ (0 : Fin 2) * 128 ≤ (i 0).val ∧ (i 0).val < win4_1.index ⟨(i 0).val / 128, ht⟩ (0 : Fin 2) * 128 + 128
    rw [e2]; show (i 0).val / 128 * 128 ≤ (i 0).val ∧ (i 0).val < (i 0).val / 128 * 128 + 128; omega
  | ⟨1, _⟩ =>
    show win4_1.index ⟨(i 0).val / 128, ht⟩ (1 : Fin 2) * 8192 ≤ (i 1).val ∧ (i 1).val < win4_1.index ⟨(i 0).val / 128, ht⟩ (1 : Fin 2) * 8192 + 8192
    rw [e3]; omega

/-- The call leaves its output array at the row form of the matrix it found in its input array. -/
theorem final (c : Dev nD) : (dat4 V c).arrAt 1 cfg4.N = rowN (src V c) :=
  (dat4 V c).arrAt_eq_of_cover 1 (rowN (src V c)) (fun t _ => flushed_eq V c t) cover

end Cert.Sinkhorn.Call4

end
-- ==== Proof.Call5.lean ====
/-
  Call 5 (a column call) as a whole-array step: whatever matrix the call finds in its input array, it leaves that
  matrix column-normalised in its output array.

  Grid point t stages columns 128 t … 128 t + 127 of the input, whole, and writes back the same columns of the output.
  A column's sum involves that column only, so the block's column form is those columns of the matrix's column form;
  the 64 blocks cover every column, so the output array ends as the column form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call5

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(0, t)`: decided over the 64 points. -/
theorem idx_facts : ∀ t : Fin cfg5.N, win5_0.index t (0 : Fin 2) = 0 ∧ win5_0.index t (1 : Fin 2) = t.val
    ∧ win5_1.index t (0 : Fin 2) = 0 ∧ win5_1.index t (1 : Fin 2) = t.val :=
  (by decide +kernel : ∀ t : Fin grid5.N, win5_0.index t (0 : Fin 2) = 0 ∧ win5_0.index t (1 : Fin 2) = t.val
    ∧ win5_1.index t (0 : Fin 2) = 0 ∧ win5_1.index t (1 : Fin 2) = t.val)

/-- The matrix the call finds in its input array. -/
abbrev src (c : Dev nD) : Vec Ideal S8192x8192 .f32 := V c main_v4

/-- Column `128 t + q` of the matrix. -/
def colOf (t : Fin cfg5.N) (q : Fin 128) : Fin 8192 :=
  ⟨t.val * 128 + q.val, by have := t.isLt; have h : cfg5.N = 64 := N_5; have := q.isLt; omega⟩

/-- The staged input block at point `t` holds columns `128 t + q` of the matrix, whole. -/
theorem block_cols (c : Dev nD) (t : Fin cfg5.N) (k : Fin 8192) (q : Fin 128) :
    iblk5 V c 0 t (ix2 k q) = src V c (ix2 k (colOf t q)) := by
  obtain ⟨e0, e1, -, -⟩ := idx_facts t
  show V c main_v4 (((cfg5.win 0).blk t).view.emb (ix2 k q)) = V c main_v4 (ix2 k (colOf t q))
  refine congrArg (V c main_v4) (funext fun a => Fin.ext ?_)
  match a with
  | ⟨0, _⟩ => show win5_0.index t (0 : Fin 2) * 8192 + 1 * k.val = k.val; omega
  | ⟨1, _⟩ => show win5_0.index t (1 : Fin 2) * 128 + 1 * q.val = t.val * 128 + q.val; omega

/-- What point `t` writes back is block `t` of the matrix's column form. -/
theorem flushed_eq (c : Dev nD) (t : Fin cfg5.N) :
    (dat5 V c).flushed 1 t = ((cfg5.win 1).blk t).view.read (Elt Ideal) (colN (src V c)) := by
  show (cfg5.win 1).cut (grid5.coords t) ((dat5 V c).after 1 t) = _
  rw [after5_1]
  unfold out5_1
  rw [View.canon_unit_zero hz]
  simp only [View.ld_unit_zero (S := S8192x128) hz]
  rw [pay5]
  obtain ⟨-, -, e2, e3⟩ := idx_facts t
  funext j
  obtain ⟨p, q, rfl⟩ : ∃ (p : Fin 8192) (q : Fin 128), j = ix2 p q := ⟨j 0, j 1, eq_ix2 j⟩
  show colNormalise eps (iblk5 V c 0 t) (ix2 p q) = colN (src V c) (((cfg5.win 1).blk t).view.emb (ix2 p q))
  refine (colNormalise_of_cols eps (iblk5 V c 0 t) (src V c) (colOf t) (block_cols V c t) p q).trans ?_
  unfold colN
  refine congrArg (colNormalise eps (src V c)) (funext fun a => Fin.ext ?_)
  match a with
  | ⟨0, _⟩ => show p.val = win5_1.index t (0 : Fin 2) * 8192 + 1 * p.val; omega
  | ⟨1, _⟩ => show t.val * 128 + q.val = win5_1.index t (1 : Fin 2) * 128 + 1 * q.val; omega

/-- An entry of the output array is in point `t`'s block iff each coordinate is in the block's range on its axis. -/
theorem mem_blk (t : Fin cfg5.N) (i : S8192x8192.Idx) :
    i ∈ ((cfg5.win 1).blk t).view.set ↔ ∀ a : Fin 2, win5_1.index t a * S8192x128.size a ≤ (i a).val ∧ (i a).val < win5_1.index t a * S8192x128.size a + S8192x128.size a := by
  show i ∈ ((View.whole main_v5).slice (win5_1.rect t)).set ↔ _
  rw [View.set_slice_whole, Rect.mem_set_unit]
  exact Iff.rfl

/-- Every entry of the output array is in the block of the point its column falls in. -/
theorem cover (i : S8192x8192.Idx) :
    ∃ t : Fin cfg5.N, (cfg5.win 1).flush t = true ∧ i ∈ ((cfg5.win 1).blk t).view.set := by
  have hi0 : (i 0).val < 8192 := (i 0).isLt
  have hi1 : (i 1).val < 8192 := (i 1).isLt
  have ht : (i 1).val / 128 < cfg5.N := lt_of_lt_of_eq (b := 64) (by omega) N_5.symm
  obtain ⟨-, -, e2, e3⟩ := idx_facts ⟨(i 1).val / 128, ht⟩
  refine ⟨⟨(i 1).val / 128, ht⟩, flush5_1 _, ?_⟩
  rw [mem_blk]
  intro a
  match a with
  | ⟨0, _⟩ =>
    show win5_1.index ⟨(i 1).val / 128, ht⟩ (0 : Fin 2) * 8192 ≤ (i 0).val ∧ (i 0).val < win5_1.index ⟨(i 1).val / 128, ht⟩ (0 : Fin 2) * 8192 + 8192
    rw [e2]; omega
  | ⟨1, _⟩ =>
    show win5_1.index ⟨(i 1).val / 128, ht⟩ (1 : Fin 2) * 128 ≤ (i 1).val ∧ (i 1).val < win5_1.index ⟨(i 1).val / 128, ht⟩ (1 : Fin 2) * 128 + 128
    rw [e3]; show (i 1).val / 128 * 128 ≤ (i 1).val ∧ (i 1).val < (i 1).val / 128 * 128 + 128; omega

/-- The call leaves its output array at the column form of the matrix it found in its input array. -/
theorem final (c : Dev nD) : (dat5 V c).arrAt 1 cfg5.N = colN (src V c) :=
  (dat5 V c).arrAt_eq_of_cover 1 (colN (src V c)) (fun t _ => flushed_eq V c t) cover

end Cert.Sinkhorn.Call5

end
-- ==== Proof.Call6.lean ====
/-
  Call 6 (a row call) as a whole-array step: whatever matrix the call finds in its input array, it leaves that
  matrix row-normalised in its output array.

  Grid point t stages rows 128 t … 128 t + 127 of the input, whole, and writes back the same rows of the output.  A
  row's sum involves that row only, so the block's row form is those rows of the matrix's row form; the 64 blocks
  cover every row, so the output array ends as the row form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call6

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(t, 0)`: decided over the 64 points. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, win6_0.index t (0 : Fin 2) = t.val ∧ win6_0.index t (1 : Fin 2) = 0
    ∧ win6_1.index t (0 : Fin 2) = t.val ∧ win6_1.index t (1 : Fin 2) = 0)

/-- The matrix the call finds in its input array. -/
abbrev src (c : Dev nD) : Vec Ideal S8192x8192 .f32 := V c main_v5

/-- Row `128 t + p` of the matrix. -/
def rowOf (t : Fin cfg6.N) (p : Fin 128) : Fin 8192 :=
  ⟨t.val * 128 + p.val, by have := t.isLt; have h : cfg6.N = 64 := N_6; have := p.isLt; omega⟩

/-- The staged input block at point `t` holds rows `128 t + p` of the matrix, whole. -/
theorem block_rows (c : Dev nD) (t : Fin cfg6.N) (p : Fin 128) (k : Fin 8192) :
    iblk6 V c 0 t (ix2 p k) = src V c (ix2 (rowOf t p) k) := by
  obtain ⟨e0, e1, -, -⟩ := idx_facts t
  show V c main_v5 (((cfg6.win 0).blk t).view.emb (ix2 p k)) = V c main_v5 (ix2 (rowOf t p) k)
  refine congrArg (V c main_v5) (funext fun a => Fin.ext ?_)
  match a with
  | ⟨0, _⟩ => show win6_0.index t (0 : Fin 2) * 128 + 1 * p.val = t.val * 128 + p.val; omega
  | ⟨1, _⟩ => show win6_0.index t (1 : Fin 2) * 8192 + 1 * k.val = k.val; omega

/-- What point `t` writes back is block `t` of the matrix's row form. -/
theorem flushed_eq (c : Dev nD) (t : Fin cfg6.N) :
    (dat6 V c).flushed 1 t = ((cfg6.win 1).blk t).view.read (Elt Ideal) (rowN (src V c)) := by
  show (cfg6.win 1).cut (grid6.coords t) ((dat6 V c).after 1 t) = _
  rw [after6_1]
  unfold out6_1
  rw [View.canon_unit_zero hz]
  simp only [View.ld_unit_zero (S := S128x8192) hz]
  rw [pay6]
  obtain ⟨-, -, e2, e3⟩ := idx_facts t
  funext j
  obtain ⟨p, q, rfl⟩ : ∃ (p : Fin 128) (q : Fin 8192), j = ix2 p q := ⟨j 0, j 1, eq_ix2 j⟩
  show rowNormalise eps (iblk6 V c 0 t) (ix2 p q) = rowN (src V c) (((cfg6.win 1).blk t).view.emb (ix2 p q))
  refine (rowNormalise_of_rows eps (iblk6 V c 0 t) (src V c) (rowOf t) (block_rows V c t) p q).trans ?_
  unfold rowN
  refine congrArg (rowNormalise eps (src V c)) (funext fun a => Fin.ext ?_)
  match a with
  | ⟨0, _⟩ => show t.val * 128 + p.val = win6_1.index t (0 : Fin 2) * 128 + 1 * p.val; omega
  | ⟨1, _⟩ => show q.val = win6_1.index t (1 : Fin 2) * 8192 + 1 * q.val; omega

/-- An entry of the output array is in point `t`'s block iff each coordinate is in the block's range on its axis. -/
theorem mem_blk (t : Fin cfg6.N) (i : S8192x8192.Idx) :
    i ∈ ((cfg6.win 1).blk t).view.set ↔ ∀ a : Fin 2, win6_1.index t a * S128x8192.size a ≤ (i a).val ∧ (i a).val < win6_1.index t a * S128x8192.size a + S128x8192.size a := by
  show i ∈ ((View.whole main_v6).slice (win6_1.rect t)).set ↔ _
  rw [View.set_slice_whole, Rect.mem_set_unit]
  exact Iff.rfl

/-- Every entry of the output array is in the block of the point its row falls in. -/
theorem cover (i : S8192x8192.Idx) :
    ∃ t : Fin cfg6.N, (cfg6.win 1).flush t = true ∧ i ∈ ((cfg6.win 1).blk t).view.set := by
  have hi0 : (i 0).val < 8192 := (i 0).isLt
  have hi1 : (i 1).val < 8192 := (i 1).isLt
  have ht : (i 0).val / 128 < cfg6.N := lt_of_lt_of_eq (b := 64) (by omega) N_6.symm
  obtain ⟨-, -, e2, e3⟩ := idx_facts ⟨(i 0).val / 128, ht⟩
  refine ⟨⟨(i 0).val / 128, ht⟩, flush6_1 _, ?_⟩
  rw [mem_blk]
  intro a
  match a with
  | ⟨0, _⟩ =>
    show win6_1.index ⟨(i 0).val / 128, ht⟩ (0 : Fin 2) * 128 ≤ (i 0).val ∧ (i 0).val < win6_1.index ⟨(i 0).val / 128, ht⟩ (0 : Fin 2) * 128 + 128
    rw [e2]; show (i 0).val / 128 * 128 ≤ (i 0).val ∧ (i 0).val < (i 0).val / 128 * 128 + 128; omega
  | ⟨1, _⟩ =>
    show win6_1.index ⟨(i 0).val / 128, ht⟩ (1 : Fin 2) * 8192 ≤ (i 1).val ∧ (i 1).val < win6_1.index ⟨(i 0).val / 128, ht⟩ (1 : Fin 2) * 8192 + 8192
    rw [e3]; omega

/-- The call leaves its output array at the row form of the matrix it found in its input array. -/
theorem final (c : Dev nD) : (dat6 V c).arrAt 1 cfg6.N = rowN (src V c) :=
  (dat6 V c).arrAt_eq_of_cover 1 (rowN (src V c)) (fun t _ => flushed_eq V c t) cover

end Cert.Sinkhorn.Call6

end
-- ==== Proof.Call7.lean ====
/-
  Call 7 (a column call) as a whole-array step: whatever matrix the call finds in its input array, it leaves that
  matrix column-normalised in its output array.

  Grid point t stages columns 128 t … 128 t + 127 of the input, whole, and writes back the same columns of the output.
  A column's sum involves that column only, so the block's column form is those columns of the matrix's column form;
  the 64 blocks cover every column, so the output array ends as the column form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call7

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(0, t)`: decided over the 64 points. -/
theorem idx_facts : ∀ t : Fin cfg7.N, win7_0.index t (0 : Fin 2) = 0 ∧ win7_0.index t (1 : Fin 2) = t.val
    ∧ win7_1.index t (0 : Fin 2) = 0 ∧ win7_1.index t (1 : Fin 2) = t.val :=
  (by decide +kernel : ∀ t : Fin grid7.N, win7_0.index t (0 : Fin 2) = 0 ∧ win7_0.index t (1 : Fin 2) = t.val
    ∧ win7_1.index t (0 : Fin 2) = 0 ∧ win7_1.index t (1 : Fin 2) = t.val)

/-- The matrix the call finds in its input array. -/
abbrev src (c : Dev nD) : Vec Ideal S8192x8192 .f32 := V c main_v6

/-- Column `128 t + q` of the matrix. -/
def colOf (t : Fin cfg7.N) (q : Fin 128) : Fin 8192 :=
  ⟨t.val * 128 + q.val, by have := t.isLt; have h : cfg7.N = 64 := N_7; have := q.isLt; omega⟩

/-- The staged input block at point `t` holds columns `128 t + q` of the matrix, whole. -/
theorem block_cols (c : Dev nD) (t : Fin cfg7.N) (k : Fin 8192) (q : Fin 128) :
    iblk7 V c 0 t (ix2 k q) = src V c (ix2 k (colOf t q)) := by
  obtain ⟨e0, e1, -, -⟩ := idx_facts t
  show V c main_v6 (((cfg7.win 0).blk t).view.emb (ix2 k q)) = V c main_v6 (ix2 k (colOf t q))
  refine congrArg (V c main_v6) (funext fun a => Fin.ext ?_)
  match a with
  | ⟨0, _⟩ => show win7_0.index t (0 : Fin 2) * 8192 + 1 * k.val = k.val; omega
  | ⟨1, _⟩ => show win7_0.index t (1 : Fin 2) * 128 + 1 * q.val = t.val * 128 + q.val; omega

/-- What point `t` writes back is block `t` of the matrix's column form. -/
theorem flushed_eq (c : Dev nD) (t : Fin cfg7.N) :
    (dat7 V c).flushed 1 t = ((cfg7.win 1).blk t).view.read (Elt Ideal) (colN (src V c)) := by
  show (cfg7.win 1).cut (grid7.coords t) ((dat7 V c).after 1 t) = _
  rw [after7_1]
  unfold out7_1
  rw [View.canon_unit_zero hz]
  simp only [View.ld_unit_zero (S := S8192x128) hz]
  rw [pay7]
  obtain ⟨-, -, e2, e3⟩ := idx_facts t
  funext j
  obtain ⟨p, q, rfl⟩ : ∃ (p : Fin 8192) (q : Fin 128), j = ix2 p q := ⟨j 0, j 1, eq_ix2 j⟩
  show colNormalise eps (iblk7 V c 0 t) (ix2 p q) = colN (src V c) (((cfg7.win 1).blk t).view.emb (ix2 p q))
  refine (colNormalise_of_cols eps (iblk7 V c 0 t) (src V c) (colOf t) (block_cols V c t) p q).trans ?_
  unfold colN
  refine congrArg (colNormalise eps (src V c)) (funext fun a => Fin.ext ?_)
  match a with
  | ⟨0, _⟩ => show p.val = win7_1.index t (0 : Fin 2) * 8192 + 1 * p.val; omega
  | ⟨1, _⟩ => show t.val * 128 + q.val = win7_1.index t (1 : Fin 2) * 128 + 1 * q.val; omega

/-- An entry of the output array is in point `t`'s block iff each coordinate is in the block's range on its axis. -/
theorem mem_blk (t : Fin cfg7.N) (i : S8192x8192.Idx) :
    i ∈ ((cfg7.win 1).blk t).view.set ↔ ∀ a : Fin 2, win7_1.index t a * S8192x128.size a ≤ (i a).val ∧ (i a).val < win7_1.index t a * S8192x128.size a + S8192x128.size a := by
  show i ∈ ((View.whole main_v7).slice (win7_1.rect t)).set ↔ _
  rw [View.set_slice_whole, Rect.mem_set_unit]
  exact Iff.rfl

/-- Every entry of the output array is in the block of the point its column falls in. -/
theorem cover (i : S8192x8192.Idx) :
    ∃ t : Fin cfg7.N, (cfg7.win 1).flush t = true ∧ i ∈ ((cfg7.win 1).blk t).view.set := by
  have hi0 : (i 0).val < 8192 := (i 0).isLt
  have hi1 : (i 1).val < 8192 := (i 1).isLt
  have ht : (i 1).val / 128 < cfg7.N := lt_of_lt_of_eq (b := 64) (by omega) N_7.symm
  obtain ⟨-, -, e2, e3⟩ := idx_facts ⟨(i 1).val / 128, ht⟩
  refine ⟨⟨(i 1).val / 128, ht⟩, flush7_1 _, ?_⟩
  rw [mem_blk]
  intro a
  match a with
  | ⟨0, _⟩ =>
    show win7_1.index ⟨(i 1).val / 128, ht⟩ (0 : Fin 2) * 8192 ≤ (i 0).val ∧ (i 0).val < win7_1.index ⟨(i 1).val / 128, ht⟩ (0 : Fin 2) * 8192 + 8192
    rw [e2]; omega
  | ⟨1, _⟩ =>
    show win7_1.index ⟨(i 1).val / 128, ht⟩ (1 : Fin 2) * 128 ≤ (i 1).val ∧ (i 1).val < win7_1.index ⟨(i 1).val / 128, ht⟩ (1 : Fin 2) * 128 + 128
    rw [e3]; show (i 1).val / 128 * 128 ≤ (i 1).val ∧ (i 1).val < (i 1).val / 128 * 128 + 128; omega

/-- The call leaves its output array at the column form of the matrix it found in its input array. -/
theorem final (c : Dev nD) : (dat7 V c).arrAt 1 cfg7.N = colN (src V c) :=
  (dat7 V c).arrAt_eq_of_cover 1 (colN (src V c)) (fun t _ => flushed_eq V c t) cover

end Cert.Sinkhorn.Call7

end
-- ==== Proof.Call8.lean ====
/-
  Call 8 (a row call) as a whole-array step: whatever matrix the call finds in its input array, it leaves that
  matrix row-normalised in its output array.

  Grid point t stages rows 128 t … 128 t + 127 of the input, whole, and writes back the same rows of the output.  A
  row's sum involves that row only, so the block's row form is those rows of the matrix's row form; the 64 blocks
  cover every row, so the output array ends as the row form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call8

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(t, 0)`: decided over the 64 points. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0 :=
  (by decide +kernel : ∀ t : Fin grid8.N, win8_0.index t (0 : Fin 2) = t.val ∧ win8_0.index t (1 : Fin 2) = 0
    ∧ win8_1.index t (0 : Fin 2) = t.val ∧ win8_1.index t (1 : Fin 2) = 0)

/-- The matrix the call finds in its input array. -/
abbrev src (c : Dev nD) : Vec Ideal S8192x8192 .f32 := V c main_v7

/-- Row `128 t + p` of the matrix. -/
def rowOf (t : Fin cfg8.N) (p : Fin 128) : Fin 8192 :=
  ⟨t.val * 128 + p.val, by have := t.isLt; have h : cfg8.N = 64 := N_8; have := p.isLt; omega⟩

/-- The staged input block at point `t` holds rows `128 t + p` of the matrix, whole. -/
theorem block_rows (c : Dev nD) (t : Fin cfg8.N) (p : Fin 128) (k : Fin 8192) :
    iblk8 V c 0 t (ix2 p k) = src V c (ix2 (rowOf t p) k) := by
  obtain ⟨e0, e1, -, -⟩ := idx_facts t
  show V c main_v7 (((cfg8.win 0).blk t).view.emb (ix2 p k)) = V c main_v7 (ix2 (rowOf t p) k)
  refine congrArg (V c main_v7) (funext fun a => Fin.ext ?_)
  match a with
  | ⟨0, _⟩ => show win8_0.index t (0 : Fin 2) * 128 + 1 * p.val = t.val * 128 + p.val; omega
  | ⟨1, _⟩ => show win8_0.index t (1 : Fin 2) * 8192 + 1 * k.val = k.val; omega

/-- What point `t` writes back is block `t` of the matrix's row form. -/
theorem flushed_eq (c : Dev nD) (t : Fin cfg8.N) :
    (dat8 V c).flushed 1 t = ((cfg8.win 1).blk t).view.read (Elt Ideal) (rowN (src V c)) := by
  show (cfg8.win 1).cut (grid8.coords t) ((dat8 V c).after 1 t) = _
  rw [after8_1]
  unfold out8_1
  rw [View.canon_unit_zero hz]
  simp only [View.ld_unit_zero (S := S128x8192) hz]
  rw [pay8]
  obtain ⟨-, -, e2, e3⟩ := idx_facts t
  funext j
  obtain ⟨p, q, rfl⟩ : ∃ (p : Fin 128) (q : Fin 8192), j = ix2 p q := ⟨j 0, j 1, eq_ix2 j⟩
  show rowNormalise eps (iblk8 V c 0 t) (ix2 p q) = rowN (src V c) (((cfg8.win 1).blk t).view.emb (ix2 p q))
  refine (rowNormalise_of_rows eps (iblk8 V c 0 t) (src V c) (rowOf t) (block_rows V c t) p q).trans ?_
  unfold rowN
  refine congrArg (rowNormalise eps (src V c)) (funext fun a => Fin.ext ?_)
  match a with
  | ⟨0, _⟩ => show t.val * 128 + p.val = win8_1.index t (0 : Fin 2) * 128 + 1 * p.val; omega
  | ⟨1, _⟩ => show q.val = win8_1.index t (1 : Fin 2) * 8192 + 1 * q.val; omega

/-- An entry of the output array is in point `t`'s block iff each coordinate is in the block's range on its axis. -/
theorem mem_blk (t : Fin cfg8.N) (i : S8192x8192.Idx) :
    i ∈ ((cfg8.win 1).blk t).view.set ↔ ∀ a : Fin 2, win8_1.index t a * S128x8192.size a ≤ (i a).val ∧ (i a).val < win8_1.index t a * S128x8192.size a + S128x8192.size a := by
  show i ∈ ((View.whole main_v8).slice (win8_1.rect t)).set ↔ _
  rw [View.set_slice_whole, Rect.mem_set_unit]
  exact Iff.rfl

/-- Every entry of the output array is in the block of the point its row falls in. -/
theorem cover (i : S8192x8192.Idx) :
    ∃ t : Fin cfg8.N, (cfg8.win 1).flush t = true ∧ i ∈ ((cfg8.win 1).blk t).view.set := by
  have hi0 : (i 0).val < 8192 := (i 0).isLt
  have hi1 : (i 1).val < 8192 := (i 1).isLt
  have ht : (i 0).val / 128 < cfg8.N := lt_of_lt_of_eq (b := 64) (by omega) N_8.symm
  obtain ⟨-, -, e2, e3⟩ := idx_facts ⟨(i 0).val / 128, ht⟩
  refine ⟨⟨(i 0).val / 128, ht⟩, flush8_1 _, ?_⟩
  rw [mem_blk]
  intro a
  match a with
  | ⟨0, _⟩ =>
    show win8_1.index ⟨(i 0).val / 128, ht⟩ (0 : Fin 2) * 128 ≤ (i 0).val ∧ (i 0).val < win8_1.index ⟨(i 0).val / 128, ht⟩ (0 : Fin 2) * 128 + 128
    rw [e2]; show (i 0).val / 128 * 128 ≤ (i 0).val ∧ (i 0).val < (i 0).val / 128 * 128 + 128; omega
  | ⟨1, _⟩ =>
    show win8_1.index ⟨(i 0).val / 128, ht⟩ (1 : Fin 2) * 8192 ≤ (i 1).val ∧ (i 1).val < win8_1.index ⟨(i 0).val / 128, ht⟩ (1 : Fin 2) * 8192 + 8192
    rw [e3]; omega

/-- The call leaves its output array at the row form of the matrix it found in its input array. -/
theorem final (c : Dev nD) : (dat8 V c).arrAt 1 cfg8.N = rowN (src V c) :=
  (dat8 V c).arrAt_eq_of_cover 1 (rowN (src V c)) (fun t _ => flushed_eq V c t) cover

end Cert.Sinkhorn.Call8

end
-- ==== Proof.Call9.lean ====
/-
  Call 9 (a column call) as a whole-array step: whatever matrix the call finds in its input array, it leaves that
  matrix column-normalised in its output array.

  Grid point t stages columns 128 t … 128 t + 127 of the input, whole, and writes back the same columns of the output.
  A column's sum involves that column only, so the block's column form is those columns of the matrix's column form;
  the 64 blocks cover every column, so the output array ends as the column form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call9

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(0, t)`: decided over the 64 points. -/
theorem idx_facts : ∀ t : Fin cfg9.N, win9_0.index t (0 : Fin 2) = 0 ∧ win9_0.index t (1 : Fin 2) = t.val
    ∧ win9_1.index t (0 : Fin 2) = 0 ∧ win9_1.index t (1 : Fin 2) = t.val :=
  (by decide +kernel : ∀ t : Fin grid9.N, win9_0.index t (0 : Fin 2) = 0 ∧ win9_0.index t (1 : Fin 2) = t.val
    ∧ win9_1.index t (0 : Fin 2) = 0 ∧ win9_1.index t (1 : Fin 2) = t.val)

/-- The matrix the call finds in its input array. -/
abbrev src (c : Dev nD) : Vec Ideal S8192x8192 .f32 := V c main_v8

/-- Column `128 t + q` of the matrix. -/
def colOf (t : Fin cfg9.N) (q : Fin 128) : Fin 8192 :=
  ⟨t.val * 128 + q.val, by have := t.isLt; have h : cfg9.N = 64 := N_9; have := q.isLt; omega⟩

/-- The staged input block at point `t` holds columns `128 t + q` of the matrix, whole. -/
theorem block_cols (c : Dev nD) (t : Fin cfg9.N) (k : Fin 8192) (q : Fin 128) :
    iblk9 V c 0 t (ix2 k q) = src V c (ix2 k (colOf t q)) := by
  obtain ⟨e0, e1, -, -⟩ := idx_facts t
  show V c main_v8 (((cfg9.win 0).blk t).view.emb (ix2 k q)) = V c main_v8 (ix2 k (colOf t q))
  refine congrArg (V c main_v8) (funext fun a => Fin.ext ?_)
  match a with
  | ⟨0, _⟩ => show win9_0.index t (0 : Fin 2) * 8192 + 1 * k.val = k.val; omega
  | ⟨1, _⟩ => show win9_0.index t (1 : Fin 2) * 128 + 1 * q.val = t.val * 128 + q.val; omega

/-- What point `t` writes back is block `t` of the matrix's column form. -/
theorem flushed_eq (c : Dev nD) (t : Fin cfg9.N) :
    (dat9 V c).flushed 1 t = ((cfg9.win 1).blk t).view.read (Elt Ideal) (colN (src V c)) := by
  show (cfg9.win 1).cut (grid9.coords t) ((dat9 V c).after 1 t) = _
  rw [after9_1]
  unfold out9_1
  rw [View.canon_unit_zero hz]
  simp only [View.ld_unit_zero (S := S8192x128) hz]
  rw [pay9]
  obtain ⟨-, -, e2, e3⟩ := idx_facts t
  funext j
  obtain ⟨p, q, rfl⟩ : ∃ (p : Fin 8192) (q : Fin 128), j = ix2 p q := ⟨j 0, j 1, eq_ix2 j⟩
  show colNormalise eps (iblk9 V c 0 t) (ix2 p q) = colN (src V c) (((cfg9.win 1).blk t).view.emb (ix2 p q))
  refine (colNormalise_of_cols eps (iblk9 V c 0 t) (src V c) (colOf t) (block_cols V c t) p q).trans ?_
  unfold colN
  refine congrArg (colNormalise eps (src V c)) (funext fun a => Fin.ext ?_)
  match a with
  | ⟨0, _⟩ => show p.val = win9_1.index t (0 : Fin 2) * 8192 + 1 * p.val; omega
  | ⟨1, _⟩ => show t.val * 128 + q.val = win9_1.index t (1 : Fin 2) * 128 + 1 * q.val; omega

/-- An entry of the output array is in point `t`'s block iff each coordinate is in the block's range on its axis. -/
theorem mem_blk (t : Fin cfg9.N) (i : S8192x8192.Idx) :
    i ∈ ((cfg9.win 1).blk t).view.set ↔ ∀ a : Fin 2, win9_1.index t a * S8192x128.size a ≤ (i a).val ∧ (i a).val < win9_1.index t a * S8192x128.size a + S8192x128.size a := by
  show i ∈ ((View.whole main_v9).slice (win9_1.rect t)).set ↔ _
  rw [View.set_slice_whole, Rect.mem_set_unit]
  exact Iff.rfl

/-- Every entry of the output array is in the block of the point its column falls in. -/
theorem cover (i : S8192x8192.Idx) :
    ∃ t : Fin cfg9.N, (cfg9.win 1).flush t = true ∧ i ∈ ((cfg9.win 1).blk t).view.set := by
  have hi0 : (i 0).val < 8192 := (i 0).isLt
  have hi1 : (i 1).val < 8192 := (i 1).isLt
  have ht : (i 1).val / 128 < cfg9.N := lt_of_lt_of_eq (b := 64) (by omega) N_9.symm
  obtain ⟨-, -, e2, e3⟩ := idx_facts ⟨(i 1).val / 128, ht⟩
  refine ⟨⟨(i 1).val / 128, ht⟩, flush9_1 _, ?_⟩
  rw [mem_blk]
  intro a
  match a with
  | ⟨0, _⟩ =>
    show win9_1.index ⟨(i 1).val / 128, ht⟩ (0 : Fin 2) * 8192 ≤ (i 0).val ∧ (i 0).val < win9_1.index ⟨(i 1).val / 128, ht⟩ (0 : Fin 2) * 8192 + 8192
    rw [e2]; omega
  | ⟨1, _⟩ =>
    show win9_1.index ⟨(i 1).val / 128, ht⟩ (1 : Fin 2) * 128 ≤ (i 1).val ∧ (i 1).val < win9_1.index ⟨(i 1).val / 128, ht⟩ (1 : Fin 2) * 128 + 128
    rw [e3]; show (i 1).val / 128 * 128 ≤ (i 1).val ∧ (i 1).val < (i 1).val / 128 * 128 + 128; omega

/-- The call leaves its output array at the column form of the matrix it found in its input array. -/
theorem final (c : Dev nD) : (dat9 V c).arrAt 1 cfg9.N = colN (src V c) :=
  (dat9 V c).arrAt_eq_of_cover 1 (colN (src V c)) (fun t _ => flushed_eq V c t) cover

end Cert.Sinkhorn.Call9

end
-- ==== Proof.Call10.lean ====
/-
  Call 10 (a row call) as a whole-array step: whatever matrix the call finds in its input array, it leaves that
  matrix row-normalised in its output array.

  Grid point t stages rows 128 t … 128 t + 127 of the input, whole, and writes back the same rows of the output.  A
  row's sum involves that row only, so the block's row form is those rows of the matrix's row form; the 64 blocks
  cover every row, so the output array ends as the row form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call10

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(t, 0)`: decided over the 64 points. -/
theorem idx_facts : ∀ t : Fin cfg10.N, win10_0.index t (0 : Fin 2) = t.val ∧ win10_0.index t (1 : Fin 2) = 0
    ∧ win10_1.index t (0 : Fin 2) = t.val ∧ win10_1.index t (1 : Fin 2) = 0 :=
  (by decide +kernel : ∀ t : Fin grid10.N, win10_0.index t (0 : Fin 2) = t.val ∧ win10_0.index t (1 : Fin 2) = 0
    ∧ win10_1.index t (0 : Fin 2) = t.val ∧ win10_1.index t (1 : Fin 2) = 0)

/-- The matrix the call finds in its input array. -/
abbrev src (c : Dev nD) : Vec Ideal S8192x8192 .f32 := V c main_v9

/-- Row `128 t + p` of the matrix. -/
def rowOf (t : Fin cfg10.N) (p : Fin 128) : Fin 8192 :=
  ⟨t.val * 128 + p.val, by have := t.isLt; have h : cfg10.N = 64 := N_10; have := p.isLt; omega⟩

/-- The staged input block at point `t` holds rows `128 t + p` of the matrix, whole. -/
theorem block_rows (c : Dev nD) (t : Fin cfg10.N) (p : Fin 128) (k : Fin 8192) :
    iblk10 V c 0 t (ix2 p k) = src V c (ix2 (rowOf t p) k) := by
  obtain ⟨e0, e1, -, -⟩ := idx_facts t
  show V c main_v9 (((cfg10.win 0).blk t).view.emb (ix2 p k)) = V c main_v9 (ix2 (rowOf t p) k)
  refine congrArg (V c main_v9) (funext fun a => Fin.ext ?_)
  match a with
  | ⟨0, _⟩ => show win10_0.index t (0 : Fin 2) * 128 + 1 * p.val = t.val * 128 + p.val; omega
  | ⟨1, _⟩ => show win10_0.index t (1 : Fin 2) * 8192 + 1 * k.val = k.val; omega

/-- What point `t` writes back is block `t` of the matrix's row form. -/
theorem flushed_eq (c : Dev nD) (t : Fin cfg10.N) :
    (dat10 V c).flushed 1 t = ((cfg10.win 1).blk t).view.read (Elt Ideal) (rowN (src V c)) := by
  show (cfg10.win 1).cut (grid10.coords t) ((dat10 V c).after 1 t) = _
  rw [after10_1]
  unfold out10_1
  rw [View.canon_unit_zero hz]
  simp only [View.ld_unit_zero (S := S128x8192) hz]
  rw [pay10]
  obtain ⟨-, -, e2, e3⟩ := idx_facts t
  funext j
  obtain ⟨p, q, rfl⟩ : ∃ (p : Fin 128) (q : Fin 8192), j = ix2 p q := ⟨j 0, j 1, eq_ix2 j⟩
  show rowNormalise eps (iblk10 V c 0 t) (ix2 p q) = rowN (src V c) (((cfg10.win 1).blk t).view.emb (ix2 p q))
  refine (rowNormalise_of_rows eps (iblk10 V c 0 t) (src V c) (rowOf t) (block_rows V c t) p q).trans ?_
  unfold rowN
  refine congrArg (rowNormalise eps (src V c)) (funext fun a => Fin.ext ?_)
  match a with
  | ⟨0, _⟩ => show t.val * 128 + p.val = win10_1.index t (0 : Fin 2) * 128 + 1 * p.val; omega
  | ⟨1, _⟩ => show q.val = win10_1.index t (1 : Fin 2) * 8192 + 1 * q.val; omega

/-- An entry of the output array is in point `t`'s block iff each coordinate is in the block's range on its axis. -/
theorem mem_blk (t : Fin cfg10.N) (i : S8192x8192.Idx) :
    i ∈ ((cfg10.win 1).blk t).view.set ↔ ∀ a : Fin 2, win10_1.index t a * S128x8192.size a ≤ (i a).val ∧ (i a).val < win10_1.index t a * S128x8192.size a + S128x8192.size a := by
  show i ∈ ((View.whole main_v10).slice (win10_1.rect t)).set ↔ _
  rw [View.set_slice_whole, Rect.mem_set_unit]
  exact Iff.rfl

/-- Every entry of the output array is in the block of the point its row falls in. -/
theorem cover (i : S8192x8192.Idx) :
    ∃ t : Fin cfg10.N, (cfg10.win 1).flush t = true ∧ i ∈ ((cfg10.win 1).blk t).view.set := by
  have hi0 : (i 0).val < 8192 := (i 0).isLt
  have hi1 : (i 1).val < 8192 := (i 1).isLt
  have ht : (i 0).val / 128 < cfg10.N := lt_of_lt_of_eq (b := 64) (by omega) N_10.symm
  obtain ⟨-, -, e2, e3⟩ := idx_facts ⟨(i 0).val / 128, ht⟩
  refine ⟨⟨(i 0).val / 128, ht⟩, flush10_1 _, ?_⟩
  rw [mem_blk]
  intro a
  match a with
  | ⟨0, _⟩ =>
    show win10_1.index ⟨(i 0).val / 128, ht⟩ (0 : Fin 2) * 128 ≤ (i 0).val ∧ (i 0).val < win10_1.index ⟨(i 0).val / 128, ht⟩ (0 : Fin 2) * 128 + 128
    rw [e2]; show (i 0).val / 128 * 128 ≤ (i 0).val ∧ (i 0).val < (i 0).val / 128 * 128 + 128; omega
  | ⟨1, _⟩ =>
    show win10_1.index ⟨(i 0).val / 128, ht⟩ (1 : Fin 2) * 8192 ≤ (i 1).val ∧ (i 1).val < win10_1.index ⟨(i 0).val / 128, ht⟩ (1 : Fin 2) * 8192 + 8192
    rw [e3]; omega

/-- The call leaves its output array at the row form of the matrix it found in its input array. -/
theorem final (c : Dev nD) : (dat10 V c).arrAt 1 cfg10.N = rowN (src V c) :=
  (dat10 V c).arrAt_eq_of_cover 1 (rowN (src V c)) (fun t _ => flushed_eq V c t) cover

end Cert.Sinkhorn.Call10

end
-- ==== Proof.Call11.lean ====
/-
  Call 11 (a column call) as a whole-array step: whatever matrix the call finds in its input array, it leaves that
  matrix column-normalised in its output array.

  Grid point t stages columns 128 t … 128 t + 127 of the input, whole, and writes back the same columns of the output.
  A column's sum involves that column only, so the block's column form is those columns of the matrix's column form;
  the 64 blocks cover every column, so the output array ends as the column form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call11

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(0, t)`: decided over the 64 points. -/
theorem idx_facts : ∀ t : Fin cfg11.N, win11_0.index t (0 : Fin 2) = 0 ∧ win11_0.index t (1 : Fin 2) = t.val
    ∧ win11_1.index t (0 : Fin 2) = 0 ∧ win11_1.index t (1 : Fin 2) = t.val :=
  (by decide +kernel : ∀ t : Fin grid11.N, win11_0.index t (0 : Fin 2) = 0 ∧ win11_0.index t (1 : Fin 2) = t.val
    ∧ win11_1.index t (0 : Fin 2) = 0 ∧ win11_1.index t (1 : Fin 2) = t.val)

/-- The matrix the call finds in its input array. -/
abbrev src (c : Dev nD) : Vec Ideal S8192x8192 .f32 := V c main_v10

/-- Column `128 t + q` of the matrix. -/
def colOf (t : Fin cfg11.N) (q : Fin 128) : Fin 8192 :=
  ⟨t.val * 128 + q.val, by have := t.isLt; have h : cfg11.N = 64 := N_11; have := q.isLt; omega⟩

/-- The staged input block at point `t` holds columns `128 t + q` of the matrix, whole. -/
theorem block_cols (c : Dev nD) (t : Fin cfg11.N) (k : Fin 8192) (q : Fin 128) :
    iblk11 V c 0 t (ix2 k q) = src V c (ix2 k (colOf t q)) := by
  obtain ⟨e0, e1, -, -⟩ := idx_facts t
  show V c main_v10 (((cfg11.win 0).blk t).view.emb (ix2 k q)) = V c main_v10 (ix2 k (colOf t q))
  refine congrArg (V c main_v10) (funext fun a => Fin.ext ?_)
  match a with
  | ⟨0, _⟩ => show win11_0.index t (0 : Fin 2) * 8192 + 1 * k.val = k.val; omega
  | ⟨1, _⟩ => show win11_0.index t (1 : Fin 2) * 128 + 1 * q.val = t.val * 128 + q.val; omega

/-- What point `t` writes back is block `t` of the matrix's column form. -/
theorem flushed_eq (c : Dev nD) (t : Fin cfg11.N) :
    (dat11 V c).flushed 1 t = ((cfg11.win 1).blk t).view.read (Elt Ideal) (colN (src V c)) := by
  show (cfg11.win 1).cut (grid11.coords t) ((dat11 V c).after 1 t) = _
  rw [after11_1]
  unfold out11_1
  rw [View.canon_unit_zero hz]
  simp only [View.ld_unit_zero (S := S8192x128) hz]
  rw [pay11]
  obtain ⟨-, -, e2, e3⟩ := idx_facts t
  funext j
  obtain ⟨p, q, rfl⟩ : ∃ (p : Fin 8192) (q : Fin 128), j = ix2 p q := ⟨j 0, j 1, eq_ix2 j⟩
  show colNormalise eps (iblk11 V c 0 t) (ix2 p q) = colN (src V c) (((cfg11.win 1).blk t).view.emb (ix2 p q))
  refine (colNormalise_of_cols eps (iblk11 V c 0 t) (src V c) (colOf t) (block_cols V c t) p q).trans ?_
  unfold colN
  refine congrArg (colNormalise eps (src V c)) (funext fun a => Fin.ext ?_)
  match a with
  | ⟨0, _⟩ => show p.val = win11_1.index t (0 : Fin 2) * 8192 + 1 * p.val; omega
  | ⟨1, _⟩ => show t.val * 128 + q.val = win11_1.index t (1 : Fin 2) * 128 + 1 * q.val; omega

/-- An entry of the output array is in point `t`'s block iff each coordinate is in the block's range on its axis. -/
theorem mem_blk (t : Fin cfg11.N) (i : S8192x8192.Idx) :
    i ∈ ((cfg11.win 1).blk t).view.set ↔ ∀ a : Fin 2, win11_1.index t a * S8192x128.size a ≤ (i a).val ∧ (i a).val < win11_1.index t a * S8192x128.size a + S8192x128.size a := by
  show i ∈ ((View.whole main_v11).slice (win11_1.rect t)).set ↔ _
  rw [View.set_slice_whole, Rect.mem_set_unit]
  exact Iff.rfl

/-- Every entry of the output array is in the block of the point its column falls in. -/
theorem cover (i : S8192x8192.Idx) :
    ∃ t : Fin cfg11.N, (cfg11.win 1).flush t = true ∧ i ∈ ((cfg11.win 1).blk t).view.set := by
  have hi0 : (i 0).val < 8192 := (i 0).isLt
  have hi1 : (i 1).val < 8192 := (i 1).isLt
  have ht : (i 1).val / 128 < cfg11.N := lt_of_lt_of_eq (b := 64) (by omega) N_11.symm
  obtain ⟨-, -, e2, e3⟩ := idx_facts ⟨(i 1).val / 128, ht⟩
  refine ⟨⟨(i 1).val / 128, ht⟩, flush11_1 _, ?_⟩
  rw [mem_blk]
  intro a
  match a with
  | ⟨0, _⟩ =>
    show win11_1.index ⟨(i 1).val / 128, ht⟩ (0 : Fin 2) * 8192 ≤ (i 0).val ∧ (i 0).val < win11_1.index ⟨(i 1).val / 128, ht⟩ (0 : Fin 2) * 8192 + 8192
    rw [e2]; omega
  | ⟨1, _⟩ =>
    show win11_1.index ⟨(i 1).val / 128, ht⟩ (1 : Fin 2) * 128 ≤ (i 1).val ∧ (i 1).val < win11_1.index ⟨(i 1).val / 128, ht⟩ (1 : Fin 2) * 128 + 128
    rw [e3]; show (i 1).val / 128 * 128 ≤ (i 1).val ∧ (i 1).val < (i 1).val / 128 * 128 + 128; omega

/-- The call leaves its output array at the column form of the matrix it found in its input array. -/
theorem final (c : Dev nD) : (dat11 V c).arrAt 1 cfg11.N = colN (src V c) :=
  (dat11 V c).arrAt_eq_of_cover 1 (colN (src V c)) (fun t _ => flushed_eq V c t) cover

end Cert.Sinkhorn.Call11

end
-- ==== Proof.Call12.lean ====
/-
  Call 12 (a row call) as a whole-array step: whatever matrix the call finds in its input array, it leaves that
  matrix row-normalised in its output array.

  Grid point t stages rows 128 t … 128 t + 127 of the input, whole, and writes back the same rows of the output.  A
  row's sum involves that row only, so the block's row form is those rows of the matrix's row form; the 64 blocks
  cover every row, so the output array ends as the row form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call12

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(t, 0)`: decided over the 64 points. -/
theorem idx_facts : ∀ t : Fin cfg12.N, win12_0.index t (0 : Fin 2) = t.val ∧ win12_0.index t (1 : Fin 2) = 0
    ∧ win12_1.index t (0 : Fin 2) = t.val ∧ win12_1.index t (1 : Fin 2) = 0 :=
  (by decide +kernel : ∀ t : Fin grid12.N, win12_0.index t (0 : Fin 2) = t.val ∧ win12_0.index t (1 : Fin 2) = 0
    ∧ win12_1.index t (0 : Fin 2) = t.val ∧ win12_1.index t (1 : Fin 2) = 0)

/-- The matrix the call finds in its input array. -/
abbrev src (c : Dev nD) : Vec Ideal S8192x8192 .f32 := V c main_v11

/-- Row `128 t + p` of the matrix. -/
def rowOf (t : Fin cfg12.N) (p : Fin 128) : Fin 8192 :=
  ⟨t.val * 128 + p.val, by have := t.isLt; have h : cfg12.N = 64 := N_12; have := p.isLt; omega⟩

/-- The staged input block at point `t` holds rows `128 t + p` of the matrix, whole. -/
theorem block_rows (c : Dev nD) (t : Fin cfg12.N) (p : Fin 128) (k : Fin 8192) :
    iblk12 V c 0 t (ix2 p k) = src V c (ix2 (rowOf t p) k) := by
  obtain ⟨e0, e1, -, -⟩ := idx_facts t
  show V c main_v11 (((cfg12.win 0).blk t).view.emb (ix2 p k)) = V c main_v11 (ix2 (rowOf t p) k)
  refine congrArg (V c main_v11) (funext fun a => Fin.ext ?_)
  match a with
  | ⟨0, _⟩ => show win12_0.index t (0 : Fin 2) * 128 + 1 * p.val = t.val * 128 + p.val; omega
  | ⟨1, _⟩ => show win12_0.index t (1 : Fin 2) * 8192 + 1 * k.val = k.val; omega

/-- What point `t` writes back is block `t` of the matrix's row form. -/
theorem flushed_eq (c : Dev nD) (t : Fin cfg12.N) :
    (dat12 V c).flushed 1 t = ((cfg12.win 1).blk t).view.read (Elt Ideal) (rowN (src V c)) := by
  show (cfg12.win 1).cut (grid12.coords t) ((dat12 V c).after 1 t) = _
  rw [after12_1]
  unfold out12_1
  rw [View.canon_unit_zero hz]
  simp only [View.ld_unit_zero (S := S128x8192) hz]
  rw [pay12]
  obtain ⟨-, -, e2, e3⟩ := idx_facts t
  funext j
  obtain ⟨p, q, rfl⟩ : ∃ (p : Fin 128) (q : Fin 8192), j = ix2 p q := ⟨j 0, j 1, eq_ix2 j⟩
  show rowNormalise eps (iblk12 V c 0 t) (ix2 p q) = rowN (src V c) (((cfg12.win 1).blk t).view.emb (ix2 p q))
  refine (rowNormalise_of_rows eps (iblk12 V c 0 t) (src V c) (rowOf t) (block_rows V c t) p q).trans ?_
  unfold rowN
  refine congrArg (rowNormalise eps (src V c)) (funext fun a => Fin.ext ?_)
  match a with
  | ⟨0, _⟩ => show t.val * 128 + p.val = win12_1.index t (0 : Fin 2) * 128 + 1 * p.val; omega
  | ⟨1, _⟩ => show q.val = win12_1.index t (1 : Fin 2) * 8192 + 1 * q.val; omega

/-- An entry of the output array is in point `t`'s block iff each coordinate is in the block's range on its axis. -/
theorem mem_blk (t : Fin cfg12.N) (i : S8192x8192.Idx) :
    i ∈ ((cfg12.win 1).blk t).view.set ↔ ∀ a : Fin 2, win12_1.index t a * S128x8192.size a ≤ (i a).val ∧ (i a).val < win12_1.index t a * S128x8192.size a + S128x8192.size a := by
  show i ∈ ((View.whole main_v12).slice (win12_1.rect t)).set ↔ _
  rw [View.set_slice_whole, Rect.mem_set_unit]
  exact Iff.rfl

/-- Every entry of the output array is in the block of the point its row falls in. -/
theorem cover (i : S8192x8192.Idx) :
    ∃ t : Fin cfg12.N, (cfg12.win 1).flush t = true ∧ i ∈ ((cfg12.win 1).blk t).view.set := by
  have hi0 : (i 0).val < 8192 := (i 0).isLt
  have hi1 : (i 1).val < 8192 := (i 1).isLt
  have ht : (i 0).val / 128 < cfg12.N := lt_of_lt_of_eq (b := 64) (by omega) N_12.symm
  obtain ⟨-, -, e2, e3⟩ := idx_facts ⟨(i 0).val / 128, ht⟩
  refine ⟨⟨(i 0).val / 128, ht⟩, flush12_1 _, ?_⟩
  rw [mem_blk]
  intro a
  match a with
  | ⟨0, _⟩ =>
    show win12_1.index ⟨(i 0).val / 128, ht⟩ (0 : Fin 2) * 128 ≤ (i 0).val ∧ (i 0).val < win12_1.index ⟨(i 0).val / 128, ht⟩ (0 : Fin 2) * 128 + 128
    rw [e2]; show (i 0).val / 128 * 128 ≤ (i 0).val ∧ (i 0).val < (i 0).val / 128 * 128 + 128; omega
  | ⟨1, _⟩ =>
    show win12_1.index ⟨(i 0).val / 128, ht⟩ (1 : Fin 2) * 8192 ≤ (i 1).val ∧ (i 1).val < win12_1.index ⟨(i 0).val / 128, ht⟩ (1 : Fin 2) * 8192 + 8192
    rw [e3]; omega

/-- The call leaves its output array at the row form of the matrix it found in its input array. -/
theorem final (c : Dev nD) : (dat12 V c).arrAt 1 cfg12.N = rowN (src V c) :=
  (dat12 V c).arrAt_eq_of_cover 1 (rowN (src V c)) (fun t _ => flushed_eq V c t) cover

end Cert.Sinkhorn.Call12

end
-- ==== Proof.Call13.lean ====
/-
  Call 13 (a column call) as a whole-array step: whatever matrix the call finds in its input array, it leaves that
  matrix column-normalised in its output array.

  Grid point t stages columns 128 t … 128 t + 127 of the input, whole, and writes back the same columns of the output.
  A column's sum involves that column only, so the block's column form is those columns of the matrix's column form;
  the 64 blocks cover every column, so the output array ends as the column form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call13

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(0, t)`: decided over the 64 points. -/
theorem idx_facts : ∀ t : Fin cfg13.N, win13_0.index t (0 : Fin 2) = 0 ∧ win13_0.index t (1 : Fin 2) = t.val
    ∧ win13_1.index t (0 : Fin 2) = 0 ∧ win13_1.index t (1 : Fin 2) = t.val :=
  (by decide +kernel : ∀ t : Fin grid13.N, win13_0.index t (0 : Fin 2) = 0 ∧ win13_0.index t (1 : Fin 2) = t.val
    ∧ win13_1.index t (0 : Fin 2) = 0 ∧ win13_1.index t (1 : Fin 2) = t.val)

/-- The matrix the call finds in its input array. -/
abbrev src (c : Dev nD) : Vec Ideal S8192x8192 .f32 := V c main_v12

/-- Column `128 t + q` of the matrix. -/
def colOf (t : Fin cfg13.N) (q : Fin 128) : Fin 8192 :=
  ⟨t.val * 128 + q.val, by have := t.isLt; have h : cfg13.N = 64 := N_13; have := q.isLt; omega⟩

/-- The staged input block at point `t` holds columns `128 t + q` of the matrix, whole. -/
theorem block_cols (c : Dev nD) (t : Fin cfg13.N) (k : Fin 8192) (q : Fin 128) :
    iblk13 V c 0 t (ix2 k q) = src V c (ix2 k (colOf t q)) := by
  obtain ⟨e0, e1, -, -⟩ := idx_facts t
  show V c main_v12 (((cfg13.win 0).blk t).view.emb (ix2 k q)) = V c main_v12 (ix2 k (colOf t q))
  refine congrArg (V c main_v12) (funext fun a => Fin.ext ?_)
  match a with
  | ⟨0, _⟩ => show win13_0.index t (0 : Fin 2) * 8192 + 1 * k.val = k.val; omega
  | ⟨1, _⟩ => show win13_0.index t (1 : Fin 2) * 128 + 1 * q.val = t.val * 128 + q.val; omega

/-- What point `t` writes back is block `t` of the matrix's column form. -/
theorem flushed_eq (c : Dev nD) (t : Fin cfg13.N) :
    (dat13 V c).flushed 1 t = ((cfg13.win 1).blk t).view.read (Elt Ideal) (colN (src V c)) := by
  show (cfg13.win 1).cut (grid13.coords t) ((dat13 V c).after 1 t) = _
  rw [after13_1]
  unfold out13_1
  rw [View.canon_unit_zero hz]
  simp only [View.ld_unit_zero (S := S8192x128) hz]
  rw [pay13]
  obtain ⟨-, -, e2, e3⟩ := idx_facts t
  funext j
  obtain ⟨p, q, rfl⟩ : ∃ (p : Fin 8192) (q : Fin 128), j = ix2 p q := ⟨j 0, j 1, eq_ix2 j⟩
  show colNormalise eps (iblk13 V c 0 t) (ix2 p q) = colN (src V c) (((cfg13.win 1).blk t).view.emb (ix2 p q))
  refine (colNormalise_of_cols eps (iblk13 V c 0 t) (src V c) (colOf t) (block_cols V c t) p q).trans ?_
  unfold colN
  refine congrArg (colNormalise eps (src V c)) (funext fun a => Fin.ext ?_)
  match a with
  | ⟨0, _⟩ => show p.val = win13_1.index t (0 : Fin 2) * 8192 + 1 * p.val; omega
  | ⟨1, _⟩ => show t.val * 128 + q.val = win13_1.index t (1 : Fin 2) * 128 + 1 * q.val; omega

/-- An entry of the output array is in point `t`'s block iff each coordinate is in the block's range on its axis. -/
theorem mem_blk (t : Fin cfg13.N) (i : S8192x8192.Idx) :
    i ∈ ((cfg13.win 1).blk t).view.set ↔ ∀ a : Fin 2, win13_1.index t a * S8192x128.size a ≤ (i a).val ∧ (i a).val < win13_1.index t a * S8192x128.size a + S8192x128.size a := by
  show i ∈ ((View.whole main_v13).slice (win13_1.rect t)).set ↔ _
  rw [View.set_slice_whole, Rect.mem_set_unit]
  exact Iff.rfl

/-- Every entry of the output array is in the block of the point its column falls in. -/
theorem cover (i : S8192x8192.Idx) :
    ∃ t : Fin cfg13.N, (cfg13.win 1).flush t = true ∧ i ∈ ((cfg13.win 1).blk t).view.set := by
  have hi0 : (i 0).val < 8192 := (i 0).isLt
  have hi1 : (i 1).val < 8192 := (i 1).isLt
  have ht : (i 1).val / 128 < cfg13.N := lt_of_lt_of_eq (b := 64) (by omega) N_13.symm
  obtain ⟨-, -, e2, e3⟩ := idx_facts ⟨(i 1).val / 128, ht⟩
  refine ⟨⟨(i 1).val / 128, ht⟩, flush13_1 _, ?_⟩
  rw [mem_blk]
  intro a
  match a with
  | ⟨0, _⟩ =>
    show win13_1.index ⟨(i 1).val / 128, ht⟩ (0 : Fin 2) * 8192 ≤ (i 0).val ∧ (i 0).val < win13_1.index ⟨(i 1).val / 128, ht⟩ (0 : Fin 2) * 8192 + 8192
    rw [e2]; omega
  | ⟨1, _⟩ =>
    show win13_1.index ⟨(i 1).val / 128, ht⟩ (1 : Fin 2) * 128 ≤ (i 1).val ∧ (i 1).val < win13_1.index ⟨(i 1).val / 128, ht⟩ (1 : Fin 2) * 128 + 128
    rw [e3]; show (i 1).val / 128 * 128 ≤ (i 1).val ∧ (i 1).val < (i 1).val / 128 * 128 + 128; omega

/-- The call leaves its output array at the column form of the matrix it found in its input array. -/
theorem final (c : Dev nD) : (dat13 V c).arrAt 1 cfg13.N = colN (src V c) :=
  (dat13 V c).arrAt_eq_of_cover 1 (colN (src V c)) (fun t _ => flushed_eq V c t) cover

end Cert.Sinkhorn.Call13

end
-- ==== Proof.Call14.lean ====
/-
  Call 14 (a row call) as a whole-array step: whatever matrix the call finds in its input array, it leaves that
  matrix row-normalised in its output array.

  Grid point t stages rows 128 t … 128 t + 127 of the input, whole, and writes back the same rows of the output.  A
  row's sum involves that row only, so the block's row form is those rows of the matrix's row form; the 64 blocks
  cover every row, so the output array ends as the row form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call14

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(t, 0)`: decided over the 64 points. -/
theorem idx_facts : ∀ t : Fin cfg14.N, win14_0.index t (0 : Fin 2) = t.val ∧ win14_0.index t (1 : Fin 2) = 0
    ∧ win14_1.index t (0 : Fin 2) = t.val ∧ win14_1.index t (1 : Fin 2) = 0 :=
  (by decide +kernel : ∀ t : Fin grid14.N, win14_0.index t (0 : Fin 2) = t.val ∧ win14_0.index t (1 : Fin 2) = 0
    ∧ win14_1.index t (0 : Fin 2) = t.val ∧ win14_1.index t (1 : Fin 2) = 0)

/-- The matrix the call finds in its input array. -/
abbrev src (c : Dev nD) : Vec Ideal S8192x8192 .f32 := V c main_v13

/-- Row `128 t + p` of the matrix. -/
def rowOf (t : Fin cfg14.N) (p : Fin 128) : Fin 8192 :=
  ⟨t.val * 128 + p.val, by have := t.isLt; have h : cfg14.N = 64 := N_14; have := p.isLt; omega⟩

/-- The staged input block at point `t` holds rows `128 t + p` of the matrix, whole. -/
theorem block_rows (c : Dev nD) (t : Fin cfg14.N) (p : Fin 128) (k : Fin 8192) :
    iblk14 V c 0 t (ix2 p k) = src V c (ix2 (rowOf t p) k) := by
  obtain ⟨e0, e1, -, -⟩ := idx_facts t
  show V c main_v13 (((cfg14.win 0).blk t).view.emb (ix2 p k)) = V c main_v13 (ix2 (rowOf t p) k)
  refine congrArg (V c main_v13) (funext fun a => Fin.ext ?_)
  match a with
  | ⟨0, _⟩ => show win14_0.index t (0 : Fin 2) * 128 + 1 * p.val = t.val * 128 + p.val; omega
  | ⟨1, _⟩ => show win14_0.index t (1 : Fin 2) * 8192 + 1 * k.val = k.val; omega

/-- What point `t` writes back is block `t` of the matrix's row form. -/
theorem flushed_eq (c : Dev nD) (t : Fin cfg14.N) :
    (dat14 V c).flushed 1 t = ((cfg14.win 1).blk t).view.read (Elt Ideal) (rowN (src V c)) := by
  show (cfg14.win 1).cut (grid14.coords t) ((dat14 V c).after 1 t) = _
  rw [after14_1]
  unfold out14_1
  rw [View.canon_unit_zero hz]
  simp only [View.ld_unit_zero (S := S128x8192) hz]
  rw [pay14]
  obtain ⟨-, -, e2, e3⟩ := idx_facts t
  funext j
  obtain ⟨p, q, rfl⟩ : ∃ (p : Fin 128) (q : Fin 8192), j = ix2 p q := ⟨j 0, j 1, eq_ix2 j⟩
  show rowNormalise eps (iblk14 V c 0 t) (ix2 p q) = rowN (src V c) (((cfg14.win 1).blk t).view.emb (ix2 p q))
  refine (rowNormalise_of_rows eps (iblk14 V c 0 t) (src V c) (rowOf t) (block_rows V c t) p q).trans ?_
  unfold rowN
  refine congrArg (rowNormalise eps (src V c)) (funext fun a => Fin.ext ?_)
  match a with
  | ⟨0, _⟩ => show t.val * 128 + p.val = win14_1.index t (0 : Fin 2) * 128 + 1 * p.val; omega
  | ⟨1, _⟩ => show q.val = win14_1.index t (1 : Fin 2) * 8192 + 1 * q.val; omega

/-- An entry of the output array is in point `t`'s block iff each coordinate is in the block's range on its axis. -/
theorem mem_blk (t : Fin cfg14.N) (i : S8192x8192.Idx) :
    i ∈ ((cfg14.win 1).blk t).view.set ↔ ∀ a : Fin 2, win14_1.index t a * S128x8192.size a ≤ (i a).val ∧ (i a).val < win14_1.index t a * S128x8192.size a + S128x8192.size a := by
  show i ∈ ((View.whole main_v14).slice (win14_1.rect t)).set ↔ _
  rw [View.set_slice_whole, Rect.mem_set_unit]
  exact Iff.rfl

/-- Every entry of the output array is in the block of the point its row falls in. -/
theorem cover (i : S8192x8192.Idx) :
    ∃ t : Fin cfg14.N, (cfg14.win 1).flush t = true ∧ i ∈ ((cfg14.win 1).blk t).view.set := by
  have hi0 : (i 0).val < 8192 := (i 0).isLt
  have hi1 : (i 1).val < 8192 := (i 1).isLt
  have ht : (i 0).val / 128 < cfg14.N := lt_of_lt_of_eq (b := 64) (by omega) N_14.symm
  obtain ⟨-, -, e2, e3⟩ := idx_facts ⟨(i 0).val / 128, ht⟩
  refine ⟨⟨(i 0).val / 128, ht⟩, flush14_1 _, ?_⟩
  rw [mem_blk]
  intro a
  match a with
  | ⟨0, _⟩ =>
    show win14_1.index ⟨(i 0).val / 128, ht⟩ (0 : Fin 2) * 128 ≤ (i 0).val ∧ (i 0).val < win14_1.index ⟨(i 0).val / 128, ht⟩ (0 : Fin 2) * 128 + 128
    rw [e2]; show (i 0).val / 128 * 128 ≤ (i 0).val ∧ (i 0).val < (i 0).val / 128 * 128 + 128; omega
  | ⟨1, _⟩ =>
    show win14_1.index ⟨(i 0).val / 128, ht⟩ (1 : Fin 2) * 8192 ≤ (i 1).val ∧ (i 1).val < win14_1.index ⟨(i 0).val / 128, ht⟩ (1 : Fin 2) * 8192 + 8192
    rw [e3]; omega

/-- The call leaves its output array at the row form of the matrix it found in its input array. -/
theorem final (c : Dev nD) : (dat14 V c).arrAt 1 cfg14.N = rowN (src V c) :=
  (dat14 V c).arrAt_eq_of_cover 1 (rowN (src V c)) (fun t _ => flushed_eq V c t) cover

end Cert.Sinkhorn.Call14

end
-- ==== Proof.Call15.lean ====
/-
  Call 15 (a column call) as a whole-array step: whatever matrix the call finds in its input array, it leaves that
  matrix column-normalised in its output array.

  Grid point t stages columns 128 t … 128 t + 127 of the input, whole, and writes back the same columns of the output.
  A column's sum involves that column only, so the block's column form is those columns of the matrix's column form;
  the 64 blocks cover every column, so the output array ends as the column form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call15

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(0, t)`: decided over the 64 points. -/
theorem idx_facts : ∀ t : Fin cfg15.N, win15_0.index t (0 : Fin 2) = 0 ∧ win15_0.index t (1 : Fin 2) = t.val
    ∧ win15_1.index t (0 : Fin 2) = 0 ∧ win15_1.index t (1 : Fin 2) = t.val :=
  (by decide +kernel : ∀ t : Fin grid15.N, win15_0.index t (0 : Fin 2) = 0 ∧ win15_0.index t (1 : Fin 2) = t.val
    ∧ win15_1.index t (0 : Fin 2) = 0 ∧ win15_1.index t (1 : Fin 2) = t.val)

/-- The matrix the call finds in its input array. -/
abbrev src (c : Dev nD) : Vec Ideal S8192x8192 .f32 := V c main_v14

/-- Column `128 t + q` of the matrix. -/
def colOf (t : Fin cfg15.N) (q : Fin 128) : Fin 8192 :=
  ⟨t.val * 128 + q.val, by have := t.isLt; have h : cfg15.N = 64 := N_15; have := q.isLt; omega⟩

/-- The staged input block at point `t` holds columns `128 t + q` of the matrix, whole. -/
theorem block_cols (c : Dev nD) (t : Fin cfg15.N) (k : Fin 8192) (q : Fin 128) :
    iblk15 V c 0 t (ix2 k q) = src V c (ix2 k (colOf t q)) := by
  obtain ⟨e0, e1, -, -⟩ := idx_facts t
  show V c main_v14 (((cfg15.win 0).blk t).view.emb (ix2 k q)) = V c main_v14 (ix2 k (colOf t q))
  refine congrArg (V c main_v14) (funext fun a => Fin.ext ?_)
  match a with
  | ⟨0, _⟩ => show win15_0.index t (0 : Fin 2) * 8192 + 1 * k.val = k.val; omega
  | ⟨1, _⟩ => show win15_0.index t (1 : Fin 2) * 128 + 1 * q.val = t.val * 128 + q.val; omega

/-- What point `t` writes back is block `t` of the matrix's column form. -/
theorem flushed_eq (c : Dev nD) (t : Fin cfg15.N) :
    (dat15 V c).flushed 1 t = ((cfg15.win 1).blk t).view.read (Elt Ideal) (colN (src V c)) := by
  show (cfg15.win 1).cut (grid15.coords t) ((dat15 V c).after 1 t) = _
  rw [after15_1]
  unfold out15_1
  rw [View.canon_unit_zero hz]
  simp only [View.ld_unit_zero (S := S8192x128) hz]
  rw [pay15]
  obtain ⟨-, -, e2, e3⟩ := idx_facts t
  funext j
  obtain ⟨p, q, rfl⟩ : ∃ (p : Fin 8192) (q : Fin 128), j = ix2 p q := ⟨j 0, j 1, eq_ix2 j⟩
  show colNormalise eps (iblk15 V c 0 t) (ix2 p q) = colN (src V c) (((cfg15.win 1).blk t).view.emb (ix2 p q))
  refine (colNormalise_of_cols eps (iblk15 V c 0 t) (src V c) (colOf t) (block_cols V c t) p q).trans ?_
  unfold colN
  refine congrArg (colNormalise eps (src V c)) (funext fun a => Fin.ext ?_)
  match a with
  | ⟨0, _⟩ => show p.val = win15_1.index t (0 : Fin 2) * 8192 + 1 * p.val; omega
  | ⟨1, _⟩ => show t.val * 128 + q.val = win15_1.index t (1 : Fin 2) * 128 + 1 * q.val; omega

/-- An entry of the output array is in point `t`'s block iff each coordinate is in the block's range on its axis. -/
theorem mem_blk (t : Fin cfg15.N) (i : S8192x8192.Idx) :
    i ∈ ((cfg15.win 1).blk t).view.set ↔ ∀ a : Fin 2, win15_1.index t a * S8192x128.size a ≤ (i a).val ∧ (i a).val < win15_1.index t a * S8192x128.size a + S8192x128.size a := by
  show i ∈ ((View.whole main_v15).slice (win15_1.rect t)).set ↔ _
  rw [View.set_slice_whole, Rect.mem_set_unit]
  exact Iff.rfl

/-- Every entry of the output array is in the block of the point its column falls in. -/
theorem cover (i : S8192x8192.Idx) :
    ∃ t : Fin cfg15.N, (cfg15.win 1).flush t = true ∧ i ∈ ((cfg15.win 1).blk t).view.set := by
  have hi0 : (i 0).val < 8192 := (i 0).isLt
  have hi1 : (i 1).val < 8192 := (i 1).isLt
  have ht : (i 1).val / 128 < cfg15.N := lt_of_lt_of_eq (b := 64) (by omega) N_15.symm
  obtain ⟨-, -, e2, e3⟩ := idx_facts ⟨(i 1).val / 128, ht⟩
  refine ⟨⟨(i 1).val / 128, ht⟩, flush15_1 _, ?_⟩
  rw [mem_blk]
  intro a
  match a with
  | ⟨0, _⟩ =>
    show win15_1.index ⟨(i 1).val / 128, ht⟩ (0 : Fin 2) * 8192 ≤ (i 0).val ∧ (i 0).val < win15_1.index ⟨(i 1).val / 128, ht⟩ (0 : Fin 2) * 8192 + 8192
    rw [e2]; omega
  | ⟨1, _⟩ =>
    show win15_1.index ⟨(i 1).val / 128, ht⟩ (1 : Fin 2) * 128 ≤ (i 1).val ∧ (i 1).val < win15_1.index ⟨(i 1).val / 128, ht⟩ (1 : Fin 2) * 128 + 128
    rw [e3]; show (i 1).val / 128 * 128 ≤ (i 1).val ∧ (i 1).val < (i 1).val / 128 * 128 + 128; omega

/-- The call leaves its output array at the column form of the matrix it found in its input array. -/
theorem final (c : Dev nD) : (dat15 V c).arrAt 1 cfg15.N = colN (src V c) :=
  (dat15 V c).arrAt_eq_of_cover 1 (colN (src V c)) (fun t _ => flushed_eq V c t) cover

end Cert.Sinkhorn.Call15

end
-- ==== Proof.Call16.lean ====
/-
  Call 16 (a row call) as a whole-array step: whatever matrix the call finds in its input array, it leaves that
  matrix row-normalised in its output array.

  Grid point t stages rows 128 t … 128 t + 127 of the input, whole, and writes back the same rows of the output.  A
  row's sum involves that row only, so the block's row form is those rows of the matrix's row form; the 64 blocks
  cover every row, so the output array ends as the row form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call16

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(t, 0)`: decided over the 64 points. -/
theorem idx_facts : ∀ t : Fin cfg16.N, win16_0.index t (0 : Fin 2) = t.val ∧ win16_0.index t (1 : Fin 2) = 0
    ∧ win16_1.index t (0 : Fin 2) = t.val ∧ win16_1.index t (1 : Fin 2) = 0 :=
  (by decide +kernel : ∀ t : Fin grid16.N, win16_0.index t (0 : Fin 2) = t.val ∧ win16_0.index t (1 : Fin 2) = 0
    ∧ win16_1.index t (0 : Fin 2) = t.val ∧ win16_1.index t (1 : Fin 2) = 0)

/-- The matrix the call finds in its input array. -/
abbrev src (c : Dev nD) : Vec Ideal S8192x8192 .f32 := V c main_v15

/-- Row `128 t + p` of the matrix. -/
def rowOf (t : Fin cfg16.N) (p : Fin 128) : Fin 8192 :=
  ⟨t.val * 128 + p.val, by have := t.isLt; have h : cfg16.N = 64 := N_16; have := p.isLt; omega⟩

/-- The staged input block at point `t` holds rows `128 t + p` of the matrix, whole. -/
theorem block_rows (c : Dev nD) (t : Fin cfg16.N) (p : Fin 128) (k : Fin 8192) :
    iblk16 V c 0 t (ix2 p k) = src V c (ix2 (rowOf t p) k) := by
  obtain ⟨e0, e1, -, -⟩ := idx_facts t
  show V c main_v15 (((cfg16.win 0).blk t).view.emb (ix2 p k)) = V c main_v15 (ix2 (rowOf t p) k)
  refine congrArg (V c main_v15) (funext fun a => Fin.ext ?_)
  match a with
  | ⟨0, _⟩ => show win16_0.index t (0 : Fin 2) * 128 + 1 * p.val = t.val * 128 + p.val; omega
  | ⟨1, _⟩ => show win16_0.index t (1 : Fin 2) * 8192 + 1 * k.val = k.val; omega

/-- What point `t` writes back is block `t` of the matrix's row form. -/
theorem flushed_eq (c : Dev nD) (t : Fin cfg16.N) :
    (dat16 V c).flushed 1 t = ((cfg16.win 1).blk t).view.read (Elt Ideal) (rowN (src V c)) := by
  show (cfg16.win 1).cut (grid16.coords t) ((dat16 V c).after 1 t) = _
  rw [after16_1]
  unfold out16_1
  rw [View.canon_unit_zero hz]
  simp only [View.ld_unit_zero (S := S128x8192) hz]
  rw [pay16]
  obtain ⟨-, -, e2, e3⟩ := idx_facts t
  funext j
  obtain ⟨p, q, rfl⟩ : ∃ (p : Fin 128) (q : Fin 8192), j = ix2 p q := ⟨j 0, j 1, eq_ix2 j⟩
  show rowNormalise eps (iblk16 V c 0 t) (ix2 p q) = rowN (src V c) (((cfg16.win 1).blk t).view.emb (ix2 p q))
  refine (rowNormalise_of_rows eps (iblk16 V c 0 t) (src V c) (rowOf t) (block_rows V c t) p q).trans ?_
  unfold rowN
  refine congrArg (rowNormalise eps (src V c)) (funext fun a => Fin.ext ?_)
  match a with
  | ⟨0, _⟩ => show t.val * 128 + p.val = win16_1.index t (0 : Fin 2) * 128 + 1 * p.val; omega
  | ⟨1, _⟩ => show q.val = win16_1.index t (1 : Fin 2) * 8192 + 1 * q.val; omega

/-- An entry of the output array is in point `t`'s block iff each coordinate is in the block's range on its axis. -/
theorem mem_blk (t : Fin cfg16.N) (i : S8192x8192.Idx) :
    i ∈ ((cfg16.win 1).blk t).view.set ↔ ∀ a : Fin 2, win16_1.index t a * S128x8192.size a ≤ (i a).val ∧ (i a).val < win16_1.index t a * S128x8192.size a + S128x8192.size a := by
  show i ∈ ((View.whole main_v16).slice (win16_1.rect t)).set ↔ _
  rw [View.set_slice_whole, Rect.mem_set_unit]
  exact Iff.rfl

/-- Every entry of the output array is in the block of the point its row falls in. -/
theorem cover (i : S8192x8192.Idx) :
    ∃ t : Fin cfg16.N, (cfg16.win 1).flush t = true ∧ i ∈ ((cfg16.win 1).blk t).view.set := by
  have hi0 : (i 0).val < 8192 := (i 0).isLt
  have hi1 : (i 1).val < 8192 := (i 1).isLt
  have ht : (i 0).val / 128 < cfg16.N := lt_of_lt_of_eq (b := 64) (by omega) N_16.symm
  obtain ⟨-, -, e2, e3⟩ := idx_facts ⟨(i 0).val / 128, ht⟩
  refine ⟨⟨(i 0).val / 128, ht⟩, flush16_1 _, ?_⟩
  rw [mem_blk]
  intro a
  match a with
  | ⟨0, _⟩ =>
    show win16_1.index ⟨(i 0).val / 128, ht⟩ (0 : Fin 2) * 128 ≤ (i 0).val ∧ (i 0).val < win16_1.index ⟨(i 0).val / 128, ht⟩ (0 : Fin 2) * 128 + 128
    rw [e2]; show (i 0).val / 128 * 128 ≤ (i 0).val ∧ (i 0).val < (i 0).val / 128 * 128 + 128; omega
  | ⟨1, _⟩ =>
    show win16_1.index ⟨(i 0).val / 128, ht⟩ (1 : Fin 2) * 8192 ≤ (i 1).val ∧ (i 1).val < win16_1.index ⟨(i 0).val / 128, ht⟩ (1 : Fin 2) * 8192 + 8192
    rw [e3]; omega

/-- The call leaves its output array at the row form of the matrix it found in its input array. -/
theorem final (c : Dev nD) : (dat16 V c).arrAt 1 cfg16.N = rowN (src V c) :=
  (dat16 V c).arrAt_eq_of_cover 1 (rowN (src V c)) (fun t _ => flushed_eq V c t) cover

end Cert.Sinkhorn.Call16

end
-- ==== Proof.Call17.lean ====
/-
  Call 17 (a column call) as a whole-array step: whatever matrix the call finds in its input array, it leaves that
  matrix column-normalised in its output array.

  Grid point t stages columns 128 t … 128 t + 127 of the input, whole, and writes back the same columns of the output.
  A column's sum involves that column only, so the block's column form is those columns of the matrix's column form;
  the 64 blocks cover every column, so the output array ends as the column form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call17

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(0, t)`: decided over the 64 points. -/
theorem idx_facts : ∀ t : Fin cfg17.N, win17_0.index t (0 : Fin 2) = 0 ∧ win17_0.index t (1 : Fin 2) = t.val
    ∧ win17_1.index t (0 : Fin 2) = 0 ∧ win17_1.index t (1 : Fin 2) = t.val :=
  (by decide +kernel : ∀ t : Fin grid17.N, win17_0.index t (0 : Fin 2) = 0 ∧ win17_0.index t (1 : Fin 2) = t.val
    ∧ win17_1.index t (0 : Fin 2) = 0 ∧ win17_1.index t (1 : Fin 2) = t.val)

/-- The matrix the call finds in its input array. -/
abbrev src (c : Dev nD) : Vec Ideal S8192x8192 .f32 := V c main_v16

/-- Column `128 t + q` of the matrix. -/
def colOf (t : Fin cfg17.N) (q : Fin 128) : Fin 8192 :=
  ⟨t.val * 128 + q.val, by have := t.isLt; have h : cfg17.N = 64 := N_17; have := q.isLt; omega⟩

/-- The staged input block at point `t` holds columns `128 t + q` of the matrix, whole. -/
theorem block_cols (c : Dev nD) (t : Fin cfg17.N) (k : Fin 8192) (q : Fin 128) :
    iblk17 V c 0 t (ix2 k q) = src V c (ix2 k (colOf t q)) := by
  obtain ⟨e0, e1, -, -⟩ := idx_facts t
  show V c main_v16 (((cfg17.win 0).blk t).view.emb (ix2 k q)) = V c main_v16 (ix2 k (colOf t q))
  refine congrArg (V c main_v16) (funext fun a => Fin.ext ?_)
  match a with
  | ⟨0, _⟩ => show win17_0.index t (0 : Fin 2) * 8192 + 1 * k.val = k.val; omega
  | ⟨1, _⟩ => show win17_0.index t (1 : Fin 2) * 128 + 1 * q.val = t.val * 128 + q.val; omega

/-- What point `t` writes back is block `t` of the matrix's column form. -/
theorem flushed_eq (c : Dev nD) (t : Fin cfg17.N) :
    (dat17 V c).flushed 1 t = ((cfg17.win 1).blk t).view.read (Elt Ideal) (colN (src V c)) := by
  show (cfg17.win 1).cut (grid17.coords t) ((dat17 V c).after 1 t) = _
  rw [after17_1]
  unfold out17_1
  rw [View.canon_unit_zero hz]
  simp only [View.ld_unit_zero (S := S8192x128) hz]
  rw [pay17]
  obtain ⟨-, -, e2, e3⟩ := idx_facts t
  funext j
  obtain ⟨p, q, rfl⟩ : ∃ (p : Fin 8192) (q : Fin 128), j = ix2 p q := ⟨j 0, j 1, eq_ix2 j⟩
  show colNormalise eps (iblk17 V c 0 t) (ix2 p q) = colN (src V c) (((cfg17.win 1).blk t).view.emb (ix2 p q))
  refine (colNormalise_of_cols eps (iblk17 V c 0 t) (src V c) (colOf t) (block_cols V c t) p q).trans ?_
  unfold colN
  refine congrArg (colNormalise eps (src V c)) (funext fun a => Fin.ext ?_)
  match a with
  | ⟨0, _⟩ => show p.val = win17_1.index t (0 : Fin 2) * 8192 + 1 * p.val; omega
  | ⟨1, _⟩ => show t.val * 128 + q.val = win17_1.index t (1 : Fin 2) * 128 + 1 * q.val; omega

/-- An entry of the output array is in point `t`'s block iff each coordinate is in the block's range on its axis. -/
theorem mem_blk (t : Fin cfg17.N) (i : S8192x8192.Idx) :
    i ∈ ((cfg17.win 1).blk t).view.set ↔ ∀ a : Fin 2, win17_1.index t a * S8192x128.size a ≤ (i a).val ∧ (i a).val < win17_1.index t a * S8192x128.size a + S8192x128.size a := by
  show i ∈ ((View.whole main_v17).slice (win17_1.rect t)).set ↔ _
  rw [View.set_slice_whole, Rect.mem_set_unit]
  exact Iff.rfl

/-- Every entry of the output array is in the block of the point its column falls in. -/
theorem cover (i : S8192x8192.Idx) :
    ∃ t : Fin cfg17.N, (cfg17.win 1).flush t = true ∧ i ∈ ((cfg17.win 1).blk t).view.set := by
  have hi0 : (i 0).val < 8192 := (i 0).isLt
  have hi1 : (i 1).val < 8192 := (i 1).isLt
  have ht : (i 1).val / 128 < cfg17.N := lt_of_lt_of_eq (b := 64) (by omega) N_17.symm
  obtain ⟨-, -, e2, e3⟩ := idx_facts ⟨(i 1).val / 128, ht⟩
  refine ⟨⟨(i 1).val / 128, ht⟩, flush17_1 _, ?_⟩
  rw [mem_blk]
  intro a
  match a with
  | ⟨0, _⟩ =>
    show win17_1.index ⟨(i 1).val / 128, ht⟩ (0 : Fin 2) * 8192 ≤ (i 0).val ∧ (i 0).val < win17_1.index ⟨(i 1).val / 128, ht⟩ (0 : Fin 2) * 8192 + 8192
    rw [e2]; omega
  | ⟨1, _⟩ =>
    show win17_1.index ⟨(i 1).val / 128, ht⟩ (1 : Fin 2) * 128 ≤ (i 1).val ∧ (i 1).val < win17_1.index ⟨(i 1).val / 128, ht⟩ (1 : Fin 2) * 128 + 128
    rw [e3]; show (i 1).val / 128 * 128 ≤ (i 1).val ∧ (i 1).val < (i 1).val / 128 * 128 + 128; omega

/-- The call leaves its output array at the column form of the matrix it found in its input array. -/
theorem final (c : Dev nD) : (dat17 V c).arrAt 1 cfg17.N = colN (src V c) :=
  (dat17 V c).arrAt_eq_of_cover 1 (colN (src V c)) (fun t _ => flushed_eq V c t) cover

end Cert.Sinkhorn.Call17

end
-- ==== Proof.Call18.lean ====
/-
  Call 18 (a row call) as a whole-array step: whatever matrix the call finds in its input array, it leaves that
  matrix row-normalised in its output array.

  Grid point t stages rows 128 t … 128 t + 127 of the input, whole, and writes back the same rows of the output.  A
  row's sum involves that row only, so the block's row form is those rows of the matrix's row form; the 64 blocks
  cover every row, so the output array ends as the row form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call18

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(t, 0)`: decided over the 64 points. -/
theorem idx_facts : ∀ t : Fin cfg18.N, win18_0.index t (0 : Fin 2) = t.val ∧ win18_0.index t (1 : Fin 2) = 0
    ∧ win18_1.index t (0 : Fin 2) = t.val ∧ win18_1.index t (1 : Fin 2) = 0 :=
  (by decide +kernel : ∀ t : Fin grid18.N, win18_0.index t (0 : Fin 2) = t.val ∧ win18_0.index t (1 : Fin 2) = 0
    ∧ win18_1.index t (0 : Fin 2) = t.val ∧ win18_1.index t (1 : Fin 2) = 0)

/-- The matrix the call finds in its input array. -/
abbrev src (c : Dev nD) : Vec Ideal S8192x8192 .f32 := V c main_v17

/-- Row `128 t + p` of the matrix. -/
def rowOf (t : Fin cfg18.N) (p : Fin 128) : Fin 8192 :=
  ⟨t.val * 128 + p.val, by have := t.isLt; have h : cfg18.N = 64 := N_18; have := p.isLt; omega⟩

/-- The staged input block at point `t` holds rows `128 t + p` of the matrix, whole. -/
theorem block_rows (c : Dev nD) (t : Fin cfg18.N) (p : Fin 128) (k : Fin 8192) :
    iblk18 V c 0 t (ix2 p k) = src V c (ix2 (rowOf t p) k) := by
  obtain ⟨e0, e1, -, -⟩ := idx_facts t
  show V c main_v17 (((cfg18.win 0).blk t).view.emb (ix2 p k)) = V c main_v17 (ix2 (rowOf t p) k)
  refine congrArg (V c main_v17) (funext fun a => Fin.ext ?_)
  match a with
  | ⟨0, _⟩ => show win18_0.index t (0 : Fin 2) * 128 + 1 * p.val = t.val * 128 + p.val; omega
  | ⟨1, _⟩ => show win18_0.index t (1 : Fin 2) * 8192 + 1 * k.val = k.val; omega

/-- What point `t` writes back is block `t` of the matrix's row form. -/
theorem flushed_eq (c : Dev nD) (t : Fin cfg18.N) :
    (dat18 V c).flushed 1 t = ((cfg18.win 1).blk t).view.read (Elt Ideal) (rowN (src V c)) := by
  show (cfg18.win 1).cut (grid18.coords t) ((dat18 V c).after 1 t) = _
  rw [after18_1]
  unfold out18_1
  rw [View.canon_unit_zero hz]
  simp only [View.ld_unit_zero (S := S128x8192) hz]
  rw [pay18]
  obtain ⟨-, -, e2, e3⟩ := idx_facts t
  funext j
  obtain ⟨p, q, rfl⟩ : ∃ (p : Fin 128) (q : Fin 8192), j = ix2 p q := ⟨j 0, j 1, eq_ix2 j⟩
  show rowNormalise eps (iblk18 V c 0 t) (ix2 p q) = rowN (src V c) (((cfg18.win 1).blk t).view.emb (ix2 p q))
  refine (rowNormalise_of_rows eps (iblk18 V c 0 t) (src V c) (rowOf t) (block_rows V c t) p q).trans ?_
  unfold rowN
  refine congrArg (rowNormalise eps (src V c)) (funext fun a => Fin.ext ?_)
  match a with
  | ⟨0, _⟩ => show t.val * 128 + p.val = win18_1.index t (0 : Fin 2) * 128 + 1 * p.val; omega
  | ⟨1, _⟩ => show q.val = win18_1.index t (1 : Fin 2) * 8192 + 1 * q.val; omega

/-- An entry of the output array is in point `t`'s block iff each coordinate is in the block's range on its axis. -/
theorem mem_blk (t : Fin cfg18.N) (i : S8192x8192.Idx) :
    i ∈ ((cfg18.win 1).blk t).view.set ↔ ∀ a : Fin 2, win18_1.index t a * S128x8192.size a ≤ (i a).val ∧ (i a).val < win18_1.index t a * S128x8192.size a + S128x8192.size a := by
  show i ∈ ((View.whole main_v18).slice (win18_1.rect t)).set ↔ _
  rw [View.set_slice_whole, Rect.mem_set_unit]
  exact Iff.rfl

/-- Every entry of the output array is in the block of the point its row falls in. -/
theorem cover (i : S8192x8192.Idx) :
    ∃ t : Fin cfg18.N, (cfg18.win 1).flush t = true ∧ i ∈ ((cfg18.win 1).blk t).view.set := by
  have hi0 : (i 0).val < 8192 := (i 0).isLt
  have hi1 : (i 1).val < 8192 := (i 1).isLt
  have ht : (i 0).val / 128 < cfg18.N := lt_of_lt_of_eq (b := 64) (by omega) N_18.symm
  obtain ⟨-, -, e2, e3⟩ := idx_facts ⟨(i 0).val / 128, ht⟩
  refine ⟨⟨(i 0).val / 128, ht⟩, flush18_1 _, ?_⟩
  rw [mem_blk]
  intro a
  match a with
  | ⟨0, _⟩ =>
    show win18_1.index ⟨(i 0).val / 128, ht⟩ (0 : Fin 2) * 128 ≤ (i 0).val ∧ (i 0).val < win18_1.index ⟨(i 0).val / 128, ht⟩ (0 : Fin 2) * 128 + 128
    rw [e2]; show (i 0).val / 128 * 128 ≤ (i 0).val ∧ (i 0).val < (i 0).val / 128 * 128 + 128; omega
  | ⟨1, _⟩ =>
    show win18_1.index ⟨(i 0).val / 128, ht⟩ (1 : Fin 2) * 8192 ≤ (i 1).val ∧ (i 1).val < win18_1.index ⟨(i 0).val / 128, ht⟩ (1 : Fin 2) * 8192 + 8192
    rw [e3]; omega

/-- The call leaves its output array at the row form of the matrix it found in its input array. -/
theorem final (c : Dev nD) : (dat18 V c).arrAt 1 cfg18.N = rowN (src V c) :=
  (dat18 V c).arrAt_eq_of_cover 1 (rowN (src V c)) (fun t _ => flushed_eq V c t) cover

end Cert.Sinkhorn.Call18

end
-- ==== Proof.Call19.lean ====
/-
  Call 19 (a column call) as a whole-array step: whatever matrix the call finds in its input array, it leaves that
  matrix column-normalised in its output array.

  Grid point t stages columns 128 t … 128 t + 127 of the input, whole, and writes back the same columns of the output.
  A column's sum involves that column only, so the block's column form is those columns of the matrix's column form;
  the 64 blocks cover every column, so the output array ends as the column form of the input array.
-/
import proofs.«143127_j85392539779780_1_alg».proof.Proof.Gen.KernelIdeal.Frame
import proofs.«143127_j85392539779780_1_alg».proof.Proof.PayloadsRest
import Idealize.ShloMosaic.Lib.Pipeline.Value

set_option maxRecDepth 16384

noncomputable section

namespace Cert.Sinkhorn.Call19

open Cert.KernelIdeal Cert.KernelIdeal.Gen Idealize.ShloMosaic Idealize.ShloMosaic.TcCoe Idealize.SL.Sem
open Idealize.ShloMosaic.ValueIdx Cert.LibNormalise Cert.Sinkhorn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block index at point `t` is `(0, t)`: decided over the 64 points. -/
theorem idx_facts : ∀ t : Fin cfg19.N, win19_0.index t (0 : Fin 2) = 0 ∧ win19_0.index t (1 : Fin 2) = t.val
    ∧ win19_1.index t (0 : Fin 2) = 0 ∧ win19_1.index t (1 : Fin 2) = t.val :=
  (by decide +kernel : ∀ t : Fin grid19.N, win19_0.index t (0 : Fin 2) = 0 ∧ win19_0.index t (1 : Fin 2) = t.val
    ∧ win19_1.index t (0 : Fin 2) = 0 ∧ win19_1.index t (1 : Fin 2) = t.val)

/-- The matrix the call finds in its input array. -/
abbrev src (c : Dev nD) : Vec Ideal S8192x8192 .f32 := V c main_v18

/-- Column `128 t + q` of the matrix. -/
def colOf (t : Fin cfg19.N) (q : Fin 128) : Fin 8192 :=
  ⟨t.val * 128 + q.val, by have := t.isLt; have h : cfg19.N = 64 := N_19; have := q.isLt; omega⟩

/-- The staged input block at point `t` holds columns `128 t + q` of the matrix, whole. -/
theorem block_cols (c : Dev nD) (t : Fin cfg19.N) (k : Fin 8192) (q : Fin 128) :
    iblk19 V c 0 t (ix2 k q) = src V c (ix2 k (colOf t q)) := by
  obtain ⟨e0, e1, -, -⟩ := idx_facts t
  show V c main_v18 (((cfg19.win 0).blk t).view.emb (ix2 k q)) = V c main_v18 (ix2 k (colOf t q))
  refine congrArg (V c main_v18) (funext fun a => Fin.ext ?_)
  match a with
  | ⟨0, _⟩ => show win19_0.index t (0 : Fin 2) * 8192 + 1 * k.val = k.val; omega
  | ⟨1, _⟩ => show win19_0.index t (1 : Fin 2) * 128 + 1 * q.val = t.val * 128 + q.val; omega

/-- What point `t` writes back is block `t` of the matrix's column form. -/
theorem flushed_eq (c : Dev nD) (t : Fin cfg19.N) :
    (dat19 V c).flushed 1 t = ((cfg19.win 1).blk t).view.read (Elt Ideal) (colN (src V c)) := by
  show (cfg19.win 1).cut (grid19.coords t) ((dat19 V c).after 1 t) = _
  rw [after19_1]
  unfold out19_1
  rw [View.canon_unit_zero hz]
  simp only [View.ld_unit_zero (S := S8192x128) hz]
  rw [pay19]
  obtain ⟨-, -, e2, e3⟩ := idx_facts t
  funext j
  obtain ⟨p, q, rfl⟩ : ∃ (p : Fin 8192) (q : Fin 128), j = ix2 p q := ⟨j 0, j 1, eq_ix2 j⟩
  show colNormalise eps (iblk19 V c 0 t) (ix2 p q) = colN (src V c) (((cfg19.win 1).blk t).view.emb (ix2 p q))
  refine (colNormalise_of_cols eps (iblk19 V c 0 t) (src V c) (colOf t) (block_cols V c t) p q).trans ?_
  unfold colN
  refine congrArg (colNormalise eps (src V c)) (funext fun a => Fin.ext ?_)
  match a with
  | ⟨0, _⟩ => show p.val = win19_1.index t (0 : Fin 2) * 8192 + 1 * p.val; omega
  | ⟨1, _⟩ => show t.val * 128 + q.val = win19_1.index t (1 : Fin 2) * 128 + 1 * q.val; omega

/-- An entry of the output array is in point `t`'s block iff each coordinate is in the block's range on its axis. -/
theorem mem_blk (t : Fin cfg19.N) (i : S8192x8192.Idx) :
    i ∈ ((cfg19.win 1).blk t).view.set ↔ ∀ a : Fin 2, win19_1.index t a * S8192x128.size a ≤ (i a).val ∧ (i a).val < win19_1.index t a * S8192x128.size a + S8192x128.size a := by
  show i ∈ ((View.whole main_v19).slice (win19_1.rect t)).set ↔ _
  rw [View.set_slice_whole, Rect.mem_set_unit]
  exact Iff.rfl

/-- Every entry of the output array is in the block of the point its column falls in. -/
theorem cover (i : S8192x8192.Idx) :
    ∃ t : Fin cfg19.N, (cfg19.win 1).flush t = true ∧ i ∈ ((cfg19.win 1).blk t).view.set := by
  have hi0 : (i 0).val < 8192 := (i 0).isLt
  have hi1 : (i 1).val < 8192 := (i 1).isLt
  have ht : (i 1).val / 128 < cfg19.N := lt_of_lt_of_eq (b := 64) (by omega) N_19.symm
  obtain ⟨-, -, e2, e3⟩ := idx_facts ⟨(i 1).val / 128, ht⟩
  refine ⟨⟨(i 1).val / 128, ht⟩, flush19_1 _, ?_⟩
  rw [mem_blk]
  intro a
  match a with
  | ⟨0, _⟩ =>
    show win19_1.index ⟨(i 1).val / 128, ht⟩ (0 : Fin 2) * 8192 ≤ (i 0).val ∧ (i 0).val < win19_1.index ⟨(i 1).val / 128, ht⟩ (0 : Fin 2) * 8192 + 8192
    rw [e2]; omega
  | ⟨1, _⟩ =>
    show win19_1.index ⟨(i 1).val / 128, ht⟩ (1 : Fin 2) * 128 ≤ (i 1).val ∧ (i 1).val < win19_1.index ⟨(i 1).val / 128, ht⟩ (1 : Fin 2) * 128 + 128
    rw [e3]; show (i 1).val / 128 * 128 ≤ (i 1).val ∧ (i 1).val < (i 1).val / 128 * 128 + 128; omega

/-- The call leaves its output array at the column form of the matrix it found in its input array. -/
theorem final (c : Dev nD) : (dat19 V c).arrAt 1 cfg19.N = colN (src V c) :=
  (dat19 V c).arrAt_eq_of_cover 1 (colN (src V c)) (fun t _ => flushed_eq V c t) cover

end Cert.Sinkhorn.Call19

end
-- ==== Proof.Chain.lean ====
/-
  The kernel program's result as one function of its input.

  The twenty calls run one after another, each reading the array the one before it wrote.  Call 0 leaves the row form
  of the input's exponential; each odd call leaves the column form of what it reads and each later even call the row
  form.  Following the array contents from the launch to the return through these twenty steps gives ten rounds of
  rows-then-columns from the exponential.
-/
import proofs.«143127_j85392539779780_1_alg».proof.Proof.Call0
import proofs.«143127_j85392539779780_1_alg».proof.Proof.Call1
import proofs.«143127_j85392539779780_1_alg».proof.Proof.Call2
import proofs.«143127_j85392539779780_1_alg».proof.Proof.Call3
import proofs.«143127_j85392539779780_1_alg».proof.Proof.Call4
import proofs.«143127_j85392539779780_1_alg».proof.Proof.Call5
import proofs.«143127_j85392539779780_1_alg».proof.Proof.Call6
import proofs.«143127_j85392539779780_1_alg».proof.Proof.Call7
import proofs.«143127_j85392539779780_1_alg».proof.Proof.Call8
import proofs.«143127_j85392539779780_1_alg».proof.Proof.Call9
import proofs.«143127_j85392539779780_1_alg».proof.Proof.Call10
import proofs.«143127_j85392539779780_1_alg».proof.Proof.Call11
import proofs.«143127_j85392539779780_1_alg».proof.Proof.Call12
import proofs.«143127_j85392539779780_1_alg».proof.Proof.Call13
import proofs.«143127_j85392539779780_1_alg».proof.Proof.Call14
import proofs.«143127_j85392539779780_1_alg».proof.Proof.Call15
import proofs.«143127_j85392539779780_1_alg».proof.Proof.Call16
import proofs.«143127_j85392539779780_1_alg».proof.Proof.Call17
import proofs.«143127_j85392539779780_1_alg».proof.Proof.Call18
import proofs.«143127_j85392539779780_1_alg».proof.Proof.Call19

noncomputable section

namespace Cert.Sinkhorn

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After call 0 its output array holds the row form of the exponential of the launch contents of the input. -/
theorem after_call0 (c : Dev nD) : V1 m ρ c main_v0 = rowN (expAll (V0 m ρ c main_arg0)) :=
  (hF0 m ρ c 1).symm.trans (Call0.final (V0 m ρ) c)

/-- After call 1 its output array holds the column form of what call 0 left. -/
theorem after_call1 (c : Dev nD) : V2 m ρ c main_v1 = colN (V1 m ρ c main_v0) :=
  (hF1 m ρ c 1).symm.trans (Call1.final (V1 m ρ) c)

/-- After call 2 its output array holds the row form of what call 1 left. -/
theorem after_call2 (c : Dev nD) : V3 m ρ c main_v2 = rowN (V2 m ρ c main_v1) :=
  (hF2 m ρ c 1).symm.trans (Call2.final (V2 m ρ) c)

/-- After call 3 its output array holds the column form of what call 2 left. -/
theorem after_call3 (c : Dev nD) : V4 m ρ c main_v3 = colN (V3 m ρ c main_v2) :=
  (hF3 m ρ c 1).symm.trans (Call3.final (V3 m ρ) c)

/-- After call 4 its output array holds the row form of what call 3 left. -/
theorem after_call4 (c : Dev nD) : V5 m ρ c main_v4 = rowN (V4 m ρ c main_v3) :=
  (hF4 m ρ c 1).symm.trans (Call4.final (V4 m ρ) c)

/-- After call 5 its output array holds the column form of what call 4 left. -/
theorem after_call5 (c : Dev nD) : V6 m ρ c main_v5 = colN (V5 m ρ c main_v4) :=
  (hF5 m ρ c 1).symm.trans (Call5.final (V5 m ρ) c)

/-- After call 6 its output array holds the row form of what call 5 left. -/
theorem after_call6 (c : Dev nD) : V7 m ρ c main_v6 = rowN (V6 m ρ c main_v5) :=
  (hF6 m ρ c 1).symm.trans (Call6.final (V6 m ρ) c)

/-- After call 7 its output array holds the column form of what call 6 left. -/
theorem after_call7 (c : Dev nD) : V8 m ρ c main_v7 = colN (V7 m ρ c main_v6) :=
  (hF7 m ρ c 1).symm.trans (Call7.final (V7 m ρ) c)

/-- After call 8 its output array holds the row form of what call 7 left. -/
theorem after_call8 (c : Dev nD) : V9 m ρ c main_v8 = rowN (V8 m ρ c main_v7) :=
  (hF8 m ρ c 1).symm.trans (Call8.final (V8 m ρ) c)

/-- After call 9 its output array holds the column form of what call 8 left. -/
theorem after_call9 (c : Dev nD) : V10 m ρ c main_v9 = colN (V9 m ρ c main_v8) :=
  (hF9 m ρ c 1).symm.trans (Call9.final (V9 m ρ) c)

/-- After call 10 its output array holds the row form of what call 9 left. -/
theorem after_call10 (c : Dev nD) : V11 m ρ c main_v10 = rowN (V10 m ρ c main_v9) :=
  (hF10 m ρ c 1).symm.trans (Call10.final (V10 m ρ) c)

/-- After call 11 its output array holds the column form of what call 10 left. -/
theorem after_call11 (c : Dev nD) : V12 m ρ c main_v11 = colN (V11 m ρ c main_v10) :=
  (hF11 m ρ c 1).symm.trans (Call11.final (V11 m ρ) c)

/-- After call 12 its output array holds the row form of what call 11 left. -/
theorem after_call12 (c : Dev nD) : V13 m ρ c main_v12 = rowN (V12 m ρ c main_v11) :=
  (hF12 m ρ c 1).symm.trans (Call12.final (V12 m ρ) c)

/-- After call 13 its output array holds the column form of what call 12 left. -/
theorem after_call13 (c : Dev nD) : V14 m ρ c main_v13 = colN (V13 m ρ c main_v12) :=
  (hF13 m ρ c 1).symm.trans (Call13.final (V13 m ρ) c)

/-- After call 14 its output array holds the row form of what call 13 left. -/
theorem after_call14 (c : Dev nD) : V15 m ρ c main_v14 = rowN (V14 m ρ c main_v13) :=
  (hF14 m ρ c 1).symm.trans (Call14.final (V14 m ρ) c)

/-- After call 15 its output array holds the column form of what call 14 left. -/
theorem after_call15 (c : Dev nD) : V16 m ρ c main_v15 = colN (V15 m ρ c main_v14) :=
  (hF15 m ρ c 1).symm.trans (Call15.final (V15 m ρ) c)

/-- After call 16 its output array holds the row form of what call 15 left. -/
theorem after_call16 (c : Dev nD) : V17 m ρ c main_v16 = rowN (V16 m ρ c main_v15) :=
  (hF16 m ρ c 1).symm.trans (Call16.final (V16 m ρ) c)

/-- After call 17 its output array holds the column form of what call 16 left. -/
theorem after_call17 (c : Dev nD) : V18 m ρ c main_v17 = colN (V17 m ρ c main_v16) :=
  (hF17 m ρ c 1).symm.trans (Call17.final (V17 m ρ) c)

/-- After call 18 its output array holds the row form of what call 17 left. -/
theorem after_call18 (c : Dev nD) : V19 m ρ c main_v18 = rowN (V18 m ρ c main_v17) :=
  (hF18 m ρ c 1).symm.trans (Call18.final (V18 m ρ) c)

/-- After call 19 its output array holds the column form of what call 18 left. -/
theorem after_call19 (c : Dev nD) : V20 m ρ c main_v19 = colN (V19 m ρ c main_v18) :=
  (hF19 m ρ c 1).symm.trans (Call19.final (V19 m ρ) c)

/-- At the return the result array holds the ten rounds of the launch contents of the input. -/
theorem result_eq (c : Dev nD) :
    W20 m ρ c (Proc.devRef .tc main_v19) = balanced (m ((c : Thread nD τ).loc main_arg0)) := by
  show V20 m ρ c main_v19 = _
  rw [after_call19 m ρ c, after_call18 m ρ c, after_call17 m ρ c, after_call16 m ρ c, after_call15 m ρ c, after_call14 m ρ c, after_call13 m ρ c, after_call12 m ρ c, after_call11 m ρ c, after_call10 m ρ c, after_call9 m ρ c, after_call8 m ρ c, after_call7 m ρ c, after_call6 m ρ c, after_call5 m ρ c, after_call4 m ρ c, after_call3 m ρ c, after_call2 m ρ c, after_call1 m ρ c, after_call0 m ρ c]
  rfl

end Cert.Sinkhorn

end
-- ==== Proof.RefExp.lean ====
/-
  The reference program's first named value: the exponential of the input over the word of 1.0.  Dividing by one
  changes no extended real, so it is the entrywise exponential of the input.
-/
import proofs.«143127_j85392539779780_1_alg».proof.Proof.Gen.ReferenceIdeal.Run
import proofs.«143127_j85392539779780_1_alg».proof.Proof.Spec

noncomputable section

namespace Cert.Sinkhorn.Ref

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx Cert.LibNormalise Cert.Sinkhorn

variable (U : Valuation τ sig (Elt Ideal))

/-- The first named value is the entrywise exponential of the input. -/
theorem val2 : res_main_v2 (F := Ideal) U = expAll (U (Proc.devRef .tc main_arg0)) := by
  unfold res_main_v2
  funext i
  show Ideal.exp (Ideal.div (U (Proc.devRef .tc main_arg0) i)
      (broadcastInDim S8192x8192 ![] bcast_S_S8192x8192 (constant (F := Ideal) S_ .f32 0x3F800000#32) i))
    = Ideal.exp (U (Proc.devRef .tc main_arg0) i)
  rw [broadcastInDim_scalar_apply, constant_apply, div_one_word]

end Cert.Sinkhorn.Ref

end
-- ==== Proof.RefValue.lean ====
/-
  The reference program's result as the same function of its input.

  Its first named value is the exponential of the input (RefExp.lean).  Each later named value divides the one before it
  by its row sums plus the constant, or by its column sums plus the constant, alternately, spelt with a reduce from
  zero, two broadcasts and a quotient; the result does the last column step.  That is ten rounds of rows-then-columns
  from the exponential.
-/
import proofs.«143127_j85392539779780_1_alg».proof.Proof.RefExp

noncomputable section

namespace Cert.Sinkhorn.Ref

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx Cert.LibNormalise Cert.Sinkhorn

variable (U : Valuation τ sig (Elt Ideal))

/-- `main_v8` is the row form of `main_v2`. -/
theorem val8 : res_main_v8 (F := Ideal) U = rowN (res_main_v2 U) := by
  unfold res_main_v8 rowN
  exact host_rowNormalise _ _ _ (by decide) _ _ _ _

/-- `main_v14` is the column form of `main_v8`. -/
theorem val14 : res_main_v14 (F := Ideal) U = colN (res_main_v8 U) := by
  unfold res_main_v14 colN
  exact host_colNormalise _ _ _ (by decide) _ _ _ _

/-- `main_v20` is the row form of `main_v14`. -/
theorem val20 : res_main_v20 (F := Ideal) U = rowN (res_main_v14 U) := by
  unfold res_main_v20 rowN
  exact host_rowNormalise _ _ _ (by decide) _ _ _ _

/-- `main_v26` is the column form of `main_v20`. -/
theorem val26 : res_main_v26 (F := Ideal) U = colN (res_main_v20 U) := by
  unfold res_main_v26 colN
  exact host_colNormalise _ _ _ (by decide) _ _ _ _

/-- `main_v32` is the row form of `main_v26`. -/
theorem val32 : res_main_v32 (F := Ideal) U = rowN (res_main_v26 U) := by
  unfold res_main_v32 rowN
  exact host_rowNormalise _ _ _ (by decide) _ _ _ _

/-- `main_v38` is the column form of `main_v32`. -/
theorem val38 : res_main_v38 (F := Ideal) U = colN (res_main_v32 U) := by
  unfold res_main_v38 colN
  exact host_colNormalise _ _ _ (by decide) _ _ _ _

/-- `main_v44` is the row form of `main_v38`. -/
theorem val44 : res_main_v44 (F := Ideal) U = rowN (res_main_v38 U) := by
  unfold res_main_v44 rowN
  exact host_rowNormalise _ _ _ (by decide) _ _ _ _

/-- `main_v50` is the column form of `main_v44`. -/
theorem val50 : res_main_v50 (F := Ideal) U = colN (res_main_v44 U) := by
  unfold res_main_v50 colN
  exact host_colNormalise _ _ _ (by decide) _ _ _ _

/-- `main_v56` is the row form of `main_v50`. -/
theorem val56 : res_main_v56 (F := Ideal) U = rowN (res_main_v50 U) := by
  unfold res_main_v56 rowN
  exact host_rowNormalise _ _ _ (by decide) _ _ _ _

/-- `main_v62` is the column form of `main_v56`. -/
theorem val62 : res_main_v62 (F := Ideal) U = colN (res_main_v56 U) := by
  unfold res_main_v62 colN
  exact host_colNormalise _ _ _ (by decide) _ _ _ _

/-- `main_v68` is the row form of `main_v62`. -/
theorem val68 : res_main_v68 (F := Ideal) U = rowN (res_main_v62 U) := by
  unfold res_main_v68 rowN
  exact host_rowNormalise _ _ _ (by decide) _ _ _ _

/-- `main_v74` is the column form of `main_v68`. -/
theorem val74 : res_main_v74 (F := Ideal) U = colN (res_main_v68 U) := by
  unfold res_main_v74 colN
  exact host_colNormalise _ _ _ (by decide) _ _ _ _

/-- `main_v80` is the row form of `main_v74`. -/
theorem val80 : res_main_v80 (F := Ideal) U = rowN (res_main_v74 U) := by
  unfold res_main_v80 rowN
  exact host_rowNormalise _ _ _ (by decide) _ _ _ _

/-- `main_v86` is the column form of `main_v80`. -/
theorem val86 : res_main_v86 (F := Ideal) U = colN (res_main_v80 U) := by
  unfold res_main_v86 colN
  exact host_colNormalise _ _ _ (by decide) _ _ _ _

/-- `main_v92` is the row form of `main_v86`. -/
theorem val92 : res_main_v92 (F := Ideal) U = rowN (res_main_v86 U) := by
  unfold res_main_v92 rowN
  exact host_rowNormalise _ _ _ (by decide) _ _ _ _

/-- `main_v98` is the column form of `main_v92`. -/
theorem val98 : res_main_v98 (F := Ideal) U = colN (res_main_v92 U) := by
  unfold res_main_v98 colN
  exact host_colNormalise _ _ _ (by decide) _ _ _ _

/-- `main_v104` is the row form of `main_v98`. -/
theorem val104 : res_main_v104 (F := Ideal) U = rowN (res_main_v98 U) := by
  unfold res_main_v104 rowN
  exact host_rowNormalise _ _ _ (by decide) _ _ _ _

/-- `main_v110` is the column form of `main_v104`. -/
theorem val110 : res_main_v110 (F := Ideal) U = colN (res_main_v104 U) := by
  unfold res_main_v110 colN
  exact host_colNormalise _ _ _ (by decide) _ _ _ _

/-- `main_v116` is the row form of `main_v110`. -/
theorem val116 : res_main_v116 (F := Ideal) U = rowN (res_main_v110 U) := by
  unfold res_main_v116 rowN
  exact host_rowNormalise _ _ _ (by decide) _ _ _ _

/-- The result's term is the column form of `main_v116`. -/
theorem val122 :
    Host.divf (res_main_v116 (F := Ideal) U) (broadcastInDim S8192x8192 ![0, 1] bcast_S1x8192_S8192x8192_0_1
      (addf (broadcastInDim S1x8192 ![1] bcast_S8192_S1x8192_1 (Host.reduceAdd (res_main_v116 U) (constant S_ .f32 0x00000000#32) reducesTo_S8192x8192_S8192_d0 h_S_))
        (broadcastInDim S1x8192 ![] bcast_S_S1x8192 (constant S_ .f32 0x322BCC77#32))))
      = colN (res_main_v116 U) := by
  unfold colN
  exact host_colNormalise _ _ _ (by decide) _ _ _ _

/-- The result's term is the ten rounds of the input. -/
theorem result_eq :
    Host.divf (res_main_v116 (F := Ideal) U) (broadcastInDim S8192x8192 ![0, 1] bcast_S1x8192_S8192x8192_0_1
      (addf (broadcastInDim S1x8192 ![1] bcast_S8192_S1x8192_1 (Host.reduceAdd (res_main_v116 U) (constant S_ .f32 0x00000000#32) reducesTo_S8192x8192_S8192_d0 h_S_))
        (broadcastInDim S1x8192 ![] bcast_S_S1x8192 (constant S_ .f32 0x322BCC77#32))))
      = balanced (U (Proc.devRef .tc main_arg0)) := by
  rw [val122, val116, val110, val104, val98, val92, val86, val80, val74, val68, val62, val56, val50, val44, val38, val32, val26, val20, val14, val8, val2]
  rfl

end Cert.Sinkhorn.Ref

end
-- ==== Proof.lean ====
/-
  The kernel program and the reference compute the same matrix.

  Both start from the entrywise exponential of an 8192 x 8192 input (the kernel multiplies by 1.0 first and the
  reference divides by 1.0 first; neither changes an extended real) and then, ten times over, divide every entry by its
  row's sum plus a constant and then by its column's sum plus the same constant.  The kernel program does this in
  twenty calls, each over 64 blocks: a row call stages 128 whole rows, sums each row across its lanes and divides; a
  column call stages 128 whole columns, sums each column and divides.  The reference does each step on the whole matrix
  with a reduce, two broadcasts and a quotient.  At the ideal values a lane sum and a host reduce from zero are both
  the plain finite sum of the entries along the axis, a row's sum involves that row only (so a block of whole rows
  normalises to the same rows of the whole matrix's row form, and likewise for columns), and the 64 blocks of a call
  cover the matrix.  So after each call the array holds the same function of the array before it as the reference's
  matching step, and the two results are the same ten rounds of the same exponential.  No finiteness is used.

  The three programs run and leave their argument unchanged; the idealized kernel is the kernel's own text read at the
  ideal values, so nothing is asked of that step.
-/
import proofs.«143127_j85392539779780_1_alg».proof.Defs
import proofs.«143127_j85392539779780_1_alg».proof.Proof.Gen.Kernel
import proofs.«143127_j85392539779780_1_alg».proof.Proof.Gen.Kernel.Skeleton
import proofs.«143127_j85392539779780_1_alg».proof.Proof.Gen.Kernel.Launch
import proofs.«143127_j85392539779780_1_alg».proof.Proof.Gen.Kernel.Points
import proofs.«143127_j85392539779780_1_alg».proof.Proof.Gen.Kernel.Frame
import proofs.«143127_j85392539779780_1_alg».proof.Proof.Gen.KernelIdeal
import proofs.«143127_j85392539779780_1_alg».proof.Proof.Gen.KernelIdeal.Skeleton
import proofs.«143127_j85392539779780_1_alg».proof.Proof.Gen.KernelIdeal.Launch
import proofs.«143127_j85392539779780_1_alg».proof.Proof.Gen.KernelIdeal.Points
import proofs.«143127_j85392539779780_1_alg».proof.Proof.Gen.KernelIdeal.Frame
import proofs.«143127_j85392539779780_1_alg».proof.Proof.Gen.ReferenceIdeal
import proofs.«143127_j85392539779780_1_alg».proof.Proof.Gen.ReferenceIdeal.Run
import proofs.«143127_j85392539779780_1_alg».proof.Proof.Gen.Pre_finite_inputs
import proofs.«143127_j85392539779780_1_alg».proof.Proof.KernelRun
import proofs.«143127_j85392539779780_1_alg».proof.Proof.Chain
import proofs.«143127_j85392539779780_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its argument as launched. -/
theorem frame_kernel : Cert.frame_Kernel (hKernel := Cert.Kernel.Gen.facts) (hPre_finite_inputs := Cert.Pre_finite_inputs.Gen.facts) :=
  fun m ρ _ => Cert.Kernel.Gen.frame m ρ

/-- So does its reading at the ideal values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the ten rounds of their (agreeing) inputs in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Sinkhorn.balanced (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.Sinkhorn.result_eq m ρ c), (h c).2⟩)
      (Cert.Sinkhorn.KernelRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.Sinkhorn.Ref.result_eq]
    exact congrArg Cert.Sinkhorn.balanced (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
